-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000 : Shape := ⟨1, ![100000]⟩
abbrev S3x512x512 : Shape := ⟨3, ![3, 512, 512]⟩
abbrev S3x512 : Shape := ⟨2, ![3, 512]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S1024x10 .f32) (main_arg9 : FVec F S10 .f32) (main_v33 : IVec S_ 1) : IVec S_ 1 :=
  let main_v34 : FVec F S1024x10 .f32 := Host.absf main_arg8
  let main_cst_12 : FVec F S_ .f32 := constant S_ .f32 0x7F800000#32
  let main_v35 : FVec F S1024x10 .f32 := broadcastInDim S1024x10 ![] bcast_S_S1024x10 main_cst_12
  let main_v36 : IVec S1024x10 1 := cmpf .olt main_v34 main_v35
  let main_c_13 : IVec S_ 1 := constantI S_ 1 1#1
  let main_v37 : IVec S_ 1 := (fun x v => Host.reduce IntOp.andi x v reducesTo_S1024x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S3x512 .f32) (main_arg6 : FVec F S512x1024 .f32) (main_arg7 : FVec F S1024 .f32) (main_arg8 : FVec F S1024x10 .f32) (main_arg9 : FVec F S10 .f32) (main_v13 : IVec S_ 1) (main_v16 : IVec S3x512x512 1) : IVec S_ 1 :=
  let main_c_5 : IVec S_ 1 := constantI S_ 1 1#1
  let main_v17 : IVec S_ 1 := (fun x v => Host.reduce IntOp.andi x v reducesTo_S3x512x512_S_d0_1_2 h_S_) main_v16 main_c_5
  let main_v18 : IVec S_ 1 := andi main_v13 main_v17
  let main_v19 : FVec F S3x512 .f32 := Host.absf main_arg5
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S512x1024 .f32 := Host.absf main_arg6
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S100000x512 .f32) (main_arg1 : IVec S100000 32) (main_arg2 : FVec F S3x512x512 .f32) (main_arg3 : FVec F S3x512 .f32) (main_arg4 : FVec F S3x512x512 .f32) (main_arg5 : FVec F S3x512 .f32) (main_arg6 : FVec F S512x1024 .f32) (main_arg7 : FVec F S1024 .f32) (main_arg8 : FVec F S1024x10 .f32) (main_arg9 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3x512x512 .f32 := Host.absf main_arg2
  let main_cst_0 : FVec F S_ .f32 := constant S_ .f32 0x7F800000#32
  let main_v5 : FVec F S3x512x512 .f32 := broadcastInDim S3x512x512 ![] bcast_S_S3x512x512 main_cst_0
  let main_v6 : IVec S3x512x512 1 := cmpf .olt main_v4 main_v5
  let main_c_1 : IVec S_ 1 := constantI S_ 1 1#1
  let main_v7 : IVec S_ 1 := (fun x v => Host.reduce IntOp.andi x v reducesTo_S3x512x512_S_d0_1_2 h_S_) main_v6 main_c_1
  let main_v8 : IVec S_ 1 := andi main_v3 main_v7
  let main_v9 : FVec F S3x512 .f32 := Host.absf main_arg3
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S3x512x512 .f32 := Host.absf main_arg4
  let main_cst_4 : FVec F S_ .f32 := constant S_ .f32 0x7F800000#32
  let main_v15 : FVec F S3x512x512 .f32 := broadcastInDim S3x512x512 ![] bcast_S_S3x512x512 main_cst_4
  let main_v16 : IVec S3x512x512 1 := cmpf .olt main_v14 main_v15
  fn_part1 (F := F) main_arg5 main_arg6 main_arg7 main_arg8 main_arg9 main_v13 main_v16
-- ==== Kernel.lean ====
abbrev S100000x512 : Shape := ⟨2, ![100000, 512]⟩
abbrev S100000 : Shape := ⟨1, ![100000]⟩
abbrev S3x512x512 : Shape := ⟨3, ![3, 512, 512]⟩
abbrev S3x512 : Shape := ⟨2, ![3, 512]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S_ : Shape := ⟨0, ![]⟩
abbrev S4096x512 : Shape := ⟨2, ![4096, 512]⟩
abbrev S100000x1 : Shape := ⟨2, ![100000, 1]⟩
abbrev S4096x1 : Shape := ⟨2, ![4096, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1024x512 : Shape := ⟨2, ![1024, 512]⟩
abbrev S1000x512 : Shape := ⟨2, ![1000, 512]⟩
abbrev S4096x10 : Shape := ⟨2, ![4096, 10]⟩
abbrev S1024x1024 : Shape := ⟨2, ![1024, 1024]⟩
abbrev S1x1024 : Shape := ⟨2, ![1, 1024]⟩
abbrev S1x10 : Shape := ⟨2, ![1, 10]⟩

abbrev nBuf : Space → Nat
  | .hbm => 128
  | .vmem => 50
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S3x512x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S512x1024, .f32⟩
  | .hbm, ⟨7, _⟩ => ⟨S1024, .f32⟩
  | .hbm, ⟨8, _⟩ => ⟨S1024x10, .f32⟩
  | .hbm, ⟨9, _⟩ => ⟨S10, .f32⟩
  | .hbm, ⟨10, _⟩ => ⟨S_, .f32⟩
  | .hbm, ⟨11, _⟩ => ⟨S4096x512, .f32⟩
  | .hbm, ⟨12, _⟩ => ⟨S100000x1, .i32⟩
  | .hbm, ⟨13, _⟩ => ⟨S4096x512, .f32⟩
  | .hbm, ⟨14, _⟩ => ⟨S_, .f32⟩
  | .hbm, ⟨15, _⟩ => ⟨S100000x1, .f32⟩
  | .hbm, ⟨16, _⟩ => ⟨S_, .f32⟩
  | .hbm, ⟨17, _⟩ => ⟨S4096x1, .f32⟩
  | .hbm, ⟨18, _⟩ => ⟨S100000x1, .i32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S1x512x512, .f32⟩
  | .hbm, ⟨26, _⟩ => ⟨S512x512, .f32⟩
  | .hbm, ⟨27, _⟩ => ⟨S1x512, .f32⟩
  | .hbm, ⟨28, _⟩ => ⟨S512, .f32⟩
  | .hbm, ⟨29, _⟩ => ⟨S4096x512, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x512, .f32⟩
  | .hbm, ⟨39, _⟩ => ⟨S1x512x512, .f32⟩
  | .hbm, ⟨40, _⟩ => ⟨S512x512, .f32⟩
  | .hbm, ⟨41, _⟩ => ⟨S1x512, .f32⟩
  | .hbm, ⟨42, _⟩ => ⟨S512, .f32⟩
  | .hbm, ⟨43, _⟩ => ⟨S100000x512, .f32⟩
  | .hbm, ⟨44, _⟩ => ⟨S_, .f32⟩
  | .hbm, ⟨45, _⟩ => ⟨S4096x512, .f32⟩
  | .hbm, ⟨46, _⟩ => ⟨S100000x1, .i32⟩
  | .hbm, ⟨47, _⟩ => ⟨S4096x512, .f32⟩
  | .hbm, ⟨48, _⟩ => ⟨S_, .f32⟩
  | .hbm, ⟨49, _⟩ => ⟨S100000x1, .f32⟩
  | .hbm, ⟨50, _⟩ => ⟨S_, .f32⟩
  | .hbm, ⟨51, _⟩ => ⟨S4096x1, .f32⟩
  | .hbm, ⟨52, _⟩ => ⟨S100000x1, .i32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x512, .f32⟩
  | .hbm, ⟨58, _⟩ => ⟨S4096x512, .f32⟩
  | .hbm, ⟨59, _⟩ => ⟨S1x512x512, .f32⟩
  | .hbm, ⟨60, _⟩ => ⟨S512x512, .f32⟩
  | .hbm, ⟨61, _⟩ => ⟨S1x512, .f32⟩
  | .hbm, ⟨62, _⟩ => ⟨S512, .f32⟩
  | .hbm, ⟨63, _⟩ => ⟨S4096x512, .f32⟩
  | .hbm, ⟨64, _⟩ => ⟨S_, .i32⟩
  | .hbm, ⟨65, _⟩ => ⟨S100000, .i32⟩
  | .hbm, ⟨66, _⟩ => ⟨S100000, .i1⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000x1, .i32⟩
  | .hbm, ⟨72, _⟩ => ⟨S100000x512, .f32⟩
  | .hbm, ⟨73, _⟩ => ⟨S1x512x512, .f32⟩
  | .hbm, ⟨74, _⟩ => ⟨S512x512, .f32⟩
  | .hbm, ⟨75, _⟩ => ⟨S1x512, .f32⟩
  | .hbm, ⟨76, _⟩ => ⟨S512, .f32⟩
  | .hbm, ⟨77, _⟩ => ⟨S100000x512, .f32⟩
  | .hbm, ⟨78, _⟩ => ⟨S_, .f32⟩
  | .hbm, ⟨79, _⟩ => ⟨S4096x512, .f32⟩
  | .hbm, ⟨80, _⟩ => ⟨S100000x1, .i32⟩
  | .hbm, ⟨81, _⟩ => ⟨S4096x512, .f32⟩
  | .hbm, ⟨82, _⟩ => ⟨S_, .f32⟩
  | .hbm, ⟨83, _⟩ => ⟨S100000x1, .f32⟩
  | .hbm, ⟨84, _⟩ => ⟨S_, .f32⟩
  | .hbm, ⟨85, _⟩ => ⟨S4096x1, .f32⟩
  | .hbm, ⟨86, _⟩ => ⟨S100000x1, .i32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x512, .f32⟩
  | .hbm, ⟨92, _⟩ => ⟨S4096x512, .f32⟩
  | .hbm, ⟨93, _⟩ => ⟨S1x512x512, .f32⟩
  | .hbm, ⟨94, _⟩ => ⟨S512x512, .f32⟩
  | .hbm, ⟨95, _⟩ => ⟨S1x512, .f32⟩
  | .hbm, ⟨96, _⟩ => ⟨S512, .f32⟩
  | .hbm, ⟨97, _⟩ => ⟨S4096x512, .f32⟩
  | .hbm, ⟨98, _⟩ => ⟨S_, .i32⟩
  | .hbm, ⟨99, _⟩ => ⟨S100000, .i32⟩
  | .hbm, ⟨100, _⟩ => ⟨S100000, .i1⟩
  | .hbm, ⟨101, _⟩ => ⟨S_, .i32⟩
  | .hbm, ⟨102, _⟩ => ⟨S100000, .i32⟩
  | .hbm, ⟨103, _⟩ => ⟨S100000, .i32⟩
  | .hbm, ⟨104, _⟩ => ⟨S100000, .i32⟩
  | .hbm, ⟨105, _⟩ => ⟨S100000x1, .i32⟩
  | .hbm, ⟨106, _⟩ => ⟨S100000x512, .f32⟩
  | .hbm, ⟨107, _⟩ => ⟨S1x512x512, .f32⟩
  | .hbm, ⟨108, _⟩ => ⟨S512x512, .f32⟩
  | .hbm, ⟨109, _⟩ => ⟨S1x512, .f32⟩
  | .hbm, ⟨110, _⟩ => ⟨S512, .f32⟩
  | .hbm, ⟨111, _⟩ => ⟨S100000x512, .f32⟩
  | .hbm, ⟨112, _⟩ => ⟨S_, .f32⟩
  | .hbm, ⟨113, _⟩ => ⟨S4096x512, .f32⟩
  | .hbm, ⟨114, _⟩ => ⟨S100000x1, .i32⟩
  | .hbm, ⟨115, _⟩ => ⟨S4096x512, .f32⟩
  | .hbm, ⟨116, _⟩ => ⟨S_, .f32⟩
  | .hbm, ⟨117, _⟩ => ⟨S100000x1, .f32⟩
  | .hbm, ⟨118, _⟩ => ⟨S_, .f32⟩
  | .hbm, ⟨119, _⟩ => ⟨S4096x1, .f32⟩
  | .hbm, ⟨120, _⟩ => ⟨S100000x1, .i32⟩
  | .hbm, ⟨121, _⟩ => ⟨S4096x1, .f32⟩
  | .hbm, ⟨122, _⟩ => ⟨S_, .f32⟩
  | .hbm, ⟨123, _⟩ => ⟨S4096x1, .f32⟩
  | .hbm, ⟨124, _⟩ => ⟨S4096x1, .f32⟩
  | .hbm, ⟨125, _⟩ => ⟨S4096x512, .f32⟩
  | .hbm, ⟨126, _⟩ => ⟨S4096x512, .f32⟩
  | .hbm, ⟨127, _⟩ => ⟨S4096x10, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S1024x512, .f32⟩
  | .local _ .vmem, ⟨5, _⟩ => ⟨S1024x512, .f32⟩
  | .local _ .vmem, ⟨6, _⟩ => ⟨S1000x512, .f32⟩
  | .local _ .vmem, ⟨7, _⟩ => ⟨S1000x512, .f32⟩
  | .local _ .vmem, ⟨8, _⟩ => ⟨S512x512, .f32⟩
  | .local _ .vmem, ⟨9, _⟩ => ⟨S512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S512, .f32⟩
  | .local _ .vmem, ⟨18, _⟩ => ⟨S1024x512, .f32⟩
  | .local _ .vmem, ⟨19, _⟩ => ⟨S1024x512, .f32⟩
  | .local _ .vmem, ⟨20, _⟩ => ⟨S1000x512, .f32⟩
  | .local _ .vmem, ⟨21, _⟩ => ⟨S1000x512, .f32⟩
  | .local _ .vmem, ⟨22, _⟩ => ⟨S512x512, .f32⟩
  | .local _ .vmem, ⟨23, _⟩ => ⟨S512, .f32⟩
  | .local _ .vmem, ⟨24, _⟩ => ⟨S1000x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | .local _ .vmem, ⟨28, _⟩ => ⟨S1024x512, .f32⟩
  | .local _ .vmem, ⟨29, _⟩ => ⟨S1024x512, .f32⟩
  | .local _ .vmem, ⟨30, _⟩ => ⟨S512x512, .f32⟩
  | .local _ .vmem, ⟨31, _⟩ => ⟨S512, .f32⟩
  | .local _ .vmem, ⟨32, _⟩ => ⟨S1024x512, .f32⟩
  | .local _ .vmem, ⟨33, _⟩ => ⟨S1024x512, .f32⟩
  | .local _ .vmem, ⟨34, _⟩ => ⟨S1000x512, .f32⟩
  | .local _ .vmem, ⟨35, _⟩ => ⟨S1000x512, .f32⟩
  | .local _ .vmem, ⟨36, _⟩ => ⟨S512x512, .f32⟩
  | .local _ .vmem, ⟨37, _⟩ => ⟨S512, .f32⟩
  | .local _ .vmem, ⟨38, _⟩ => ⟨S1000x512, .f32⟩
  | .local _ .vmem, ⟨39, _⟩ => ⟨S1000x512, .f32⟩
  | .local _ .vmem, ⟨40, _⟩ => ⟨S1000x512, .f32⟩
  | .local _ .vmem, ⟨41, _⟩ => ⟨S1000x512, .f32⟩
  | .local _ .vmem, ⟨42, _⟩ => ⟨S1024x512, .f32⟩
  | .local _ .vmem, ⟨43, _⟩ => ⟨S1024x512, .f32⟩
  | .local _ .vmem, ⟨44, _⟩ => ⟨S512x1024, .f32⟩
  | .local _ .vmem, ⟨45, _⟩ => ⟨S1024, .f32⟩
  | .local _ .vmem, ⟨46, _⟩ => ⟨S1024x10, .f32⟩
  | .local _ .vmem, ⟨47, _⟩ => ⟨S10, .f32⟩
  | .local _ .vmem, ⟨48, _⟩ => ⟨S1024x10, .f32⟩
  | .local _ .vmem, ⟨49, _⟩ => ⟨S1024x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_14 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1000x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1024x10 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S4096x512 : S_.BroadcastsInDim S4096x512 (![] : Fin 0 → Fin S4096x512.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  bcast_S_S100000 : S_.BroadcastsInDim S100000 (![] : Fin 0 → Fin S100000.rank)
  inb_S1000x512_S1000x512_0_0 : ∀ a, (![0, 0] : Fin 2 → Nat) a + S1000x512.size a ≤ S1000x512.size a
  h_S1000x512 : 0 < S1000x512.numel
  broadcasts_S1x512_S1000x512 : S1x512.Broadcasts S1000x512
  shapeCasts_S1000x512_S1000x512 : S1000x512.ShapeCasts S1000x512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x10_S1024x10_0_0 : ∀ a, (![0, 0] : Fin 2 → Nat) a + S1024x10.size a ≤ S1024x10.size a
  h_S1024x10 : 0 < S1024x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  scatter_S4096x512_S100000x1_S100000x512_1_0_0_1_wf : ScatterDims.WF S4096x512 S100000x1 S100000x512 [1] [0] [0] 1
  scatter_S4096x1_S100000x1_S100000x1_1_0_0_1_wf : ScatterDims.WF S4096x1 S100000x1 S100000x1 [1] [0] [0] 1
  dot_S1024x512_S512x512_S1024x512_1_0_0_1_n_n_wf : DotDims.WF S1024x512 S512x512 S1024x512 [1] [0] [0] [1] [] []
  gather_S4096x512_S100000x1_S100000x512_1_0_n_n_0_1_1512_wf : GatherDims.WF S4096x512 S100000x1 S100000x512 [1] [0] [] [0] [] 1 ![1, 512]
  dot_S1000x512_S512x512_S1000x512_1_0_0_1_n_n_wf : DotDims.WF S1000x512 S512x512 S1000x512 [1] [0] [0] [1] [] []
  dot_S1024x512_S512x1024_S1024x1024_1_0_0_1_n_n_wf : DotDims.WF S1024x512 S512x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S100000x512.size a
  hwx1_0 : ∀ i : grid1.Coords, EltTy.bits .f32 = 32 ∨ (Rect.block (s := S100000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S100000x512.size a
  hwx1_3 : ∀ i : grid1.Coords, EltTy.bits .f32 = 32 ∨ (Rect.block (s := S100000x512) S1000x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S100000x512.size a
  hwx1_4 : ∀ i : grid1.Coords, EltTy.bits .f32 = 32 ∨ (Rect.block (s := S100000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x512.size a
  hwx2_3 : ∀ i : grid2.Coords, EltTy.bits .f32 = 32 ∨ (Rect.block (s := S4096x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S100000x512.size a
  hwx3_0 : ∀ i : grid3.Coords, EltTy.bits .f32 = 32 ∨ (Rect.block (s := S100000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S512.size a
  hwx3_2 : ∀ i : grid3.Coords, EltTy.bits .f32 = 32 ∨ (Rect.block (s := S512) S512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S100000x512.size a
  hwx3_3 : ∀ i : grid3.Coords, EltTy.bits .f32 = 32 ∨ (Rect.block (s := S100000x512) S1000x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x512.size a ≤ S100000x512.size a
  hwx3_4 : ∀ i : grid3.Coords, EltTy.bits .f32 = 32 ∨ (Rect.block (s := S100000x512) S1000x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x512.size a
  hwx4_0 : ∀ i : grid4.Coords, EltTy.bits .f32 = 32 ∨ (Rect.block (s := S4096x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S4096x512.size a
  hwx4_3 : ∀ i : grid4.Coords, EltTy.bits .f32 = 32 ∨ (Rect.block (s := S4096x512) S1024x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S100000x512.size a
  hwx5_0 : ∀ i : grid5.Coords, EltTy.bits .f32 = 32 ∨ (Rect.block (s := S100000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512.size a ≤ S512.size a
  hwx5_2 : ∀ i : grid5.Coords, EltTy.bits .f32 = 32 ∨ (Rect.block (s := S512) S512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x512.size a ≤ S100000x512.size a
  hwx5_3 : ∀ i : grid5.Coords, EltTy.bits .f32 = 32 ∨ (Rect.block (s := S100000x512) S1000x512.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x512.size a ≤ S100000x512.size a
  hwx5_4 : ∀ i : grid5.Coords, EltTy.bits .f32 = 32 ∨ (Rect.block (s := S100000x512) S1000x512.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S4096x512.size a
  hwx6_0 : ∀ i : grid6.Coords, EltTy.bits .f32 = 32 ∨ (Rect.block (s := S4096x512) S1024x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1024.size a ≤ S512x1024.size a
  hwx6_1 : ∀ i : grid6.Coords, EltTy.bits .f32 = 32 ∨ (Rect.block (s := S512x1024) S512x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024.size a ≤ S1024.size a
  hwx6_2 : ∀ i : grid6.Coords, EltTy.bits .f32 = 32 ∨ (Rect.block (s := S1024) S1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x10.size a ≤ S1024x10.size a
  hwx6_3 : ∀ i : grid6.Coords, EltTy.bits .f32 = 32 ∨ (Rect.block (s := S1024x10) S1024x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S10.size a ≤ S10.size a
  hwx6_4 : ∀ i : grid6.Coords, EltTy.bits .f32 = 32 ∨ (Rect.block (s := S10) S10.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1024x10.size a ≤ S4096x10.size a
  hwx6_5 : ∀ i : grid6.Coords, EltTy.bits .f32 = 32 ∨ (Rect.block (s := S4096x10) S1024x10.size (cc6_transform_5 i) (hinb6_5 i)).WholeWords (EltTy.packing .f32)

variable [Facts₀]

def scatter_S4096x512_S100000x1_S100000x512_1_0_0_1 : ScatterDims S4096x512 S100000x1 S100000x512 where
  updateWindowDims := [1]
  insertedWindowDims := [0]
  scatterDimsToOperandDims := [0]
  indexVectorDim := 1
  wf := scatter_S4096x512_S100000x1_S100000x512_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S4096x512_S100000x1_S100000x512_1_0_n_n_0_1_1512 : GatherDims S4096x512 S100000x1 S100000x512 where
  offsetDims := [1]
  collapsedSliceDims := [0]
  operandBatchingDims := []
  startIndicesBatchingDims := []
  startIndexMap := [0]
  indexVectorDim := 1
  sliceSizes := ![1, 512]
  wf := gather_S4096x512_S100000x1_S100000x512_1_0_n_n_0_1_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1000x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1000x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1000x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1000x512.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v94) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S512x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg8) S1024x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v95) S1024x10.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x512 : Shape := ⟨2, ![100000, 512]⟩
abbrev S100000 : Shape := ⟨1, ![100000]⟩
abbrev S3x512x512 : Shape := ⟨3, ![3, 512, 512]⟩
abbrev S3x512 : Shape := ⟨2, ![3, 512]⟩
abbrev S512x1024 : Shape := ⟨2, ![512, 1024]⟩
abbrev S1024 : Shape := ⟨1, ![1024]⟩
abbrev S1024x10 : Shape := ⟨2, ![1024, 10]⟩
abbrev S10 : Shape := ⟨1, ![10]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S_ : Shape := ⟨0, ![]⟩
abbrev S4096x512 : Shape := ⟨2, ![4096, 512]⟩
abbrev S100000x1 : Shape := ⟨2, ![100000, 1]⟩
abbrev S4096x1 : Shape := ⟨2, ![4096, 1]⟩
abbrev S4096x1024 : Shape := ⟨2, ![4096, 1024]⟩
abbrev S1x1024 : Shape := ⟨2, ![1, 1024]⟩
abbrev S4096x10 : Shape := ⟨2, ![4096, 10]⟩
abbrev S1x10 : Shape := ⟨2, ![1, 10]⟩

abbrev nBuf : Space → Nat
  | .hbm => 204
  | .vmem => 0
  | .smem => 0
  | _ => 0

abbrev hbmTy0_0 (i : Nat) : BufTy := match i % 128 with
  | 0 => ⟨S100000x512, .f32⟩
  | 1 => ⟨S100000, .i32⟩
  | 2 => ⟨S3x512x512, .f32⟩
  | 3 => ⟨S3x512, .f32⟩
  | 4 => ⟨S3x512x512, .f32⟩
  | 5 => ⟨S3x512, .f32⟩
  | 6 => ⟨S512x1024, .f32⟩
  | 7 => ⟨S1024, .f32⟩
  | 8 => ⟨S1024x10, .f32⟩
  | 9 => ⟨S10, .f32⟩
  | 10 => ⟨S1x512x512, .f32⟩
  | 11 => ⟨S512x512, .f32⟩
  | 12 => ⟨S100000x512, .f32⟩
  | 13 => ⟨S1x512, .f32⟩
  | 14 => ⟨S512, .f32⟩
  | 15 => ⟨S1x512, .f32⟩
  | 16 => ⟨S100000x512, .f32⟩
  | 17 => ⟨S100000x512, .f32⟩
  | 18 => ⟨S_, .f32⟩
  | 19 => ⟨S4096x512, .f32⟩
  | 20 => ⟨S100000x1, .i32⟩
  | 21 => ⟨S4096x512, .f32⟩
  | 22 => ⟨S_, .f32⟩
  | 23 => ⟨S100000x1, .f32⟩
  | 24 => ⟨S_, .f32⟩
  | 25 => ⟨S4096x1, .f32⟩
  | 26 => ⟨S100000x1, .i32⟩
  | 27 => ⟨S4096x1, .f32⟩
  | 28 => ⟨S_, .f32⟩
  | 29 => ⟨S4096x1, .f32⟩
  | 30 => ⟨S4096x1, .f32⟩
  | 31 => ⟨S4096x512, .f32⟩
  | 32 => ⟨S4096x512, .f32⟩
  | 33 => ⟨S1x512x512, .f32⟩
  | 34 => ⟨S512x512, .f32⟩
  | 35 => ⟨S4096x512, .f32⟩
  | 36 => ⟨S1x512, .f32⟩
  | 37 => ⟨S512, .f32⟩
  | 38 => ⟨S1x512, .f32⟩
  | 39 => ⟨S4096x512, .f32⟩
  | 40 => ⟨S4096x512, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x512, .f32⟩
  | 50 => ⟨S100000x512, .f32⟩
  | 51 => ⟨S_, .f32⟩
  | 52 => ⟨S100000x512, .f32⟩
  | 53 => ⟨S100000x512, .i1⟩
  | 54 => ⟨S_, .f32⟩
  | 55 => ⟨S100000x512, .f32⟩
  | 56 => ⟨S100000x512, .i1⟩
  | 57 => ⟨S_, .f32⟩
  | 58 => ⟨S_, .f32⟩
  | 59 => ⟨S100000x512, .f32⟩
  | 60 => ⟨S100000x512, .f32⟩
  | 61 => ⟨S100000x512, .f32⟩
  | 62 => ⟨S_, .f32⟩
  | 63 => ⟨S100000x512, .f32⟩
  | 64 => ⟨S100000x512, .f32⟩
  | 65 => ⟨S100000x512, .f32⟩
  | 66 => ⟨S1x512x512, .f32⟩
  | 67 => ⟨S512x512, .f32⟩
  | 68 => ⟨S100000x512, .f32⟩
  | 69 => ⟨S1x512, .f32⟩
  | 70 => ⟨S512, .f32⟩
  | 71 => ⟨S1x512, .f32⟩
  | 72 => ⟨S100000x512, .f32⟩
  | 73 => ⟨S100000x512, .f32⟩
  | 74 => ⟨S_, .f32⟩
  | 75 => ⟨S4096x512, .f32⟩
  | 76 => ⟨S100000x1, .i32⟩
  | 77 => ⟨S4096x512, .f32⟩
  | 78 => ⟨S_, .f32⟩
  | 79 => ⟨S100000x1, .f32⟩
  | 80 => ⟨S_, .f32⟩
  | 81 => ⟨S4096x1, .f32⟩
  | 82 => ⟨S100000x1, .i32⟩
  | 83 => ⟨S4096x1, .f32⟩
  | 84 => ⟨S_, .f32⟩
  | 85 => ⟨S4096x1, .f32⟩
  | 86 => ⟨S4096x1, .f32⟩
  | 87 => ⟨S4096x512, .f32⟩
  | 88 => ⟨S4096x512, .f32⟩
  | 89 => ⟨S1x512x512, .f32⟩
  | 90 => ⟨S512x512, .f32⟩
  | 91 => ⟨S4096x512, .f32⟩
  | 92 => ⟨S1x512, .f32⟩
  | 93 => ⟨S512, .f32⟩
  | 94 => ⟨S1x512, .f32⟩
  | 95 => ⟨S4096x512, .f32⟩
  | 96 => ⟨S4096x512, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x512, .f32⟩
  | 106 => ⟨S100000x512, .f32⟩
  | 107 => ⟨S_, .f32⟩
  | 108 => ⟨S100000x512, .f32⟩
  | 109 => ⟨S100000x512, .i1⟩
  | 110 => ⟨S_, .f32⟩
  | 111 => ⟨S100000x512, .f32⟩
  | 112 => ⟨S100000x512, .i1⟩
  | 113 => ⟨S_, .f32⟩
  | 114 => ⟨S_, .f32⟩
  | 115 => ⟨S100000x512, .f32⟩
  | 116 => ⟨S100000x512, .f32⟩
  | 117 => ⟨S100000x512, .f32⟩
  | 118 => ⟨S_, .f32⟩
  | 119 => ⟨S100000x512, .f32⟩
  | 120 => ⟨S100000x512, .f32⟩
  | 121 => ⟨S100000x512, .f32⟩
  | 122 => ⟨S1x512x512, .f32⟩
  | 123 => ⟨S512x512, .f32⟩
  | 124 => ⟨S100000x512, .f32⟩
  | 125 => ⟨S1x512, .f32⟩
  | 126 => ⟨S512, .f32⟩
  | 127 => ⟨S1x512, .f32⟩
  | _ => ⟨S100000x512, .f32⟩

abbrev hbmTy0_1 (i : Nat) : BufTy := match i % 128 with
  | 0 => ⟨S100000x512, .f32⟩
  | 1 => ⟨S100000x512, .f32⟩
  | 2 => ⟨S_, .f32⟩
  | 3 => ⟨S4096x512, .f32⟩
  | 4 => ⟨S100000x1, .i32⟩
  | 5 => ⟨S4096x512, .f32⟩
  | 6 => ⟨S_, .f32⟩
  | 7 => ⟨S100000x1, .f32⟩
  | 8 => ⟨S_, .f32⟩
  | 9 => ⟨S4096x1, .f32⟩
  | 10 => ⟨S100000x1, .i32⟩
  | 11 => ⟨S4096x1, .f32⟩
  | 12 => ⟨S_, .f32⟩
  | 13 => ⟨S4096x1, .f32⟩
  | 14 => ⟨S4096x1, .f32⟩
  | 15 => ⟨S4096x512, .f32⟩
  | 16 => ⟨S4096x512, .f32⟩
  | 17 => ⟨S1x512x512, .f32⟩
  | 18 => ⟨S512x512, .f32⟩
  | 19 => ⟨S4096x512, .f32⟩
  | 20 => ⟨S1x512, .f32⟩
  | 21 => ⟨S512, .f32⟩
  | 22 => ⟨S1x512, .f32⟩
  | 23 => ⟨S4096x512, .f32⟩
  | 24 => ⟨S4096x512, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x512, .f32⟩
  | 34 => ⟨S100000x512, .f32⟩
  | 35 => ⟨S_, .f32⟩
  | 36 => ⟨S100000x512, .f32⟩
  | 37 => ⟨S100000x512, .i1⟩
  | 38 => ⟨S_, .f32⟩
  | 39 => ⟨S100000x512, .f32⟩
  | 40 => ⟨S100000x512, .i1⟩
  | 41 => ⟨S_, .f32⟩
  | 42 => ⟨S_, .f32⟩
  | 43 => ⟨S100000x512, .f32⟩
  | 44 => ⟨S100000x512, .f32⟩
  | 45 => ⟨S100000x512, .f32⟩
  | 46 => ⟨S_, .f32⟩
  | 47 => ⟨S100000x512, .f32⟩
  | 48 => ⟨S100000x512, .f32⟩
  | 49 => ⟨S100000x512, .f32⟩
  | 50 => ⟨S_, .f32⟩
  | 51 => ⟨S4096x512, .f32⟩
  | 52 => ⟨S100000x1, .i32⟩
  | 53 => ⟨S4096x512, .f32⟩
  | 54 => ⟨S_, .f32⟩
  | 55 => ⟨S100000x1, .f32⟩
  | 56 => ⟨S_, .f32⟩
  | 57 => ⟨S4096x1, .f32⟩
  | 58 => ⟨S100000x1, .i32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S4096x1024, .f32⟩
  | 66 => ⟨S1x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x10, .f32⟩
  | 73 => ⟨S1x10, .f32⟩
  | 74 => ⟨S4096x10, .f32⟩
  | 75 => ⟨S4096x10, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_cst_1 : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_v4 : Ref sig .tc := ⟨.hbm, 60, rfl⟩
abbrev main_call0_v5 : Ref sig .tc := ⟨.hbm, 61, rfl⟩
abbrev main_call0_cst_2 : Ref sig .tc := ⟨.hbm, 62, rfl⟩
abbrev main_call0_v6 : Ref sig .tc := ⟨.hbm, 63, rfl⟩
abbrev main_call0_v7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_7 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_8 : Ref sig .tc := ⟨.hbm, 97, rfl⟩
abbrev main_v63 : Ref sig .tc := ⟨.hbm, 98, rfl⟩
abbrev main_v64 : Ref sig .tc := ⟨.hbm, 99, rfl⟩
abbrev main_c_9 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_cst_0 : Ref sig .tc := ⟨.hbm, 110, rfl⟩
abbrev main_call1_v2 : Ref sig .tc := ⟨.hbm, 111, rfl⟩
abbrev main_call1_v3 : Ref sig .tc := ⟨.hbm, 112, rfl⟩
abbrev main_call1_cst_1 : Ref sig .tc := ⟨.hbm, 113, rfl⟩
abbrev main_call1_call0_v0 : Ref sig .tc := ⟨.hbm, 114, rfl⟩
abbrev main_call1_call0_v1 : Ref sig .tc := ⟨.hbm, 115, rfl⟩
abbrev main_call1_v4 : Ref sig .tc := ⟨.hbm, 116, rfl⟩
abbrev main_call1_v5 : Ref sig .tc := ⟨.hbm, 117, rfl⟩
abbrev main_call1_cst_2 : Ref sig .tc := ⟨.hbm, 118, rfl⟩
abbrev main_call1_v6 : Ref sig .tc := ⟨.hbm, 119, rfl⟩
abbrev main_call1_v7 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_10 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_11 : Ref sig .tc := ⟨.hbm, 134, rfl⟩
abbrev main_v83 : Ref sig .tc := ⟨.hbm, 135, rfl⟩
abbrev main_cst_12 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_13 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_c_14 : Ref sig .tc := ⟨.hbm, 153, rfl⟩
abbrev main_v99 : Ref sig .tc := ⟨.hbm, 154, rfl⟩
abbrev main_v100 : Ref sig .tc := ⟨.hbm, 155, rfl⟩
abbrev main_c_15 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_cst_1 : Ref sig .tc := ⟨.hbm, 169, rfl⟩
abbrev main_call2_call0_v0 : Ref sig .tc := ⟨.hbm, 170, rfl⟩
abbrev main_call2_call0_v1 : Ref sig .tc := ⟨.hbm, 171, rfl⟩
abbrev main_call2_v4 : Ref sig .tc := ⟨.hbm, 172, rfl⟩
abbrev main_call2_v5 : Ref sig .tc := ⟨.hbm, 173, rfl⟩
abbrev main_call2_cst_2 : Ref sig .tc := ⟨.hbm, 174, rfl⟩
abbrev main_call2_v6 : Ref sig .tc := ⟨.hbm, 175, rfl⟩
abbrev main_call2_v7 : Ref sig .tc := ⟨.hbm, 176, rfl⟩
abbrev main_v107 : Ref sig .tc := ⟨.hbm, 177, rfl⟩
abbrev main_cst_16 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_17 : Ref sig .tc := ⟨.hbm, 182, rfl⟩
abbrev main_v111 : Ref sig .tc := ⟨.hbm, 183, rfl⟩
abbrev main_cst_18 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_19 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_call3_cst : Ref sig .tc := ⟨.hbm, 197, rfl⟩
abbrev main_call3_v0 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩

abbrev nD : Nat := 1
abbrev τ : Topo := Topo.v7x

variable {F : FTy → Type} [FloatOps F]

class Facts₀ : Prop where
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S4096x512 : S_.BroadcastsInDim S4096x512 (![] : Fin 0 → Fin S4096x512.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bcast_S1x512_S4096x512_0_1 : S1x512.BroadcastsInDim S4096x512 (![0, 1] : Fin 2 → Fin S4096x512.rank)
  bcast_S_S100000 : S_.BroadcastsInDim S100000 (![] : Fin 0 → Fin S100000.rank)
  bcast_S_S100000x512 : S_.BroadcastsInDim S100000x512 (![] : Fin 0 → Fin S100000x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S100000x512_S512x512_S100000x512_1_0_0_1_n_n_wf : DotDims.WF S100000x512 S512x512 S100000x512 [1] [0] [0] [1] [] []
  scatter_S4096x512_S100000x1_S100000x512_1_0_0_1_wf : ScatterDims.WF S4096x512 S100000x1 S100000x512 [1] [0] [0] 1
  scatter_S4096x1_S100000x1_S100000x1_1_0_0_1_wf : ScatterDims.WF S4096x1 S100000x1 S100000x1 [1] [0] [0] 1
  dot_S4096x512_S512x512_S4096x512_1_0_0_1_n_n_wf : DotDims.WF S4096x512 S512x512 S4096x512 [1] [0] [0] [1] [] []
  gather_S4096x512_S100000x1_S100000x512_1_0_n_n_0_1_1512_wf : GatherDims.WF S4096x512 S100000x1 S100000x512 [1] [0] [] [0] [] 1 ![1, 512]
  dot_S4096x512_S512x1024_S4096x1024_1_0_0_1_n_n_wf : DotDims.WF S4096x512 S512x1024 S4096x1024 [1] [0] [0] [1] [] []
  dot_S4096x1024_S1024x10_S4096x10_1_0_0_1_n_n_wf : DotDims.WF S4096x1024 S1024x10 S4096x10 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S4096x512_S100000x1_S100000x512_1_0_0_1 : ScatterDims S4096x512 S100000x1 S100000x512 where
  updateWindowDims := [1]
  insertedWindowDims := [0]
  scatterDimsToOperandDims := [0]
  indexVectorDim := 1
  wf := scatter_S4096x512_S100000x1_S100000x512_1_0_0_1_wf
def scatter_S4096x1_S100000x1_S100000x1_1_0_0_1 : ScatterDims S4096x1 S100000x1 S100000x1 where
  updateWindowDims := [1]
  insertedWindowDims := [0]
  scatterDimsToOperandDims := [0]
  indexVectorDim := 1
  wf := scatter_S4096x1_S100000x1_S100000x1_1_0_0_1_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def gather_S4096x512_S100000x1_S100000x512_1_0_n_n_0_1_1512 : GatherDims S4096x512 S100000x1 S100000x512 where
  offsetDims := [1]
  collapsedSliceDims := [0]
  operandBatchingDims := []
  startIndicesBatchingDims := []
  startIndexMap := [0]
  indexVectorDim := 1
  sliceSizes := ![1, 512]
  wf := gather_S4096x512_S100000x1_S100000x512_1_0_n_n_0_1_1512_wf
def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x10_S4096x10_1_0_0_1_n_n : DotDims S4096x1024 S1024x10 S4096x10 where
  lhsContracting := [1]
  rhsContracting := [0]
  lhsNonContracting := [0]
  rhsNonContracting := [1]
  lhsBatch := []
  rhsBatch := []
  wf := dot_S4096x1024_S1024x10_S4096x10_1_0_0_1_n_n_wf

class Facts : Prop extends Facts₀ where

variable [Facts]
-- ==== Proof.Spec.lean ====
/-
  What the network computes, as functions of whole arrays over the extended reals.

  Three message-passing layers and a two-layer head. With idx the segment id of each of the 100000 rows:
    mean(h)   = per-segment sums of the rows of h, divided by max(count, 1)            (4096 x 512)
    x2        = mean(h) · Wsum[i] + bsum[i]                                            (4096 x 512)
    h'        = elu((h · Wfc[i] + bfc[i]) + x2[idx])                                   (100000 x 512)
    out       = relu(mean(h3) · Wf1 + bf1) · Wf2 + bf2                                 (4096 x 10)
  The segment mean, the row gather and the per-layer slices of the stacked weights are host operations that both
  programs spell the same way: they are kept here as the operations themselves, never opened. The affine maps, the
  activation and the head are stated index by index, a product with a matrix as the sum over the contracted
  coordinate; this is the form both programs are read to.
-/
import proofs.«124445_j627065225441_1_alg».proof.KernelIdeal
import Idealize.ShloMosaic.Lib.ValueIdx
import Idealize.ShloMosaic.PureOps.Ideal

noncomputable section

namespace Cert.Spec

open Idealize.ShloMosaic Idealize.ShloMosaic.ValueIdx Cert.KernelIdeal Cert.KernelIdeal.Facts₀

variable [Cert.KernelIdeal.Facts]

/-- The mean of the rows of `h` in each of the 4096 segments `idx` names: the per-segment sum of rows over
    `max(count, 1)`, the count being the per-segment sum of ones. -/
def segMean (h : FVec Ideal S100000x512 .f32) (idx : IVec S100000 32) : FVec Ideal S4096x512 .f32 :=
  Host.divf
    (Host.scatterAdd scatter_S4096x512_S100000x1_S100000x512_1_0_0_1
      (broadcastInDim S4096x512 ![] bcast_S_S4096x512 (constant S_ .f32 0x00000000#32))
      (broadcastInDim S100000x1 ![0] bcast_S100000_S100000x1_0 idx) h)
    (broadcastInDim S4096x512 ![0, 1] bcast_S4096x1_S4096x512_0_1
      (maximumf
        (Host.scatterAdd scatter_S4096x1_S100000x1_S100000x1_1_0_0_1
          (broadcastInDim S4096x1 ![] bcast_S_S4096x1 (constant S_ .f32 0x00000000#32))
          (broadcastInDim S100000x1 ![0] bcast_S100000_S100000x1_0 idx)
          (broadcastInDim S100000x1 ![] bcast_S_S100000x1 (constant S_ .f32 0x3F800000#32)))
        (broadcastInDim S4096x1 ![] bcast_S_S4096x1 (constant S_ .f32 0x3F800000#32))))

/-- Row `n` of the result is row `idx n` of `x` (a negative id counted from the end, as numpy indexing does). -/
def rowsAt (x : FVec Ideal S4096x512 .f32) (idx : IVec S100000 32) : FVec Ideal S100000x512 .f32 :=
  Host.gather gather_S4096x512_S100000x1_S100000x512_1_0_n_n_0_1_1512 x
    (broadcastInDim S100000x1 ![0] bcast_S100000_S100000x1_0
      (select (cmpi .slt idx (broadcastInDim S100000 ![] bcast_S_S100000 (constantI S_ 32 0#32)))
        (addi idx (broadcastInDim S100000 ![] bcast_S_S100000 (constantI S_ 32 4096#32))) idx))

/-- Layer 0's, 1's and 2's matrix out of a stack of three. -/
def mat0 (w : FVec Ideal S3x512x512 .f32) : FVec Ideal S512x512 .f32 :=
  shapeCast S512x512 (extractStridedSlice S1x512x512 ![0, 0, 0] w slices_S3x512x512_S1x512x512_0_0_0) shapeCasts_S1x512x512_S512x512
def mat1 (w : FVec Ideal S3x512x512 .f32) : FVec Ideal S512x512 .f32 :=
  shapeCast S512x512 (extractStridedSlice S1x512x512 ![1, 0, 0] w slices_S3x512x512_S1x512x512_1_0_0) shapeCasts_S1x512x512_S512x512
def mat2 (w : FVec Ideal S3x512x512 .f32) : FVec Ideal S512x512 .f32 :=
  shapeCast S512x512 (extractStridedSlice S1x512x512 ![2, 0, 0] w slices_S3x512x512_S1x512x512_2_0_0) shapeCasts_S1x512x512_S512x512

/-- Layer 0's, 1's and 2's bias out of a stack of three. -/
def vec0 (b : FVec Ideal S3x512 .f32) : FVec Ideal S512 .f32 :=
  shapeCast S512 (extractStridedSlice S1x512 ![0, 0] b slices_S3x512_S1x512_0_0) shapeCasts_S1x512_S512
def vec1 (b : FVec Ideal S3x512 .f32) : FVec Ideal S512 .f32 :=
  shapeCast S512 (extractStridedSlice S1x512 ![1, 0] b slices_S3x512_S1x512_1_0) shapeCasts_S1x512_S512
def vec2 (b : FVec Ideal S3x512 .f32) : FVec Ideal S512 .f32 :=
  shapeCast S512 (extractStridedSlice S1x512 ![2, 0] b slices_S3x512_S1x512_2_0) shapeCasts_S1x512_S512

/-- `x · w + b` on the 4096 segment rows: entry (g, d) is the sum over k of x(g, k) · w(k, d), plus b(d). -/
def affine (x : FVec Ideal S4096x512 .f32) (w : FVec Ideal S512x512 .f32) (b : FVec Ideal S512 .f32) :
    FVec Ideal S4096x512 .f32 :=
  fun i => (∑ k : Fin 512, x (ix2 (i 0) k) * w (ix2 k (i 1))) + b (ix1 (i 1))

/-- The exponential linear unit on an extended real: `x` above zero, `exp x - 1` otherwise. -/
def elu (x : EReal) : EReal :=
  Scalar.select (FloatOps.cmpf (F := Ideal) (φ := .f32) .ogt x (Ideal.ofBits .f32 0x00000000#32)) x
    (Ideal.exp x - Ideal.ofBits .f32 0x3F800000#32)

/-- One layer on the 100000 rows: entry (n, d) is `elu(((Σ_k h(n, k) · w(k, d)) + b(d)) + g(n, d))`. -/
def layer (h : FVec Ideal S100000x512 .f32) (w : FVec Ideal S512x512 .f32) (b : FVec Ideal S512 .f32)
    (g : FVec Ideal S100000x512 .f32) : FVec Ideal S100000x512 .f32 :=
  fun i => elu (((∑ k : Fin 512, h (ix2 (i 0) k) * w (ix2 k (i 1))) + b (ix1 (i 1))) + g i)

/-- The head on the 4096 segment rows: entry (g, t) is the sum over j of
    `max((Σ_k x(g, k) · w1(k, j)) + b1(j), 0) · w2(j, t)`, plus b2(t). -/
def head (x : FVec Ideal S4096x512 .f32) (w1 : FVec Ideal S512x1024 .f32) (b1 : FVec Ideal S1024 .f32)
    (w2 : FVec Ideal S1024x10 .f32) (b2 : FVec Ideal S10 .f32) : FVec Ideal S4096x10 .f32 :=
  fun i => (∑ j : Fin 1024,
      max ((∑ k : Fin 512, x (ix2 (i 0) k) * w1 (ix2 k j)) + b1 (ix1 j)) (Ideal.ofBits .f32 0x00000000#32)
        * w2 (ix2 j (i 1))) + b2 (ix1 (i 1))

/-- Layer 0, 1 and 2 on the rows `h`: the segment means go through that layer's segment-level affine map, come back to
    the rows by `idx`, and are added to the rows' own affine image before the activation. -/
def step0 (h : FVec Ideal S100000x512 .f32) (idx : IVec S100000 32) (wfc : FVec Ideal S3x512x512 .f32)
    (bfc : FVec Ideal S3x512 .f32) (wsum : FVec Ideal S3x512x512 .f32) (bsum : FVec Ideal S3x512 .f32) :
    FVec Ideal S100000x512 .f32 :=
  layer h (mat0 wfc) (vec0 bfc) (rowsAt (affine (segMean h idx) (mat0 wsum) (vec0 bsum)) idx)
def step1 (h : FVec Ideal S100000x512 .f32) (idx : IVec S100000 32) (wfc : FVec Ideal S3x512x512 .f32)
    (bfc : FVec Ideal S3x512 .f32) (wsum : FVec Ideal S3x512x512 .f32) (bsum : FVec Ideal S3x512 .f32) :
    FVec Ideal S100000x512 .f32 :=
  layer h (mat1 wfc) (vec1 bfc) (rowsAt (affine (segMean h idx) (mat1 wsum) (vec1 bsum)) idx)
def step2 (h : FVec Ideal S100000x512 .f32) (idx : IVec S100000 32) (wfc : FVec Ideal S3x512x512 .f32)
    (bfc : FVec Ideal S3x512 .f32) (wsum : FVec Ideal S3x512x512 .f32) (bsum : FVec Ideal S3x512 .f32) :
    FVec Ideal S100000x512 .f32 :=
  layer h (mat2 wfc) (vec2 bfc) (rowsAt (affine (segMean h idx) (mat2 wsum) (vec2 bsum)) idx)

/-- The network's result: the three layers in turn, the segment mean of the last rows, the head. -/
def network (h : FVec Ideal S100000x512 .f32) (idx : IVec S100000 32) (wfc : FVec Ideal S3x512x512 .f32)
    (bfc : FVec Ideal S3x512 .f32) (wsum : FVec Ideal S3x512x512 .f32) (bsum : FVec Ideal S3x512 .f32)
    (wf1 : FVec Ideal S512x1024 .f32) (bf1 : FVec Ideal S1024 .f32) (wf2 : FVec Ideal S1024x10 .f32)
    (bf2 : FVec Ideal S10 .f32) : FVec Ideal S4096x10 .f32 :=
  head (segMean (step2 (step1 (step0 h idx wfc bfc wsum bsum) idx wfc bfc wsum bsum) idx wfc bfc wsum bsum) idx)
    wf1 bf1 wf2 bf2

end Cert.Spec

end
-- ==== Proof.KLin.lean ====
/- The three segment-level affine regions: each leaves in its output array `x · w + b` of the arrays it is entered with. -/
import proofs.«124445_j627065225441_1_alg».proof.Proof.Gen.KernelIdeal.Frame
import proofs.«124445_j627065225441_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Lin

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The product and the bias row at an index -/

theorem mm_lhs_0 (j : S1024x512.Idx) (k : dot_S1024x512_S512x512_S1024x512_1_0_0_1_n_n.contr.Idx) :
    (dot_S1024x512_S512x512_S1024x512_1_0_0_1_n_n.lhsIdx j k 0).val = (j 0).val := by
  simp [DotDims.lhsIdx, dot_S1024x512_S512x512_S1024x512_1_0_0_1_n_n]; rfl

theorem mm_lhs_1 (j : S1024x512.Idx) (k : dot_S1024x512_S512x512_S1024x512_1_0_0_1_n_n.contr.Idx) :
    (dot_S1024x512_S512x512_S1024x512_1_0_0_1_n_n.lhsIdx j k 1).val = (k ⟨0, by decide⟩).val :=
  dot_S1024x512_S512x512_S1024x512_1_0_0_1_n_n.lhsIdx_val_of_single (cl := 1) rfl j k

theorem mm_rhs_0 (j : S1024x512.Idx) (k : dot_S1024x512_S512x512_S1024x512_1_0_0_1_n_n.contr.Idx) :
    (dot_S1024x512_S512x512_S1024x512_1_0_0_1_n_n.rhsIdx j k 0).val = (k ⟨0, by decide⟩).val :=
  dot_S1024x512_S512x512_S1024x512_1_0_0_1_n_n.rhsIdx_val_of_single (cr := 0) rfl j k

theorem mm_rhs_1 (j : S1024x512.Idx) (k : dot_S1024x512_S512x512_S1024x512_1_0_0_1_n_n.contr.Idx) :
    (dot_S1024x512_S512x512_S1024x512_1_0_0_1_n_n.rhsIdx j k 1).val = (j 1).val := by
  simp [DotDims.rhsIdx, dot_S1024x512_S512x512_S1024x512_1_0_0_1_n_n]; rfl

/-- The product at (r, d): the sum over the 512 contracted coordinates. -/
theorem mm_apply (A : FVec Ideal S1024x512 .bf16) (B : FVec Ideal S512x512 .bf16) (r : Fin 1024) (d : Fin 512) :
    matmul dot_S1024x512_S512x512_S1024x512_1_0_0_1_n_n none A B (constant (F := Ideal) S1024x512 .f32 0x00000000#32) (ix2 r d)
      = ∑ k : Fin 512, A (ix2 r k) * B (ix2 k d) := by
  show FloatOps.matmul _ none A B _ (ix2 r d) = _
  rw [Ideal.matmul_constant_zero_apply,
    ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have hl : dot_S1024x512_S512x512_S1024x512_1_0_0_1_n_n.lhsIdx (ix2 r d)
      ((contrEquiv1 dot_S1024x512_S512x512_S1024x512_1_0_0_1_n_n 512 rfl rfl).symm k) = ix2 r k := by
    funext a; apply Fin.ext
    match a with
    | ⟨0, _⟩ => exact mm_lhs_0 _ _
    | ⟨1, _⟩ => exact (mm_lhs_1 _ _).trans hk
  have hr : dot_S1024x512_S512x512_S1024x512_1_0_0_1_n_n.rhsIdx (ix2 r d)
      ((contrEquiv1 dot_S1024x512_S512x512_S1024x512_1_0_0_1_n_n 512 rfl rfl).symm k) = ix2 k d := by
    funext a; apply Fin.ext
    match a with
    | ⟨0, _⟩ => exact (mm_rhs_0 _ _).trans hk
    | ⟨1, _⟩ => exact mm_rhs_1 _ _
  rw [hl, hr]

/-- The bias, as one row spread over the 1024 rows, reads at (r, d) the bias at d. -/
theorem bias_apply (b : FVec Ideal S512 .f32) (r : Fin 1024) (d : Fin 512) :
    broadcastTo S1024x512 (shapeCast S1x512 b shapeCasts_S512_S1x512) broadcasts_S1x512_S1024x512 (ix2 r d) = b (ix1 d) := by
  rw [broadcastTo_1b_ab_apply, shapeCast_a_1a_apply]

/-- Region 0's payload at (r, d) of its three blocks: the sum over k of x(r, k) · w(k, d), plus b(d). -/
theorem pay0_apply (x : FVec Ideal S1024x512 .f32) (w : FVec Ideal S512x512 .f32) (b : FVec Ideal S512 .f32)
    (r : Fin 1024) (d : Fin 512) :
    k0_pay1 (F := Ideal) x w b (ix2 r d) = (∑ k : Fin 512, x (ix2 r k) * w (ix2 k d)) + b (ix1 d) := by
  unfold k0_pay1
  simp only [shapeCast_self]
  rw [addf_apply, bias_apply, mm_apply]
  simp only [truncf_apply]

/-- Region 2's payload at (r, d) of its three blocks: the sum over k of x(r, k) · w(k, d), plus b(d). -/
theorem pay2_apply (x : FVec Ideal S1024x512 .f32) (w : FVec Ideal S512x512 .f32) (b : FVec Ideal S512 .f32)
    (r : Fin 1024) (d : Fin 512) :
    k2_pay1 (F := Ideal) x w b (ix2 r d) = (∑ k : Fin 512, x (ix2 r k) * w (ix2 k d)) + b (ix1 d) := by
  unfold k2_pay1
  simp only [shapeCast_self]
  rw [addf_apply, bias_apply, mm_apply]
  simp only [truncf_apply]

/-- Region 4's payload at (r, d) of its three blocks: the sum over k of x(r, k) · w(k, d), plus b(d). -/
theorem pay4_apply (x : FVec Ideal S1024x512 .f32) (w : FVec Ideal S512x512 .f32) (b : FVec Ideal S512 .f32)
    (r : Fin 1024) (d : Fin 512) :
    k4_pay1 (F := Ideal) x w b (ix2 r d) = (∑ k : Fin 512, x (ix2 r k) * w (ix2 k d)) + b (ix1 d) := by
  unfold k4_pay1
  simp only [shapeCast_self]
  rw [addf_apply, bias_apply, mm_apply]
  simp only [truncf_apply]

/-! ## From the blocks to the array -/

theorem origin2 : (![0, 0] : Fin 2 → Nat) = fun _ => 0 := funext fun a => by fin_cases a <;> rfl
theorem origin1 : (![0] : Fin 1 → Nat) = fun _ => 0 := funext fun a => by fin_cases a <;> rfl

/-! ## Region 0: from the blocks to the array -/

/-- Region 0's index maps over the four points: the row block of x is the output's, at most 3; every other block
    index is 0. -/
theorem index_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 3 :=
  (by decide +kernel : ∀ t : Fin grid0.N, _)

/-- Every row block is some point's. -/
theorem index_onto0 : ∀ q : Fin 4, ∃ t : Fin cfg0.N, win0_3.index t = ![q.val, 0] :=
  (by decide +kernel : ∀ q : Fin 4, ∃ t : Fin grid0.N, win0_3.index t = ![q.val, 0])

/-- An index of the array is in point `t`'s block iff each coordinate is in the block's range on its axis. -/
theorem mem_blk0 (t : Fin cfg0.N) (i : S4096x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v15).slice (win0_3.rect t)).set ↔ _
  rw [View.set_slice_whole, Rect.mem_set_unit]
  exact Iff.rfl

/-- Every index of the array is in the block of the point numbered by its row over 1024. -/
theorem cover0 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := index_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- What point `t` of region 0 writes back is its block of `affine` of the entry arrays. -/
theorem flushed_eq0 (c : Dev nD) (t : Fin cfg0.N) :
    (dat0 (F := Ideal) V c).flushed 3 t = ((cfg0.win 3).blk t).view.read (Elt Ideal)
      (Cert.Spec.affine (V c main_v10) (V c main_v12) (V c main_v14)) := by
  show (cfg0.win 3).cut (grid0.coords t) ((dat0 (F := Ideal) V c).after 3 t) = _
  rw [after0_3]
  unfold out0_3
  rw [View.canon_unit_zero origin2]
  simp only [View.ld_unit_zero (S := S1024x512) origin2, View.ld_unit_zero (S := S512x512) origin2,
    View.ld_unit_zero (S := S512) origin1]
  obtain ⟨e0, e1, e2, e3, e4, e5, e6⟩ := index_facts0 t
  funext y
  obtain ⟨r, d, rfl⟩ : ∃ (r : Fin 1024) (d : Fin 512), y = ix2 r d := ⟨y 0, y 1, eq_ix2 y⟩
  refine (pay0_apply _ _ _ r d).trans ?_
  have hx : ∀ k : Fin 512, iblk0 (F := Ideal) V c 0 t (ix2 r k)
      = V c main_v10 (ix2 ((((cfg0.win 3).blk t).view.emb (ix2 r d)) 0) k) := fun k => by
    show V c main_v10 (((cfg0.win 0).blk t).view.emb (ix2 r k)) = _
    refine congrArg (V c main_v10) (funext fun a => Fin.ext ?_)
    match a with
    | ⟨0, _⟩ => show win0_0.index t (0 : Fin 2) * 1024 + 1 * r.val = win0_3.index t (0 : Fin 2) * 1024 + 1 * r.val; omega
    | ⟨1, _⟩ => show win0_0.index t (1 : Fin 2) * 512 + 1 * k.val = k.val; omega
  have hw : ∀ k : Fin 512, iblk0 (F := Ideal) V c 1 t (ix2 k d)
      = V c main_v12 (ix2 k ((((cfg0.win 3).blk t).view.emb (ix2 r d)) 1)) := fun k => by
    show V c main_v12 (((cfg0.win 1).blk t).view.emb (ix2 k d)) = _
    refine congrArg (V c main_v12) (funext fun a => Fin.ext ?_)
    match a with
    | ⟨0, _⟩ => show win0_1.index t (0 : Fin 2) * 512 + 1 * k.val = k.val; omega
    | ⟨1, _⟩ => show win0_1.index t (1 : Fin 2) * 512 + 1 * d.val = win0_3.index t (1 : Fin 2) * 512 + 1 * d.val; omega
  have hb : iblk0 (F := Ideal) V c 2 t (ix1 d)
      = V c main_v14 (ix1 ((((cfg0.win 3).blk t).view.emb (ix2 r d)) 1)) := by
    show V c main_v14 (((cfg0.win 2).blk t).view.emb (ix1 d)) = _
    refine congrArg (V c main_v14) (funext fun a => Fin.ext ?_)
    match a with
    | ⟨0, _⟩ => show win0_2.index t (0 : Fin 1) * 512 + 1 * d.val = win0_3.index t (1 : Fin 2) * 512 + 1 * d.val; omega
  simp only [hx, hw, hb]
  rfl

/-- Region 0 (four blocks of 1024 segment rows): the output array after the region is `affine` of the entry arrays. -/
theorem final0 (c : Dev nD) :
    (dat0 (F := Ideal) V c).arrAt 3 cfg0.N = Cert.Spec.affine (V c main_v10) (V c main_v12) (V c main_v14) := by
  exact (dat0 (F := Ideal) V c).arrAt_eq_of_cover 3 _ (fun t _ => flushed_eq0 V c t) cover0

/-! ## Region 2: from the blocks to the array -/

/-- Region 2's index maps over the four points: the row block of x is the output's, at most 3; every other block
    index is 0. -/
theorem index_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 3 :=
  (by decide +kernel : ∀ t : Fin grid2.N, _)

/-- Every row block is some point's. -/
theorem index_onto2 : ∀ q : Fin 4, ∃ t : Fin cfg2.N, win2_3.index t = ![q.val, 0] :=
  (by decide +kernel : ∀ q : Fin 4, ∃ t : Fin grid2.N, win2_3.index t = ![q.val, 0])

/-- An index of the array is in point `t`'s block iff each coordinate is in the block's range on its axis. -/
theorem mem_blk2 (t : Fin cfg2.N) (i : S4096x512.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v43).slice (win2_3.rect t)).set ↔ _
  rw [View.set_slice_whole, Rect.mem_set_unit]
  exact Iff.rfl

/-- Every index of the array is in the block of the point numbered by its row over 1024. -/
theorem cover2 (i : S4096x512.Idx) :
    ∃ t : Fin cfg2.N, (cfg2.win 3).flush t = true ∧ i ∈ ((cfg2.win 3).blk t).view.set := by
  have hi0 : (i 0).val < 4096 := (i 0).isLt
  have hi1 : (i 1).val < 512 := (i 1).isLt
  obtain ⟨t, ht⟩ := index_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- What point `t` of region 2 writes back is its block of `affine` of the entry arrays. -/
theorem flushed_eq2 (c : Dev nD) (t : Fin cfg2.N) :
    (dat2 (F := Ideal) V c).flushed 3 t = ((cfg2.win 3).blk t).view.read (Elt Ideal)
      (Cert.Spec.affine (V c main_v38) (V c main_v40) (V c main_v42)) := by
  show (cfg2.win 3).cut (grid2.coords t) ((dat2 (F := Ideal) V c).after 3 t) = _
  rw [after2_3]
  unfold out2_3
  rw [View.canon_unit_zero origin2]
  simp only [View.ld_unit_zero (S := S1024x512) origin2, View.ld_unit_zero (S := S512x512) origin2,
    View.ld_unit_zero (S := S512) origin1]
  obtain ⟨e0, e1, e2, e3, e4, e5, e6⟩ := index_facts2 t
  funext y
  obtain ⟨r, d, rfl⟩ : ∃ (r : Fin 1024) (d : Fin 512), y = ix2 r d := ⟨y 0, y 1, eq_ix2 y⟩
  refine (pay2_apply _ _ _ r d).trans ?_
  have hx : ∀ k : Fin 512, iblk2 (F := Ideal) V c 0 t (ix2 r k)
      = V c main_v38 (ix2 ((((cfg2.win 3).blk t).view.emb (ix2 r d)) 0) k) := fun k => by
    show V c main_v38 (((cfg2.win 0).blk t).view.emb (ix2 r k)) = _
    refine congrArg (V c main_v38) (funext fun a => Fin.ext ?_)
    match a with
    | ⟨0, _⟩ => show win2_0.index t (0 : Fin 2) * 1024 + 1 * r.val = win2_3.index t (0 : Fin 2) * 1024 + 1 * r.val; omega
    | ⟨1, _⟩ => show win2_0.index t (1 : Fin 2) * 512 + 1 * k.val = k.val; omega
  have hw : ∀ k : Fin 512, iblk2 (F := Ideal) V c 1 t (ix2 k d)
      = V c main_v40 (ix2 k ((((cfg2.win 3).blk t).view.emb (ix2 r d)) 1)) := fun k => by
    show V c main_v40 (((cfg2.win 1).blk t).view.emb (ix2 k d)) = _
    refine congrArg (V c main_v40) (funext fun a => Fin.ext ?_)
    match a with
    | ⟨0, _⟩ => show win2_1.index t (0 : Fin 2) * 512 + 1 * k.val = k.val; omega
    | ⟨1, _⟩ => show win2_1.index t (1 : Fin 2) * 512 + 1 * d.val = win2_3.index t (1 : Fin 2) * 512 + 1 * d.val; omega
  have hb : iblk2 (F := Ideal) V c 2 t (ix1 d)
      = V c main_v42 (ix1 ((((cfg2.win 3).blk t).view.emb (ix2 r d)) 1)) := by
    show V c main_v42 (((cfg2.win 2).blk t).view.emb (ix1 d)) = _
    refine congrArg (V c main_v42) (funext fun a => Fin.ext ?_)
    match a with
    | ⟨0, _⟩ => show win2_2.index t (0 : Fin 1) * 512 + 1 * d.val = win2_3.index t (1 : Fin 2) * 512 + 1 * d.val; omega
  simp only [hx, hw, hb]
  rfl

/-- Region 2, the same kernel on layer 1's arrays. -/
theorem final2 (c : Dev nD) :
    (dat2 (F := Ideal) V c).arrAt 3 cfg2.N = Cert.Spec.affine (V c main_v38) (V c main_v40) (V c main_v42) := by
  exact (dat2 (F := Ideal) V c).arrAt_eq_of_cover 3 _ (fun t _ => flushed_eq2 V c t) cover2

/-! ## Region 4: from the blocks to the array -/

/-- Region 4's index maps over the four points: the row block of x is the output's, at most 3; every other block
    index is 0. -/
theorem index_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (1 : Fin 2) = 0 ∧ win4_3.index t (0 : Fin 2) ≤ 3 :=
  (by decide +kernel : ∀ t : Fin grid4.N, _)

/-- Every row block is some point's. -/
theorem index_onto4 : ∀ q : Fin 4, ∃ t : Fin cfg4.N, win4_3.index t = ![q.val, 0] :=
  (by decide +kernel : ∀ q : Fin 4, ∃ t : Fin grid4.N, win4_3.index t = ![q.val, 0])

/-- An index of the array is in point `t`'s block iff each coordinate is in the block's range on its axis. -/
theorem mem_blk4 (t : Fin cfg4.N) (i : S4096x512.Idx) :
    i ∈ ((cfg4.win 3).blk t).view.set ↔ ∀ a : Fin 2, win4_3.index t a * S1024x512.size a ≤ (i a).val
      ∧ (i a).val < win4_3.index t a * S1024x512.size a + S1024x512.size a := by
  show i ∈ ((View.whole main_v71).slice (win4_3.rect t)).set ↔ _
  rw [View.set_slice_whole, Rect.mem_set_unit]
  exact Iff.rfl

/-- Every index of the array is in the block of the point numbered by its row over 1024. -/
theorem cover4 (i : S4096x512.Idx) :
    ∃ t : Fin cfg4.N, (cfg4.win 3).flush t = true ∧ i ∈ ((cfg4.win 3).blk t).view.set := by
  have hi0 : (i 0).val < 4096 := (i 0).isLt
  have hi1 : (i 1).val < 512 := (i 1).isLt
  obtain ⟨t, ht⟩ := index_onto4 ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 512 ≤ (i 1).val ∧ (i 1).val < win4_3.index t (1 : Fin 2) * 512 + 512; omega

/-- What point `t` of region 4 writes back is its block of `affine` of the entry arrays. -/
theorem flushed_eq4 (c : Dev nD) (t : Fin cfg4.N) :
    (dat4 (F := Ideal) V c).flushed 3 t = ((cfg4.win 3).blk t).view.read (Elt Ideal)
      (Cert.Spec.affine (V c main_v66) (V c main_v68) (V c main_v70)) := by
  show (cfg4.win 3).cut (grid4.coords t) ((dat4 (F := Ideal) V c).after 3 t) = _
  rw [after4_3]
  unfold out4_3
  rw [View.canon_unit_zero origin2]
  simp only [View.ld_unit_zero (S := S1024x512) origin2, View.ld_unit_zero (S := S512x512) origin2,
    View.ld_unit_zero (S := S512) origin1]
  obtain ⟨e0, e1, e2, e3, e4, e5, e6⟩ := index_facts4 t
  funext y
  obtain ⟨r, d, rfl⟩ : ∃ (r : Fin 1024) (d : Fin 512), y = ix2 r d := ⟨y 0, y 1, eq_ix2 y⟩
  refine (pay4_apply _ _ _ r d).trans ?_
  have hx : ∀ k : Fin 512, iblk4 (F := Ideal) V c 0 t (ix2 r k)
      = V c main_v66 (ix2 ((((cfg4.win 3).blk t).view.emb (ix2 r d)) 0) k) := fun k => by
    show V c main_v66 (((cfg4.win 0).blk t).view.emb (ix2 r k)) = _
    refine congrArg (V c main_v66) (funext fun a => Fin.ext ?_)
    match a with
    | ⟨0, _⟩ => show win4_0.index t (0 : Fin 2) * 1024 + 1 * r.val = win4_3.index t (0 : Fin 2) * 1024 + 1 * r.val; omega
    | ⟨1, _⟩ => show win4_0.index t (1 : Fin 2) * 512 + 1 * k.val = k.val; omega
  have hw : ∀ k : Fin 512, iblk4 (F := Ideal) V c 1 t (ix2 k d)
      = V c main_v68 (ix2 k ((((cfg4.win 3).blk t).view.emb (ix2 r d)) 1)) := fun k => by
    show V c main_v68 (((cfg4.win 1).blk t).view.emb (ix2 k d)) = _
    refine congrArg (V c main_v68) (funext fun a => Fin.ext ?_)
    match a with
    | ⟨0, _⟩ => show win4_1.index t (0 : Fin 2) * 512 + 1 * k.val = k.val; omega
    | ⟨1, _⟩ => show win4_1.index t (1 : Fin 2) * 512 + 1 * d.val = win4_3.index t (1 : Fin 2) * 512 + 1 * d.val; omega
  have hb : iblk4 (F := Ideal) V c 2 t (ix1 d)
      = V c main_v70 (ix1 ((((cfg4.win 3).blk t).view.emb (ix2 r d)) 1)) := by
    show V c main_v70 (((cfg4.win 2).blk t).view.emb (ix1 d)) = _
    refine congrArg (V c main_v70) (funext fun a => Fin.ext ?_)
    match a with
    | ⟨0, _⟩ => show win4_2.index t (0 : Fin 1) * 512 + 1 * d.val = win4_3.index t (1 : Fin 2) * 512 + 1 * d.val; omega
  simp only [hx, hw, hb]
  rfl

/-- Region 4, the same kernel on layer 2's arrays. -/
theorem final4 (c : Dev nD) :
    (dat4 (F := Ideal) V c).arrAt 3 cfg4.N = Cert.Spec.affine (V c main_v66) (V c main_v68) (V c main_v70) := by
  exact (dat4 (F := Ideal) V c).arrAt_eq_of_cover 3 _ (fun t _ => flushed_eq4 V c t) cover4

end Cert.KernelIdeal.Lin

end
-- ==== Proof.KLayer.lean ====
/- The three row-level regions: each leaves in its output array `elu((h · w + b) + g)` of the arrays it is entered with. -/
import proofs.«124445_j627065225441_1_alg».proof.Proof.Gen.KernelIdeal.Frame
import proofs.«124445_j627065225441_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Layer

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The product of a row block with the matrix, at an index

The three regions contract the same pair of shapes, so these facts are stated once. -/

theorem dot_lhs_0 (j : S1000x512.Idx) (k : dot_S1000x512_S512x512_S1000x512_1_0_0_1_n_n.contr.Idx) :
    (dot_S1000x512_S512x512_S1000x512_1_0_0_1_n_n.lhsIdx j k 0).val = (j 0).val := by
  simp [DotDims.lhsIdx, dot_S1000x512_S512x512_S1000x512_1_0_0_1_n_n]; rfl

theorem dot_lhs_1 (j : S1000x512.Idx) (k : dot_S1000x512_S512x512_S1000x512_1_0_0_1_n_n.contr.Idx) :
    (dot_S1000x512_S512x512_S1000x512_1_0_0_1_n_n.lhsIdx j k 1).val = (k ⟨0, by decide⟩).val :=
  dot_S1000x512_S512x512_S1000x512_1_0_0_1_n_n.lhsIdx_val_of_single (cl := 1) rfl j k

theorem dot_rhs_0 (j : S1000x512.Idx) (k : dot_S1000x512_S512x512_S1000x512_1_0_0_1_n_n.contr.Idx) :
    (dot_S1000x512_S512x512_S1000x512_1_0_0_1_n_n.rhsIdx j k 0).val = (k ⟨0, by decide⟩).val :=
  dot_S1000x512_S512x512_S1000x512_1_0_0_1_n_n.rhsIdx_val_of_single (cr := 0) rfl j k

theorem dot_rhs_1 (j : S1000x512.Idx) (k : dot_S1000x512_S512x512_S1000x512_1_0_0_1_n_n.contr.Idx) :
    (dot_S1000x512_S512x512_S1000x512_1_0_0_1_n_n.rhsIdx j k 1).val = (j 1).val := by
  simp [DotDims.rhsIdx, dot_S1000x512_S512x512_S1000x512_1_0_0_1_n_n]; rfl

/-- The product into the zero accumulator at (r, d): the sum over the 512 contracted coordinates. -/
theorem dot_apply (A : FVec Ideal S1000x512 .bf16) (B : FVec Ideal S512x512 .bf16) (r : Fin 1000) (d : Fin 512) :
    matmul dot_S1000x512_S512x512_S1000x512_1_0_0_1_n_n none A B (constant (F := Ideal) S1000x512 .f32 0x00000000#32) (ix2 r d)
      = ∑ k : Fin 512, A (ix2 r k) * B (ix2 k d) := by
  show FloatOps.matmul _ none A B _ (ix2 r d) = _
  rw [Ideal.matmul_constant_zero_apply,
    ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have hl : dot_S1000x512_S512x512_S1000x512_1_0_0_1_n_n.lhsIdx (ix2 r d)
      ((contrEquiv1 dot_S1000x512_S512x512_S1000x512_1_0_0_1_n_n 512 rfl rfl).symm k) = ix2 r k := by
    funext a; apply Fin.ext
    match a with
    | ⟨0, _⟩ => exact dot_lhs_0 _ _
    | ⟨1, _⟩ => exact (dot_lhs_1 _ _).trans hk
  have hr : dot_S1000x512_S512x512_S1000x512_1_0_0_1_n_n.rhsIdx (ix2 r d)
      ((contrEquiv1 dot_S1000x512_S512x512_S1000x512_1_0_0_1_n_n 512 rfl rfl).symm k) = ix2 k d := by
    funext a; apply Fin.ext
    match a with
    | ⟨0, _⟩ => exact (dot_rhs_0 _ _).trans hk
    | ⟨1, _⟩ => exact dot_rhs_1 _ _
  rw [hl, hr]

/-! ## The bias row, the exponential, and the payload at an index -/

/-- The bias, as one row spread over the 1000 rows of a block, reads at (r, d) the bias at d. -/
theorem bias_apply (b : FVec Ideal S512 .f32) (r : Fin 1000) (d : Fin 512) :
    broadcastTo S1000x512 (shapeCast S1x512 b shapeCasts_S512_S1x512) broadcasts_S1x512_S1000x512 (ix2 r d) = b (ix1 d) := by
  rw [broadcastTo_1b_ab_apply, shapeCast_a_1a_apply]

/-- The exponential of a block at an index is the exponential of the element there. -/
theorem exp_at {s : Shape} {φ : FTy} (a : FVec Ideal s φ) (i : s.Idx) : exp a i = Ideal.exp (a i) := rfl

/-- Region 1's payload at (r, d) of its four blocks: the activation of
    ((Σ_k h(r, k) · w(k, d)) + b(d)) + g(r, d); the comparison, the exponential and the subtraction at an index are
    the activation's own. -/
theorem pay1_apply (h : FVec Ideal S1000x512 .f32) (w : FVec Ideal S512x512 .f32) (b : FVec Ideal S512 .f32)
    (g : FVec Ideal S1000x512 .f32) (r : Fin 1000) (d : Fin 512) :
    k1_pay1 (F := Ideal) h w b g (ix2 r d)
      = Cert.Spec.elu (((∑ k : Fin 512, h (ix2 r k) * w (ix2 k d)) + b (ix1 d)) + g (ix2 r d)) := by
  unfold k1_pay1
  simp only [select_apply, cmpf_apply, subf_apply, exp_at, broadcast_apply, addf_apply, shapeCast_self, bias_apply,
    dot_apply, truncf_apply]
  rfl

/-- Region 3's payload at (r, d): the same activation of the same sum (its h block passes through one more cast to
    its own shape). -/
theorem pay3_apply (h : FVec Ideal S1000x512 .f32) (w : FVec Ideal S512x512 .f32) (b : FVec Ideal S512 .f32)
    (g : FVec Ideal S1000x512 .f32) (r : Fin 1000) (d : Fin 512) :
    k3_pay1 (F := Ideal) h w b g (ix2 r d)
      = Cert.Spec.elu (((∑ k : Fin 512, h (ix2 r k) * w (ix2 k d)) + b (ix1 d)) + g (ix2 r d)) := by
  unfold k3_pay1
  simp only [select_apply, cmpf_apply, subf_apply, exp_at, broadcast_apply, addf_apply, shapeCast_self, bias_apply,
    dot_apply, truncf_apply]
  rfl

/-- Region 5's payload at (r, d): the same again. -/
theorem pay5_apply (h : FVec Ideal S1000x512 .f32) (w : FVec Ideal S512x512 .f32) (b : FVec Ideal S512 .f32)
    (g : FVec Ideal S1000x512 .f32) (r : Fin 1000) (d : Fin 512) :
    k5_pay1 (F := Ideal) h w b g (ix2 r d)
      = Cert.Spec.elu (((∑ k : Fin 512, h (ix2 r k) * w (ix2 k d)) + b (ix1 d)) + g (ix2 r d)) := by
  unfold k5_pay1
  simp only [select_apply, cmpf_apply, subf_apply, exp_at, broadcast_apply, addf_apply, shapeCast_self, bias_apply,
    dot_apply, truncf_apply]
  rfl

/-! ## Region 1: from the blocks to the array -/

theorem origin2 : (![0, 0] : Fin 2 → Nat) = fun _ => 0 := funext fun a => by fin_cases a <;> rfl
theorem origin1 : (![0] : Fin 1 → Nat) = fun _ => 0 := funext fun a => by fin_cases a <;> rfl

/-- Region 1's index maps over the hundred points: the row block of h and of g is the output's; every other block
    index is 0. -/
theorem index_facts1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = win1_4.index t (0 : Fin 2) ∧ win1_3.index t (1 : Fin 2) = 0
    ∧ win1_4.index t (1 : Fin 2) = 0 :=
  (by decide +kernel : ∀ t : Fin grid1.N, _)

/-- Point t writes row block t. -/
theorem index_diag1 : ∀ t : Fin cfg1.N, win1_4.index t = ![t.val, 0] :=
  (by decide +kernel : ∀ t : Fin grid1.N, win1_4.index t = ![t.val, 0])

/-- Every row block is some point's. -/
theorem index_onto1 (q : Fin 100) : ∃ t : Fin cfg1.N, win1_4.index t = ![q.val, 0] :=
  ⟨Fin.cast (by decide) q, index_diag1 _⟩

/-- What point `t` writes back is its block of `layer` of the entry arrays. -/
theorem flushed_eq1 (c : Dev nD) (t : Fin cfg1.N) :
    (dat1 (F := Ideal) V c).flushed 4 t = ((cfg1.win 4).blk t).view.read (Elt Ideal)
      (Cert.Spec.layer (V c main_arg0) (V c main_v24) (V c main_v26) (V c main_v22)) := by
  show (cfg1.win 4).cut (grid1.coords t) ((dat1 (F := Ideal) V c).after 4 t) = _
  rw [after1_4]
  unfold out1_4
  rw [View.canon_unit_zero origin2]
  simp only [View.ld_unit_zero (S := S1000x512) origin2, View.ld_unit_zero (S := S512x512) origin2,
    View.ld_unit_zero (S := S512) origin1]
  obtain ⟨e0, e1, e2, e3, e4, e5, e6, e7⟩ := index_facts1 t
  funext y
  obtain ⟨r, d, rfl⟩ : ∃ (r : Fin 1000) (d : Fin 512), y = ix2 r d := ⟨y 0, y 1, eq_ix2 y⟩
  refine (pay1_apply _ _ _ _ r d).trans ?_
  have hh : ∀ k : Fin 512, iblk1 (F := Ideal) V c 0 t (ix2 r k)
      = V c main_arg0 (ix2 ((((cfg1.win 4).blk t).view.emb (ix2 r d)) 0) k) := fun k => by
    show V c main_arg0 (((cfg1.win 0).blk t).view.emb (ix2 r k)) = _
    refine congrArg (V c main_arg0) (funext fun a => Fin.ext ?_)
    match a with
    | ⟨0, _⟩ => show win1_0.index t (0 : Fin 2) * 1000 + 1 * r.val = win1_4.index t (0 : Fin 2) * 1000 + 1 * r.val; omega
    | ⟨1, _⟩ => show win1_0.index t (1 : Fin 2) * 512 + 1 * k.val = k.val; omega
  have hw : ∀ k : Fin 512, iblk1 (F := Ideal) V c 1 t (ix2 k d)
      = V c main_v24 (ix2 k ((((cfg1.win 4).blk t).view.emb (ix2 r d)) 1)) := fun k => by
    show V c main_v24 (((cfg1.win 1).blk t).view.emb (ix2 k d)) = _
    refine congrArg (V c main_v24) (funext fun a => Fin.ext ?_)
    match a with
    | ⟨0, _⟩ => show win1_1.index t (0 : Fin 2) * 512 + 1 * k.val = k.val; omega
    | ⟨1, _⟩ => show win1_1.index t (1 : Fin 2) * 512 + 1 * d.val = win1_4.index t (1 : Fin 2) * 512 + 1 * d.val; omega
  have hb : iblk1 (F := Ideal) V c 2 t (ix1 d)
      = V c main_v26 (ix1 ((((cfg1.win 4).blk t).view.emb (ix2 r d)) 1)) := by
    show V c main_v26 (((cfg1.win 2).blk t).view.emb (ix1 d)) = _
    refine congrArg (V c main_v26) (funext fun a => Fin.ext ?_)
    match a with
    | ⟨0, _⟩ => show win1_2.index t (0 : Fin 1) * 512 + 1 * d.val = win1_4.index t (1 : Fin 2) * 512 + 1 * d.val; omega
  have hg : iblk1 (F := Ideal) V c 3 t (ix2 r d)
      = V c main_v22 (((cfg1.win 4).blk t).view.emb (ix2 r d)) := by
    show V c main_v22 (((cfg1.win 3).blk t).view.emb (ix2 r d)) = _
    refine congrArg (V c main_v22) (funext fun a => Fin.ext ?_)
    match a with
    | ⟨0, _⟩ => show win1_3.index t (0 : Fin 2) * 1000 + 1 * r.val = win1_4.index t (0 : Fin 2) * 1000 + 1 * r.val; omega
    | ⟨1, _⟩ => show win1_3.index t (1 : Fin 2) * 512 + 1 * d.val = win1_4.index t (1 : Fin 2) * 512 + 1 * d.val; omega
  simp only [hh, hw, hb, hg]
  rfl

/-- An index of the array is in point `t`'s block iff each coordinate is in the block's range on its axis. -/
theorem mem_blk1 (t : Fin cfg1.N) (i : S100000x512.Idx) :
    i ∈ ((cfg1.win 4).blk t).view.set ↔ ∀ a : Fin 2, win1_4.index t a * S1000x512.size a ≤ (i a).val
      ∧ (i a).val < win1_4.index t a * S1000x512.size a + S1000x512.size a := by
  show i ∈ ((View.whole main_v27).slice (win1_4.rect t)).set ↔ _
  rw [View.set_slice_whole, Rect.mem_set_unit]
  exact Iff.rfl

/-- Every index of the array is in the block of the point numbered by its row over 1000. -/
theorem cover1 (i : S100000x512.Idx) :
    ∃ t : Fin cfg1.N, (cfg1.win 4).flush t = true ∧ i ∈ ((cfg1.win 4).blk t).view.set := by
  have hi0 : (i 0).val < 100000 := (i 0).isLt
  have hi1 : (i 1).val < 512 := (i 1).isLt
  obtain ⟨t, ht⟩ := index_onto1 ⟨(i 0).val / 1000, by omega⟩
  have q0 : win1_4.index t (0 : Fin 2) = (i 0).val / 1000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 512 ≤ (i 1).val ∧ (i 1).val < win1_4.index t (1 : Fin 2) * 512 + 512; omega

/-- Region 1 (a hundred blocks of 1000 rows): the output array after the region is `layer` of the entry arrays. -/
theorem final1 (c : Dev nD) :
    (dat1 (F := Ideal) V c).arrAt 4 cfg1.N
      = Cert.Spec.layer (V c main_arg0) (V c main_v24) (V c main_v26) (V c main_v22) := by
  exact (dat1 (F := Ideal) V c).arrAt_eq_of_cover 4 _ (fun t _ => flushed_eq1 V c t) cover1

/-! ## Region 3: from the blocks to the array -/

/-- Region 3's index maps over the hundred points: the row block of h and of g is the output's; every other block
    index is 0. -/
theorem index_facts3 : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = win3_4.index t (0 : Fin 2) ∧ win3_3.index t (1 : Fin 2) = 0
    ∧ win3_4.index t (1 : Fin 2) = 0 :=
  (by decide +kernel : ∀ t : Fin grid3.N, _)

/-- Point t writes row block t. -/
theorem index_diag3 : ∀ t : Fin cfg3.N, win3_4.index t = ![t.val, 0] :=
  (by decide +kernel : ∀ t : Fin grid3.N, win3_4.index t = ![t.val, 0])

/-- Every row block is some point's. -/
theorem index_onto3 (q : Fin 100) : ∃ t : Fin cfg3.N, win3_4.index t = ![q.val, 0] :=
  ⟨Fin.cast (by decide) q, index_diag3 _⟩

/-- What point `t` writes back is its block of `layer` of the entry arrays. -/
theorem flushed_eq3 (c : Dev nD) (t : Fin cfg3.N) :
    (dat3 (F := Ideal) V c).flushed 4 t = ((cfg3.win 4).blk t).view.read (Elt Ideal)
      (Cert.Spec.layer (V c main_v27) (V c main_v52) (V c main_v54) (V c main_v50)) := by
  show (cfg3.win 4).cut (grid3.coords t) ((dat3 (F := Ideal) V c).after 4 t) = _
  rw [after3_4]
  unfold out3_4
  rw [View.canon_unit_zero origin2]
  simp only [View.ld_unit_zero (S := S1000x512) origin2, View.ld_unit_zero (S := S512x512) origin2,
    View.ld_unit_zero (S := S512) origin1]
  obtain ⟨e0, e1, e2, e3, e4, e5, e6, e7⟩ := index_facts3 t
  funext y
  obtain ⟨r, d, rfl⟩ : ∃ (r : Fin 1000) (d : Fin 512), y = ix2 r d := ⟨y 0, y 1, eq_ix2 y⟩
  refine (pay3_apply _ _ _ _ r d).trans ?_
  have hh : ∀ k : Fin 512, iblk3 (F := Ideal) V c 0 t (ix2 r k)
      = V c main_v27 (ix2 ((((cfg3.win 4).blk t).view.emb (ix2 r d)) 0) k) := fun k => by
    show V c main_v27 (((cfg3.win 0).blk t).view.emb (ix2 r k)) = _
    refine congrArg (V c main_v27) (funext fun a => Fin.ext ?_)
    match a with
    | ⟨0, _⟩ => show win3_0.index t (0 : Fin 2) * 1000 + 1 * r.val = win3_4.index t (0 : Fin 2) * 1000 + 1 * r.val; omega
    | ⟨1, _⟩ => show win3_0.index t (1 : Fin 2) * 512 + 1 * k.val = k.val; omega
  have hw : ∀ k : Fin 512, iblk3 (F := Ideal) V c 1 t (ix2 k d)
      = V c main_v52 (ix2 k ((((cfg3.win 4).blk t).view.emb (ix2 r d)) 1)) := fun k => by
    show V c main_v52 (((cfg3.win 1).blk t).view.emb (ix2 k d)) = _
    refine congrArg (V c main_v52) (funext fun a => Fin.ext ?_)
    match a with
    | ⟨0, _⟩ => show win3_1.index t (0 : Fin 2) * 512 + 1 * k.val = k.val; omega
    | ⟨1, _⟩ => show win3_1.index t (1 : Fin 2) * 512 + 1 * d.val = win3_4.index t (1 : Fin 2) * 512 + 1 * d.val; omega
  have hb : iblk3 (F := Ideal) V c 2 t (ix1 d)
      = V c main_v54 (ix1 ((((cfg3.win 4).blk t).view.emb (ix2 r d)) 1)) := by
    show V c main_v54 (((cfg3.win 2).blk t).view.emb (ix1 d)) = _
    refine congrArg (V c main_v54) (funext fun a => Fin.ext ?_)
    match a with
    | ⟨0, _⟩ => show win3_2.index t (0 : Fin 1) * 512 + 1 * d.val = win3_4.index t (1 : Fin 2) * 512 + 1 * d.val; omega
  have hg : iblk3 (F := Ideal) V c 3 t (ix2 r d)
      = V c main_v50 (((cfg3.win 4).blk t).view.emb (ix2 r d)) := by
    show V c main_v50 (((cfg3.win 3).blk t).view.emb (ix2 r d)) = _
    refine congrArg (V c main_v50) (funext fun a => Fin.ext ?_)
    match a with
    | ⟨0, _⟩ => show win3_3.index t (0 : Fin 2) * 1000 + 1 * r.val = win3_4.index t (0 : Fin 2) * 1000 + 1 * r.val; omega
    | ⟨1, _⟩ => show win3_3.index t (1 : Fin 2) * 512 + 1 * d.val = win3_4.index t (1 : Fin 2) * 512 + 1 * d.val; omega
  simp only [hh, hw, hb, hg]
  rfl

/-- An index of the array is in point `t`'s block iff each coordinate is in the block's range on its axis. -/
theorem mem_blk3 (t : Fin cfg3.N) (i : S100000x512.Idx) :
    i ∈ ((cfg3.win 4).blk t).view.set ↔ ∀ a : Fin 2, win3_4.index t a * S1000x512.size a ≤ (i a).val
      ∧ (i a).val < win3_4.index t a * S1000x512.size a + S1000x512.size a := by
  show i ∈ ((View.whole main_v55).slice (win3_4.rect t)).set ↔ _
  rw [View.set_slice_whole, Rect.mem_set_unit]
  exact Iff.rfl

/-- Every index of the array is in the block of the point numbered by its row over 1000. -/
theorem cover3 (i : S100000x512.Idx) :
    ∃ t : Fin cfg3.N, (cfg3.win 4).flush t = true ∧ i ∈ ((cfg3.win 4).blk t).view.set := by
  have hi0 : (i 0).val < 100000 := (i 0).isLt
  have hi1 : (i 1).val < 512 := (i 1).isLt
  obtain ⟨t, ht⟩ := index_onto3 ⟨(i 0).val / 1000, by omega⟩
  have q0 : win3_4.index t (0 : Fin 2) = (i 0).val / 1000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 512 ≤ (i 1).val ∧ (i 1).val < win3_4.index t (1 : Fin 2) * 512 + 512; omega

/-- Region 3, the same computation on layer 1's arrays. -/
theorem final3 (c : Dev nD) :
    (dat3 (F := Ideal) V c).arrAt 4 cfg3.N
      = Cert.Spec.layer (V c main_v27) (V c main_v52) (V c main_v54) (V c main_v50) := by
  exact (dat3 (F := Ideal) V c).arrAt_eq_of_cover 4 _ (fun t _ => flushed_eq3 V c t) cover3

/-! ## Region 5: from the blocks to the array -/

/-- Region 5's index maps over the hundred points: the row block of h and of g is the output's; every other block
    index is 0. -/
theorem index_facts5 : ∀ t : Fin cfg5.N,
    win5_0.index t (0 : Fin 2) = win5_4.index t (0 : Fin 2) ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = win5_4.index t (0 : Fin 2) ∧ win5_3.index t (1 : Fin 2) = 0
    ∧ win5_4.index t (1 : Fin 2) = 0 :=
  (by decide +kernel : ∀ t : Fin grid5.N, _)

/-- Point t writes row block t. -/
theorem index_diag5 : ∀ t : Fin cfg5.N, win5_4.index t = ![t.val, 0] :=
  (by decide +kernel : ∀ t : Fin grid5.N, win5_4.index t = ![t.val, 0])

/-- Every row block is some point's. -/
theorem index_onto5 (q : Fin 100) : ∃ t : Fin cfg5.N, win5_4.index t = ![q.val, 0] :=
  ⟨Fin.cast (by decide) q, index_diag5 _⟩

/-- What point `t` writes back is its block of `layer` of the entry arrays. -/
theorem flushed_eq5 (c : Dev nD) (t : Fin cfg5.N) :
    (dat5 (F := Ideal) V c).flushed 4 t = ((cfg5.win 4).blk t).view.read (Elt Ideal)
      (Cert.Spec.layer (V c main_v55) (V c main_v80) (V c main_v82) (V c main_v78)) := by
  show (cfg5.win 4).cut (grid5.coords t) ((dat5 (F := Ideal) V c).after 4 t) = _
  rw [after5_4]
  unfold out5_4
  rw [View.canon_unit_zero origin2]
  simp only [View.ld_unit_zero (S := S1000x512) origin2, View.ld_unit_zero (S := S512x512) origin2,
    View.ld_unit_zero (S := S512) origin1]
  obtain ⟨e0, e1, e2, e3, e4, e5, e6, e7⟩ := index_facts5 t
  funext y
  obtain ⟨r, d, rfl⟩ : ∃ (r : Fin 1000) (d : Fin 512), y = ix2 r d := ⟨y 0, y 1, eq_ix2 y⟩
  refine (pay5_apply _ _ _ _ r d).trans ?_
  have hh : ∀ k : Fin 512, iblk5 (F := Ideal) V c 0 t (ix2 r k)
      = V c main_v55 (ix2 ((((cfg5.win 4).blk t).view.emb (ix2 r d)) 0) k) := fun k => by
    show V c main_v55 (((cfg5.win 0).blk t).view.emb (ix2 r k)) = _
    refine congrArg (V c main_v55) (funext fun a => Fin.ext ?_)
    match a with
    | ⟨0, _⟩ => show win5_0.index t (0 : Fin 2) * 1000 + 1 * r.val = win5_4.index t (0 : Fin 2) * 1000 + 1 * r.val; omega
    | ⟨1, _⟩ => show win5_0.index t (1 : Fin 2) * 512 + 1 * k.val = k.val; omega
  have hw : ∀ k : Fin 512, iblk5 (F := Ideal) V c 1 t (ix2 k d)
      = V c main_v80 (ix2 k ((((cfg5.win 4).blk t).view.emb (ix2 r d)) 1)) := fun k => by
    show V c main_v80 (((cfg5.win 1).blk t).view.emb (ix2 k d)) = _
    refine congrArg (V c main_v80) (funext fun a => Fin.ext ?_)
    match a with
    | ⟨0, _⟩ => show win5_1.index t (0 : Fin 2) * 512 + 1 * k.val = k.val; omega
    | ⟨1, _⟩ => show win5_1.index t (1 : Fin 2) * 512 + 1 * d.val = win5_4.index t (1 : Fin 2) * 512 + 1 * d.val; omega
  have hb : iblk5 (F := Ideal) V c 2 t (ix1 d)
      = V c main_v82 (ix1 ((((cfg5.win 4).blk t).view.emb (ix2 r d)) 1)) := by
    show V c main_v82 (((cfg5.win 2).blk t).view.emb (ix1 d)) = _
    refine congrArg (V c main_v82) (funext fun a => Fin.ext ?_)
    match a with
    | ⟨0, _⟩ => show win5_2.index t (0 : Fin 1) * 512 + 1 * d.val = win5_4.index t (1 : Fin 2) * 512 + 1 * d.val; omega
  have hg : iblk5 (F := Ideal) V c 3 t (ix2 r d)
      = V c main_v78 (((cfg5.win 4).blk t).view.emb (ix2 r d)) := by
    show V c main_v78 (((cfg5.win 3).blk t).view.emb (ix2 r d)) = _
    refine congrArg (V c main_v78) (funext fun a => Fin.ext ?_)
    match a with
    | ⟨0, _⟩ => show win5_3.index t (0 : Fin 2) * 1000 + 1 * r.val = win5_4.index t (0 : Fin 2) * 1000 + 1 * r.val; omega
    | ⟨1, _⟩ => show win5_3.index t (1 : Fin 2) * 512 + 1 * d.val = win5_4.index t (1 : Fin 2) * 512 + 1 * d.val; omega
  simp only [hh, hw, hb, hg]
  rfl

/-- An index of the array is in point `t`'s block iff each coordinate is in the block's range on its axis. -/
theorem mem_blk5 (t : Fin cfg5.N) (i : S100000x512.Idx) :
    i ∈ ((cfg5.win 4).blk t).view.set ↔ ∀ a : Fin 2, win5_4.index t a * S1000x512.size a ≤ (i a).val
      ∧ (i a).val < win5_4.index t a * S1000x512.size a + S1000x512.size a := by
  show i ∈ ((View.whole main_v83).slice (win5_4.rect t)).set ↔ _
  rw [View.set_slice_whole, Rect.mem_set_unit]
  exact Iff.rfl

/-- Every index of the array is in the block of the point numbered by its row over 1000. -/
theorem cover5 (i : S100000x512.Idx) :
    ∃ t : Fin cfg5.N, (cfg5.win 4).flush t = true ∧ i ∈ ((cfg5.win 4).blk t).view.set := by
  have hi0 : (i 0).val < 100000 := (i 0).isLt
  have hi1 : (i 1).val < 512 := (i 1).isLt
  obtain ⟨t, ht⟩ := index_onto5 ⟨(i 0).val / 1000, by omega⟩
  have q0 : win5_4.index t (0 : Fin 2) = (i 0).val / 1000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 1000 ≤ (i 0).val ∧ (i 0).val < win5_4.index t (0 : Fin 2) * 1000 + 1000; omega
  | ⟨1, _⟩ => show win5_4.index t (1 : Fin 2) * 512 ≤ (i 1).val ∧ (i 1).val < win5_4.index t (1 : Fin 2) * 512 + 512; omega

/-- Region 5, the same computation on layer 2's arrays. -/
theorem final5 (c : Dev nD) :
    (dat5 (F := Ideal) V c).arrAt 4 cfg5.N
      = Cert.Spec.layer (V c main_v55) (V c main_v80) (V c main_v82) (V c main_v78) := by
  exact (dat5 (F := Ideal) V c).arrAt_eq_of_cover 4 _ (fun t _ => flushed_eq5 V c t) cover5

end Cert.KernelIdeal.Layer

end
-- ==== Proof.KHead.lean ====
/- The head region: it leaves in its output array `max(x · w1 + b1, 0) · w2 + b2` of the arrays it is entered with. -/
import proofs.«124445_j627065225441_1_alg».proof.Proof.Gen.KernelIdeal.Frame
import proofs.«124445_j627065225441_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Head

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products at an index -/

theorem inner_lhs_0 (j : S1024x1024.Idx) (k : dot_S1024x512_S512x1024_S1024x1024_1_0_0_1_n_n.contr.Idx) :
    (dot_S1024x512_S512x1024_S1024x1024_1_0_0_1_n_n.lhsIdx j k 0).val = (j 0).val := by
  simp [DotDims.lhsIdx, dot_S1024x512_S512x1024_S1024x1024_1_0_0_1_n_n]; rfl

theorem inner_lhs_1 (j : S1024x1024.Idx) (k : dot_S1024x512_S512x1024_S1024x1024_1_0_0_1_n_n.contr.Idx) :
    (dot_S1024x512_S512x1024_S1024x1024_1_0_0_1_n_n.lhsIdx j k 1).val = (k ⟨0, by decide⟩).val :=
  dot_S1024x512_S512x1024_S1024x1024_1_0_0_1_n_n.lhsIdx_val_of_single (cl := 1) rfl j k

theorem inner_rhs_0 (j : S1024x1024.Idx) (k : dot_S1024x512_S512x1024_S1024x1024_1_0_0_1_n_n.contr.Idx) :
    (dot_S1024x512_S512x1024_S1024x1024_1_0_0_1_n_n.rhsIdx j k 0).val = (k ⟨0, by decide⟩).val :=
  dot_S1024x512_S512x1024_S1024x1024_1_0_0_1_n_n.rhsIdx_val_of_single (cr := 0) rfl j k

theorem inner_rhs_1 (j : S1024x1024.Idx) (k : dot_S1024x512_S512x1024_S1024x1024_1_0_0_1_n_n.contr.Idx) :
    (dot_S1024x512_S512x1024_S1024x1024_1_0_0_1_n_n.rhsIdx j k 1).val = (j 1).val := by
  simp [DotDims.rhsIdx, dot_S1024x512_S512x1024_S1024x1024_1_0_0_1_n_n]; rfl

/-- The inner product at (r, j): the sum over the 512 contracted coordinates. -/
theorem inner_apply (A : FVec Ideal S1024x512 .bf16) (B : FVec Ideal S512x1024 .bf16) (r j : Fin 1024) :
    matmul dot_S1024x512_S512x1024_S1024x1024_1_0_0_1_n_n none A B (constant (F := Ideal) S1024x1024 .f32 0x00000000#32) (ix2 r j)
      = ∑ k : Fin 512, A (ix2 r k) * B (ix2 k j) := by
  show FloatOps.matmul _ none A B _ (ix2 r j) = _
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have hl : dot_S1024x512_S512x1024_S1024x1024_1_0_0_1_n_n.lhsIdx (ix2 r j)
      ((contrEquiv1 dot_S1024x512_S512x1024_S1024x1024_1_0_0_1_n_n 512 rfl rfl).symm k) = ix2 r k := by
    funext a; apply Fin.ext
    match a with
    | ⟨0, _⟩ => exact inner_lhs_0 _ _
    | ⟨1, _⟩ => exact (inner_lhs_1 _ _).trans hk
  have hr : dot_S1024x512_S512x1024_S1024x1024_1_0_0_1_n_n.rhsIdx (ix2 r j)
      ((contrEquiv1 dot_S1024x512_S512x1024_S1024x1024_1_0_0_1_n_n 512 rfl rfl).symm k) = ix2 k j := by
    funext a; apply Fin.ext
    match a with
    | ⟨0, _⟩ => exact (inner_rhs_0 _ _).trans hk
    | ⟨1, _⟩ => exact inner_rhs_1 _ _
  rw [hl, hr]

theorem outer_lhs_0 (j : S1024x10.Idx) (k : dot_S1024x1024_S1024x10_S1024x10_1_0_0_1_n_n.contr.Idx) :
    (dot_S1024x1024_S1024x10_S1024x10_1_0_0_1_n_n.lhsIdx j k 0).val = (j 0).val := by
  simp [DotDims.lhsIdx, dot_S1024x1024_S1024x10_S1024x10_1_0_0_1_n_n]; rfl

theorem outer_lhs_1 (j : S1024x10.Idx) (k : dot_S1024x1024_S1024x10_S1024x10_1_0_0_1_n_n.contr.Idx) :
    (dot_S1024x1024_S1024x10_S1024x10_1_0_0_1_n_n.lhsIdx j k 1).val = (k ⟨0, by decide⟩).val :=
  dot_S1024x1024_S1024x10_S1024x10_1_0_0_1_n_n.lhsIdx_val_of_single (cl := 1) rfl j k

theorem outer_rhs_0 (j : S1024x10.Idx) (k : dot_S1024x1024_S1024x10_S1024x10_1_0_0_1_n_n.contr.Idx) :
    (dot_S1024x1024_S1024x10_S1024x10_1_0_0_1_n_n.rhsIdx j k 0).val = (k ⟨0, by decide⟩).val :=
  dot_S1024x1024_S1024x10_S1024x10_1_0_0_1_n_n.rhsIdx_val_of_single (cr := 0) rfl j k

theorem outer_rhs_1 (j : S1024x10.Idx) (k : dot_S1024x1024_S1024x10_S1024x10_1_0_0_1_n_n.contr.Idx) :
    (dot_S1024x1024_S1024x10_S1024x10_1_0_0_1_n_n.rhsIdx j k 1).val = (j 1).val := by
  simp [DotDims.rhsIdx, dot_S1024x1024_S1024x10_S1024x10_1_0_0_1_n_n]; rfl

/-- The outer product at (r, j): the sum over the 1024 contracted coordinates. -/
theorem outer_apply (A : FVec Ideal S1024x1024 .bf16) (B : FVec Ideal S1024x10 .bf16) (r : Fin 1024) (j : Fin 10) :
    matmul dot_S1024x1024_S1024x10_S1024x10_1_0_0_1_n_n none A B (constant (F := Ideal) S1024x10 .f32 0x00000000#32) (ix2 r j)
      = ∑ k : Fin 1024, A (ix2 r k) * B (ix2 k j) := by
  show FloatOps.matmul _ none A B _ (ix2 r j) = _
  rw [Ideal.matmul_constant_zero_apply,
    ← Equiv.sum_comp (contrEquiv1 dot_S1024x1024_S1024x10_S1024x10_1_0_0_1_n_n 1024 rfl rfl).symm]
  refine Finset.sum_congr rfl fun k _ => ?_
  have hk := contrEquiv1_symm_val dot_S1024x1024_S1024x10_S1024x10_1_0_0_1_n_n 1024 rfl rfl k
  have hl : dot_S1024x1024_S1024x10_S1024x10_1_0_0_1_n_n.lhsIdx (ix2 r j)
      ((contrEquiv1 dot_S1024x1024_S1024x10_S1024x10_1_0_0_1_n_n 1024 rfl rfl).symm k) = ix2 r k := by
    funext a; apply Fin.ext
    match a with
    | ⟨0, _⟩ => exact outer_lhs_0 _ _
    | ⟨1, _⟩ => exact (outer_lhs_1 _ _).trans hk
  have hr : dot_S1024x1024_S1024x10_S1024x10_1_0_0_1_n_n.rhsIdx (ix2 r j)
      ((contrEquiv1 dot_S1024x1024_S1024x10_S1024x10_1_0_0_1_n_n 1024 rfl rfl).symm k) = ix2 k j := by
    funext a; apply Fin.ext
    match a with
    | ⟨0, _⟩ => exact (outer_rhs_0 _ _).trans hk
    | ⟨1, _⟩ => exact outer_rhs_1 _ _
  rw [hl, hr]

/-! ## The bias rows and the payload at an index -/

/-- The first bias, as one row spread over the 1024 rows, reads at (r, j) the bias at j. -/
theorem bias1_apply (b : FVec Ideal S1024 .f32) (r j : Fin 1024) :
    broadcastTo S1024x1024 (shapeCast S1x1024 b shapeCasts_S1024_S1x1024) broadcasts_S1x1024_S1024x1024 (ix2 r j) = b (ix1 j) := by
  rw [broadcastTo_1b_ab_apply, shapeCast_a_1a_apply]

/-- The second bias, as one row spread over the 1024 rows, reads at (r, t) the bias at t. -/
theorem bias2_apply (b : FVec Ideal S10 .f32) (r : Fin 1024) (t : Fin 10) :
    broadcastTo S1024x10 (shapeCast S1x10 b shapeCasts_S10_S1x10) broadcasts_S1x10_S1024x10 (ix2 r t) = b (ix1 t) := by
  rw [broadcastTo_1b_ab_apply, shapeCast_a_1a_apply]

/-- The body's payload at (r, t) of its five blocks: the sum over j of
    max((Σ_k x(r, k) · w1(k, j)) + b1(j), 0) · w2(j, t), plus b2(t). -/
theorem pay_apply (x : FVec Ideal S1024x512 .f32) (w1 : FVec Ideal S512x1024 .f32) (b1 : FVec Ideal S1024 .f32)
    (w2 : FVec Ideal S1024x10 .f32) (b2 : FVec Ideal S10 .f32) (r : Fin 1024) (t : Fin 10) :
    k6_pay1 (F := Ideal) x w1 b1 w2 b2 (ix2 r t)
      = (∑ j : Fin 1024, max ((∑ k : Fin 512, x (ix2 r k) * w1 (ix2 k j)) + b1 (ix1 j)) (Ideal.ofBits .f32 0x00000000#32)
          * w2 (ix2 j t)) + b2 (ix1 t) := by
  unfold k6_pay1
  rw [addf_apply, bias2_apply, outer_apply]
  refine congrArg (· + b2 (ix1 t)) (Finset.sum_congr rfl fun j _ => ?_)
  rw [truncf_apply, truncf_apply, maximumf_apply, addf_apply, bias1_apply, inner_apply, broadcast_apply]
  simp only [truncf_apply, shapeCast_self]
  rfl

/-! ## From the blocks to the array -/

theorem origin2 : (![0, 0] : Fin 2 → Nat) = fun _ => 0 := funext fun a => by fin_cases a <;> rfl
theorem origin1 : (![0] : Fin 1 → Nat) = fun _ => 0 := funext fun a => by fin_cases a <;> rfl

/-- The index maps over the four points: the row block of x is the output's, at most 3; every other block index is 0. -/
theorem index_facts : ∀ t : Fin cfg6.N,
    win6_0.index t (0 : Fin 2) = win6_5.index t (0 : Fin 2) ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (1 : Fin 2) = 0 ∧ win6_5.index t (0 : Fin 2) ≤ 3 :=
  (by decide +kernel : ∀ t : Fin grid6.N, _)

/-- Every row block is some point's. -/
theorem index_onto : ∀ q : Fin 4, ∃ t : Fin cfg6.N, win6_5.index t = ![q.val, 0] :=
  (by decide +kernel : ∀ q : Fin 4, ∃ t : Fin grid6.N, win6_5.index t = ![q.val, 0])

/-- What point `t` writes back is its block of `head` of the entry arrays. -/
theorem flushed_eq (c : Dev nD) (t : Fin cfg6.N) :
    (dat6 (F := Ideal) V c).flushed 5 t = ((cfg6.win 5).blk t).view.read (Elt Ideal)
      (Cert.Spec.head (V c main_v94) (V c main_arg6) (V c main_arg7) (V c main_arg8) (V c main_arg9)) := by
  show (cfg6.win 5).cut (grid6.coords t) ((dat6 (F := Ideal) V c).after 5 t) = _
  rw [after6_5]
  unfold out6_5
  rw [View.canon_unit_zero origin2]
  simp only [View.ld_unit_zero (S := S1024x512) origin2, View.ld_unit_zero (S := S512x1024) origin2,
    View.ld_unit_zero (S := S1024) origin1, View.ld_unit_zero (S := S1024x10) origin2, View.ld_unit_zero (S := S10) origin1]
  obtain ⟨e0, e1, e2, e3, e4, e5, e6, e7, e8, e9⟩ := index_facts t
  funext y
  obtain ⟨r, d, rfl⟩ : ∃ (r : Fin 1024) (d : Fin 10), y = ix2 r d := ⟨y 0, y 1, eq_ix2 y⟩
  refine (pay_apply _ _ _ _ _ r d).trans ?_
  have hx : ∀ k : Fin 512, iblk6 (F := Ideal) V c 0 t (ix2 r k)
      = V c main_v94 (ix2 ((((cfg6.win 5).blk t).view.emb (ix2 r d)) 0) k) := fun k => by
    show V c main_v94 (((cfg6.win 0).blk t).view.emb (ix2 r k)) = _
    refine congrArg (V c main_v94) (funext fun a => Fin.ext ?_)
    match a with
    | ⟨0, _⟩ => show win6_0.index t (0 : Fin 2) * 1024 + 1 * r.val = win6_5.index t (0 : Fin 2) * 1024 + 1 * r.val; omega
    | ⟨1, _⟩ => show win6_0.index t (1 : Fin 2) * 512 + 1 * k.val = k.val; omega
  have hw1 : ∀ (k : Fin 512) (j : Fin 1024), iblk6 (F := Ideal) V c 1 t (ix2 k j) = V c main_arg6 (ix2 k j) := fun k j => by
    show V c main_arg6 (((cfg6.win 1).blk t).view.emb (ix2 k j)) = _
    refine congrArg (V c main_arg6) (funext fun a => Fin.ext ?_)
    match a with
    | ⟨0, _⟩ => show win6_1.index t (0 : Fin 2) * 512 + 1 * k.val = k.val; omega
    | ⟨1, _⟩ => show win6_1.index t (1 : Fin 2) * 1024 + 1 * j.val = j.val; omega
  have hb1 : ∀ j : Fin 1024, iblk6 (F := Ideal) V c 2 t (ix1 j) = V c main_arg7 (ix1 j) := fun j => by
    show V c main_arg7 (((cfg6.win 2).blk t).view.emb (ix1 j)) = _
    refine congrArg (V c main_arg7) (funext fun a => Fin.ext ?_)
    match a with
    | ⟨0, _⟩ => show win6_2.index t (0 : Fin 1) * 1024 + 1 * j.val = j.val; omega
  have hw2 : ∀ j : Fin 1024, iblk6 (F := Ideal) V c 3 t (ix2 j d)
      = V c main_arg8 (ix2 j ((((cfg6.win 5).blk t).view.emb (ix2 r d)) 1)) := fun j => by
    show V c main_arg8 (((cfg6.win 3).blk t).view.emb (ix2 j d)) = _
    refine congrArg (V c main_arg8) (funext fun a => Fin.ext ?_)
    match a with
    | ⟨0, _⟩ => show win6_3.index t (0 : Fin 2) * 1024 + 1 * j.val = j.val; omega
    | ⟨1, _⟩ => show win6_3.index t (1 : Fin 2) * 10 + 1 * d.val = win6_5.index t (1 : Fin 2) * 10 + 1 * d.val; omega
  have hb2 : iblk6 (F := Ideal) V c 4 t (ix1 d)
      = V c main_arg9 (ix1 ((((cfg6.win 5).blk t).view.emb (ix2 r d)) 1)) := by
    show V c main_arg9 (((cfg6.win 4).blk t).view.emb (ix1 d)) = _
    refine congrArg (V c main_arg9) (funext fun a => Fin.ext ?_)
    match a with
    | ⟨0, _⟩ => show win6_4.index t (0 : Fin 1) * 10 + 1 * d.val = win6_5.index t (1 : Fin 2) * 10 + 1 * d.val; omega
  simp only [hx, hw1, hb1, hw2, hb2]
  rfl

/-- An index of the array is in point `t`'s block iff each coordinate is in the block's range on its axis. -/
theorem mem_blk (t : Fin cfg6.N) (i : S4096x10.Idx) :
    i ∈ ((cfg6.win 5).blk t).view.set ↔ ∀ a : Fin 2, win6_5.index t a * S1024x10.size a ≤ (i a).val
      ∧ (i a).val < win6_5.index t a * S1024x10.size a + S1024x10.size a := by
  show i ∈ ((View.whole main_v95).slice (win6_5.rect t)).set ↔ _
  rw [View.set_slice_whole, Rect.mem_set_unit]
  exact Iff.rfl

/-- Every index of the array is in the block of the point numbered by its row over 1024. -/
theorem cover (i : S4096x10.Idx) :
    ∃ t : Fin cfg6.N, (cfg6.win 5).flush t = true ∧ i ∈ ((cfg6.win 5).blk t).view.set := by
  have hi0 : (i 0).val < 4096 := (i 0).isLt
  have hi1 : (i 1).val < 10 := (i 1).isLt
  obtain ⟨t, ht⟩ := index_onto ⟨(i 0).val / 1024, by omega⟩
  have q0 : win6_5.index t (0 : Fin 2) = (i 0).val / 1024 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 1024 ≤ (i 0).val ∧ (i 0).val < win6_5.index t (0 : Fin 2) * 1024 + 1024; omega
  | ⟨1, _⟩ => show win6_5.index t (1 : Fin 2) * 10 ≤ (i 1).val ∧ (i 1).val < win6_5.index t (1 : Fin 2) * 10 + 10; omega

/-- Region 6 (four blocks of 1024 segment rows): the output array after the region is `head` of the entry arrays. -/
theorem final6 (c : Dev nD) :
    (dat6 (F := Ideal) V c).arrAt 5 cfg6.N
      = Cert.Spec.head (V c main_v94) (V c main_arg6) (V c main_arg7) (V c main_arg8) (V c main_arg9) := by
  exact (dat6 (F := Ideal) V c).arrAt_eq_of_cover 5 _ (fun t _ => flushed_eq V c t) cover

end Cert.KernelIdeal.Head

end
-- ==== Proof.KHost.lean ====
/- The host operations between the regions, read as values: each stretch computes a segment mean, or gathers rows, and
   slices one layer's matrix and bias out of the stacks; every buffer a stretch does not write keeps its contents. -/
import proofs.«124445_j627065225441_1_alg».proof.Proof.Gen.KernelIdeal.Launch
import proofs.«124445_j627065225441_1_alg».proof.Proof.Spec
import Idealize.ShloMosaic.Lib.StableHlo.Run

set_option maxRecDepth 16384

noncomputable section

namespace Cert.KernelIdeal.HostVals

open Idealize.ShloMosaic Idealize.ShloMosaic.TcCoe Idealize.SL.Sem Idealize.ShloMosaic.ValueIdx
open Idealize.ShloMosaic.Pipeline (Dat Cfg Window)
open Cert.KernelIdeal Cert.KernelIdeal.Gen

open Idealize.ShloMosaic.StableHlo

variable (W : Valuation τ sig (Elt Ideal))

/-- The buffers stretch 0 writes. -/
abbrev wr0 : List (Ref sig .tc) := [main_cst, main_v0, main_v1, main_v2, main_cst_0, main_v3, main_cst_1, main_v4, main_v5, main_v6, main_cst_2, main_v7, main_v8, main_v9, main_v10, main_v11, main_v12, main_v13, main_v14]

/-- Each operation of stretch 0 writes one buffer of the list. -/
theorem writes0 : (hostOps0 (F := Ideal) : List (HloOp τ sig (Elt Ideal))).Forall fun op =>
    op.writes ⊆ (wr0.map (Proc.devRef (τ := τ) .tc)).toFinset := by
  simp only [hostOps0, List.Forall, nullary_writes, unary_writes, binary_writes, ternary_writes, reshape_writes,
    Finset.singleton_subset_iff]
  repeat' apply And.intro
  all_goals exact List.mem_toFinset.mpr (List.mem_map_of_mem (by decide))

/-- A buffer stretch 0 does not write keeps its contents. -/
theorem keep0 (r : Ref sig .tc) (hr : r ∉ wr0) :
    after (hostOps0 (F := Ideal)) W (Proc.devRef .tc r) = W (Proc.devRef .tc r) :=
  after_of_writes_sub _ W writes0 hr

theorem host0_v10 :
    after (hostOps0 (F := Ideal)) W (Proc.devRef .tc main_v10) = Cert.Spec.segMean (W (Proc.devRef .tc main_arg0)) (W (Proc.devRef .tc main_arg1)) := by
  after_results
  rfl

theorem host0_v12 :
    after (hostOps0 (F := Ideal)) W (Proc.devRef .tc main_v12) = Cert.Spec.mat0 (W (Proc.devRef .tc main_arg4)) := by
  after_results
  rfl

theorem host0_v14 :
    after (hostOps0 (F := Ideal)) W (Proc.devRef .tc main_v14) = Cert.Spec.vec0 (W (Proc.devRef .tc main_arg5)) := by
  after_results
  rfl

/-- The buffers stretch 1 writes. -/
abbrev wr1 : List (Ref sig .tc) := [main_c, main_v16, main_v17, main_c_3, main_v18, main_v19, main_v20, main_v21, main_v22, main_v23, main_v24, main_v25, main_v26]

/-- Each operation of stretch 1 writes one buffer of the list. -/
theorem writes1 : (hostOps1 (F := Ideal) : List (HloOp τ sig (Elt Ideal))).Forall fun op =>
    op.writes ⊆ (wr1.map (Proc.devRef (τ := τ) .tc)).toFinset := by
  simp only [hostOps1, List.Forall, nullary_writes, unary_writes, binary_writes, ternary_writes, reshape_writes,
    Finset.singleton_subset_iff]
  repeat' apply And.intro
  all_goals exact List.mem_toFinset.mpr (List.mem_map_of_mem (by decide))

/-- A buffer stretch 1 does not write keeps its contents. -/
theorem keep1 (r : Ref sig .tc) (hr : r ∉ wr1) :
    after (hostOps1 (F := Ideal)) W (Proc.devRef .tc r) = W (Proc.devRef .tc r) :=
  after_of_writes_sub _ W writes1 hr

theorem host1_v22 :
    after (hostOps1 (F := Ideal)) W (Proc.devRef .tc main_v22) = Cert.Spec.rowsAt (W (Proc.devRef .tc main_v15)) (W (Proc.devRef .tc main_arg1)) := by
  after_results
  rfl

theorem host1_v24 :
    after (hostOps1 (F := Ideal)) W (Proc.devRef .tc main_v24) = Cert.Spec.mat0 (W (Proc.devRef .tc main_arg2)) := by
  after_results
  rfl

theorem host1_v26 :
    after (hostOps1 (F := Ideal)) W (Proc.devRef .tc main_v26) = Cert.Spec.vec0 (W (Proc.devRef .tc main_arg3)) := by
  after_results
  rfl

/-- The buffers stretch 2 writes. -/
abbrev wr2 : List (Ref sig .tc) := [main_cst_4, main_v28, main_v29, main_v30, main_cst_5, main_v31, main_cst_6, main_v32, main_v33, main_v34, main_cst_7, main_v35, main_v36, main_v37, main_v38, main_v39, main_v40, main_v41, main_v42]

/-- Each operation of stretch 2 writes one buffer of the list. -/
theorem writes2 : (hostOps2 (F := Ideal) : List (HloOp τ sig (Elt Ideal))).Forall fun op =>
    op.writes ⊆ (wr2.map (Proc.devRef (τ := τ) .tc)).toFinset := by
  simp only [hostOps2, List.Forall, nullary_writes, unary_writes, binary_writes, ternary_writes, reshape_writes,
    Finset.singleton_subset_iff]
  repeat' apply And.intro
  all_goals exact List.mem_toFinset.mpr (List.mem_map_of_mem (by decide))

/-- A buffer stretch 2 does not write keeps its contents. -/
theorem keep2 (r : Ref sig .tc) (hr : r ∉ wr2) :
    after (hostOps2 (F := Ideal)) W (Proc.devRef .tc r) = W (Proc.devRef .tc r) :=
  after_of_writes_sub _ W writes2 hr

theorem host2_v38 :
    after (hostOps2 (F := Ideal)) W (Proc.devRef .tc main_v38) = Cert.Spec.segMean (W (Proc.devRef .tc main_v27)) (W (Proc.devRef .tc main_arg1)) := by
  after_results
  rfl

theorem host2_v40 :
    after (hostOps2 (F := Ideal)) W (Proc.devRef .tc main_v40) = Cert.Spec.mat1 (W (Proc.devRef .tc main_arg4)) := by
  after_results
  rfl

theorem host2_v42 :
    after (hostOps2 (F := Ideal)) W (Proc.devRef .tc main_v42) = Cert.Spec.vec1 (W (Proc.devRef .tc main_arg5)) := by
  after_results
  rfl

/-- The buffers stretch 3 writes. -/
abbrev wr3 : List (Ref sig .tc) := [main_c_8, main_v44, main_v45, main_c_9, main_v46, main_v47, main_v48, main_v49, main_v50, main_v51, main_v52, main_v53, main_v54]

/-- Each operation of stretch 3 writes one buffer of the list. -/
theorem writes3 : (hostOps3 (F := Ideal) : List (HloOp τ sig (Elt Ideal))).Forall fun op =>
    op.writes ⊆ (wr3.map (Proc.devRef (τ := τ) .tc)).toFinset := by
  simp only [hostOps3, List.Forall, nullary_writes, unary_writes, binary_writes, ternary_writes, reshape_writes,
    Finset.singleton_subset_iff]
  repeat' apply And.intro
  all_goals exact List.mem_toFinset.mpr (List.mem_map_of_mem (by decide))

/-- A buffer stretch 3 does not write keeps its contents. -/
theorem keep3 (r : Ref sig .tc) (hr : r ∉ wr3) :
    after (hostOps3 (F := Ideal)) W (Proc.devRef .tc r) = W (Proc.devRef .tc r) :=
  after_of_writes_sub _ W writes3 hr

theorem host3_v50 :
    after (hostOps3 (F := Ideal)) W (Proc.devRef .tc main_v50) = Cert.Spec.rowsAt (W (Proc.devRef .tc main_v43)) (W (Proc.devRef .tc main_arg1)) := by
  after_results
  rfl

theorem host3_v52 :
    after (hostOps3 (F := Ideal)) W (Proc.devRef .tc main_v52) = Cert.Spec.mat1 (W (Proc.devRef .tc main_arg2)) := by
  after_results
  rfl

theorem host3_v54 :
    after (hostOps3 (F := Ideal)) W (Proc.devRef .tc main_v54) = Cert.Spec.vec1 (W (Proc.devRef .tc main_arg3)) := by
  after_results
  rfl

/-- The buffers stretch 4 writes. -/
abbrev wr4 : List (Ref sig .tc) := [main_cst_10, main_v56, main_v57, main_v58, main_cst_11, main_v59, main_cst_12, main_v60, main_v61, main_v62, main_cst_13, main_v63, main_v64, main_v65, main_v66, main_v67, main_v68, main_v69, main_v70]

/-- Each operation of stretch 4 writes one buffer of the list. -/
theorem writes4 : (hostOps4 (F := Ideal) : List (HloOp τ sig (Elt Ideal))).Forall fun op =>
    op.writes ⊆ (wr4.map (Proc.devRef (τ := τ) .tc)).toFinset := by
  simp only [hostOps4, List.Forall, nullary_writes, unary_writes, binary_writes, ternary_writes, reshape_writes,
    Finset.singleton_subset_iff]
  repeat' apply And.intro
  all_goals exact List.mem_toFinset.mpr (List.mem_map_of_mem (by decide))

/-- A buffer stretch 4 does not write keeps its contents. -/
theorem keep4 (r : Ref sig .tc) (hr : r ∉ wr4) :
    after (hostOps4 (F := Ideal)) W (Proc.devRef .tc r) = W (Proc.devRef .tc r) :=
  after_of_writes_sub _ W writes4 hr

set_option maxHeartbeats 1600000 in
theorem host4_v66 :
    after (hostOps4 (F := Ideal)) W (Proc.devRef .tc main_v66) = Cert.Spec.segMean (W (Proc.devRef .tc main_v55)) (W (Proc.devRef .tc main_arg1)) := by
  after_results
  rfl

theorem host4_v68 :
    after (hostOps4 (F := Ideal)) W (Proc.devRef .tc main_v68) = Cert.Spec.mat2 (W (Proc.devRef .tc main_arg4)) := by
  after_results
  rfl

theorem host4_v70 :
    after (hostOps4 (F := Ideal)) W (Proc.devRef .tc main_v70) = Cert.Spec.vec2 (W (Proc.devRef .tc main_arg5)) := by
  after_results
  rfl

/-- The buffers stretch 5 writes. -/
abbrev wr5 : List (Ref sig .tc) := [main_c_14, main_v72, main_v73, main_c_15, main_v74, main_v75, main_v76, main_v77, main_v78, main_v79, main_v80, main_v81, main_v82]

/-- Each operation of stretch 5 writes one buffer of the list. -/
theorem writes5 : (hostOps5 (F := Ideal) : List (HloOp τ sig (Elt Ideal))).Forall fun op =>
    op.writes ⊆ (wr5.map (Proc.devRef (τ := τ) .tc)).toFinset := by
  simp only [hostOps5, List.Forall, nullary_writes, unary_writes, binary_writes, ternary_writes, reshape_writes,
    Finset.singleton_subset_iff]
  repeat' apply And.intro
  all_goals exact List.mem_toFinset.mpr (List.mem_map_of_mem (by decide))

/-- A buffer stretch 5 does not write keeps its contents. -/
theorem keep5 (r : Ref sig .tc) (hr : r ∉ wr5) :
    after (hostOps5 (F := Ideal)) W (Proc.devRef .tc r) = W (Proc.devRef .tc r) :=
  after_of_writes_sub _ W writes5 hr

theorem host5_v78 :
    after (hostOps5 (F := Ideal)) W (Proc.devRef .tc main_v78) = Cert.Spec.rowsAt (W (Proc.devRef .tc main_v71)) (W (Proc.devRef .tc main_arg1)) := by
  after_results
  rfl

theorem host5_v80 :
    after (hostOps5 (F := Ideal)) W (Proc.devRef .tc main_v80) = Cert.Spec.mat2 (W (Proc.devRef .tc main_arg2)) := by
  after_results
  rfl

theorem host5_v82 :
    after (hostOps5 (F := Ideal)) W (Proc.devRef .tc main_v82) = Cert.Spec.vec2 (W (Proc.devRef .tc main_arg3)) := by
  after_results
  rfl

/-- The buffers stretch 6 writes. -/
abbrev wr6 : List (Ref sig .tc) := [main_cst_16, main_v84, main_v85, main_v86, main_cst_17, main_v87, main_cst_18, main_v88, main_v89, main_v90, main_cst_19, main_v91, main_v92, main_v93, main_v94]

/-- Each operation of stretch 6 writes one buffer of the list. -/
theorem writes6 : (hostOps6 (F := Ideal) : List (HloOp τ sig (Elt Ideal))).Forall fun op =>
    op.writes ⊆ (wr6.map (Proc.devRef (τ := τ) .tc)).toFinset := by
  simp only [hostOps6, List.Forall, nullary_writes, unary_writes, binary_writes, ternary_writes, reshape_writes,
    Finset.singleton_subset_iff]
  repeat' apply And.intro
  all_goals exact List.mem_toFinset.mpr (List.mem_map_of_mem (by decide))

/-- A buffer stretch 6 does not write keeps its contents. -/
theorem keep6 (r : Ref sig .tc) (hr : r ∉ wr6) :
    after (hostOps6 (F := Ideal)) W (Proc.devRef .tc r) = W (Proc.devRef .tc r) :=
  after_of_writes_sub _ W writes6 hr

set_option maxHeartbeats 1600000 in
theorem host6_v94 :
    after (hostOps6 (F := Ideal)) W (Proc.devRef .tc main_v94) = Cert.Spec.segMean (W (Proc.devRef .tc main_v83)) (W (Proc.devRef .tc main_arg1)) := by
  after_results
  rfl

end Cert.KernelIdeal.HostVals

end
-- ==== Proof.KValue.lean ====
/- The kernel program's result buffer at the end of the run is the network of the argument arrays: the contents at each
   boundary between a host stretch and a region, followed from the launch memory to the return. A host stretch leaves the
   segment mean (or the gathered rows) and one layer's matrix and bias; a region leaves its stage of the arrays it is
   entered with; nothing writes an argument, and the rows a layer leaves stay until the next layer has read them. -/
import proofs.«124445_j627065225441_1_alg».proof.Proof.Gen.KernelIdeal.Frame
import proofs.«124445_j627065225441_1_alg».proof.Proof.Spec
import proofs.«124445_j627065225441_1_alg».proof.Proof.KLin
import proofs.«124445_j627065225441_1_alg».proof.Proof.KLayer
import proofs.«124445_j627065225441_1_alg».proof.Proof.KHead
import proofs.«124445_j627065225441_1_alg».proof.Proof.KHost

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen
open Idealize.ShloMosaic.StableHlo (after)

variable (m : (ℓ : Loc nD τ sig) → Buf (Elt Ideal) ℓ) (ρ : Dev nD → PrngReg) (c : Dev nD)

/-! ## The arguments at each boundary are the launch arrays -/

theorem at0_arg0 : W0 m ρ c (Proc.devRef .tc main_arg0) = (m ((c : Thread nD τ).loc main_arg0)) := rfl
theorem at1_arg0 : W1 m ρ c (Proc.devRef .tc main_arg0) = (m ((c : Thread nD τ).loc main_arg0)) :=
  (HostVals.keep0 (W0 m ρ c) main_arg0 (by decide)).trans (at0_arg0 m ρ c)
theorem at2_arg0 : W2 m ρ c (Proc.devRef .tc main_arg0) = (m ((c : Thread nD τ).loc main_arg0)) :=
  (W2_of_ne m ρ c main_arg0 (by decide)).trans (at1_arg0 m ρ c)
theorem at3_arg0 : W3 m ρ c (Proc.devRef .tc main_arg0) = (m ((c : Thread nD τ).loc main_arg0)) :=
  (HostVals.keep1 (W2 m ρ c) main_arg0 (by decide)).trans (at2_arg0 m ρ c)

theorem at0_arg1 : W0 m ρ c (Proc.devRef .tc main_arg1) = (m ((c : Thread nD τ).loc main_arg1)) := rfl
theorem at1_arg1 : W1 m ρ c (Proc.devRef .tc main_arg1) = (m ((c : Thread nD τ).loc main_arg1)) :=
  (HostVals.keep0 (W0 m ρ c) main_arg1 (by decide)).trans (at0_arg1 m ρ c)
theorem at2_arg1 : W2 m ρ c (Proc.devRef .tc main_arg1) = (m ((c : Thread nD τ).loc main_arg1)) :=
  (W2_of_ne m ρ c main_arg1 (by decide)).trans (at1_arg1 m ρ c)
theorem at3_arg1 : W3 m ρ c (Proc.devRef .tc main_arg1) = (m ((c : Thread nD τ).loc main_arg1)) :=
  (HostVals.keep1 (W2 m ρ c) main_arg1 (by decide)).trans (at2_arg1 m ρ c)
theorem at4_arg1 : W4 m ρ c (Proc.devRef .tc main_arg1) = (m ((c : Thread nD τ).loc main_arg1)) :=
  (W4_of_ne m ρ c main_arg1 (by decide)).trans (at3_arg1 m ρ c)
theorem at5_arg1 : W5 m ρ c (Proc.devRef .tc main_arg1) = (m ((c : Thread nD τ).loc main_arg1)) :=
  (HostVals.keep2 (W4 m ρ c) main_arg1 (by decide)).trans (at4_arg1 m ρ c)
theorem at6_arg1 : W6 m ρ c (Proc.devRef .tc main_arg1) = (m ((c : Thread nD τ).loc main_arg1)) :=
  (W6_of_ne m ρ c main_arg1 (by decide)).trans (at5_arg1 m ρ c)
theorem at7_arg1 : W7 m ρ c (Proc.devRef .tc main_arg1) = (m ((c : Thread nD τ).loc main_arg1)) :=
  (HostVals.keep3 (W6 m ρ c) main_arg1 (by decide)).trans (at6_arg1 m ρ c)
theorem at8_arg1 : W8 m ρ c (Proc.devRef .tc main_arg1) = (m ((c : Thread nD τ).loc main_arg1)) :=
  (W8_of_ne m ρ c main_arg1 (by decide)).trans (at7_arg1 m ρ c)
theorem at9_arg1 : W9 m ρ c (Proc.devRef .tc main_arg1) = (m ((c : Thread nD τ).loc main_arg1)) :=
  (HostVals.keep4 (W8 m ρ c) main_arg1 (by decide)).trans (at8_arg1 m ρ c)
theorem at10_arg1 : W10 m ρ c (Proc.devRef .tc main_arg1) = (m ((c : Thread nD τ).loc main_arg1)) :=
  (W10_of_ne m ρ c main_arg1 (by decide)).trans (at9_arg1 m ρ c)
theorem at11_arg1 : W11 m ρ c (Proc.devRef .tc main_arg1) = (m ((c : Thread nD τ).loc main_arg1)) :=
  (HostVals.keep5 (W10 m ρ c) main_arg1 (by decide)).trans (at10_arg1 m ρ c)
theorem at12_arg1 : W12 m ρ c (Proc.devRef .tc main_arg1) = (m ((c : Thread nD τ).loc main_arg1)) :=
  (W12_of_ne m ρ c main_arg1 (by decide)).trans (at11_arg1 m ρ c)

theorem at0_arg2 : W0 m ρ c (Proc.devRef .tc main_arg2) = (m ((c : Thread nD τ).loc main_arg2)) := rfl
theorem at1_arg2 : W1 m ρ c (Proc.devRef .tc main_arg2) = (m ((c : Thread nD τ).loc main_arg2)) :=
  (HostVals.keep0 (W0 m ρ c) main_arg2 (by decide)).trans (at0_arg2 m ρ c)
theorem at2_arg2 : W2 m ρ c (Proc.devRef .tc main_arg2) = (m ((c : Thread nD τ).loc main_arg2)) :=
  (W2_of_ne m ρ c main_arg2 (by decide)).trans (at1_arg2 m ρ c)
theorem at3_arg2 : W3 m ρ c (Proc.devRef .tc main_arg2) = (m ((c : Thread nD τ).loc main_arg2)) :=
  (HostVals.keep1 (W2 m ρ c) main_arg2 (by decide)).trans (at2_arg2 m ρ c)
theorem at4_arg2 : W4 m ρ c (Proc.devRef .tc main_arg2) = (m ((c : Thread nD τ).loc main_arg2)) :=
  (W4_of_ne m ρ c main_arg2 (by decide)).trans (at3_arg2 m ρ c)
theorem at5_arg2 : W5 m ρ c (Proc.devRef .tc main_arg2) = (m ((c : Thread nD τ).loc main_arg2)) :=
  (HostVals.keep2 (W4 m ρ c) main_arg2 (by decide)).trans (at4_arg2 m ρ c)
theorem at6_arg2 : W6 m ρ c (Proc.devRef .tc main_arg2) = (m ((c : Thread nD τ).loc main_arg2)) :=
  (W6_of_ne m ρ c main_arg2 (by decide)).trans (at5_arg2 m ρ c)
theorem at7_arg2 : W7 m ρ c (Proc.devRef .tc main_arg2) = (m ((c : Thread nD τ).loc main_arg2)) :=
  (HostVals.keep3 (W6 m ρ c) main_arg2 (by decide)).trans (at6_arg2 m ρ c)
theorem at8_arg2 : W8 m ρ c (Proc.devRef .tc main_arg2) = (m ((c : Thread nD τ).loc main_arg2)) :=
  (W8_of_ne m ρ c main_arg2 (by decide)).trans (at7_arg2 m ρ c)
theorem at9_arg2 : W9 m ρ c (Proc.devRef .tc main_arg2) = (m ((c : Thread nD τ).loc main_arg2)) :=
  (HostVals.keep4 (W8 m ρ c) main_arg2 (by decide)).trans (at8_arg2 m ρ c)
theorem at10_arg2 : W10 m ρ c (Proc.devRef .tc main_arg2) = (m ((c : Thread nD τ).loc main_arg2)) :=
  (W10_of_ne m ρ c main_arg2 (by decide)).trans (at9_arg2 m ρ c)

theorem at0_arg3 : W0 m ρ c (Proc.devRef .tc main_arg3) = (m ((c : Thread nD τ).loc main_arg3)) := rfl
theorem at1_arg3 : W1 m ρ c (Proc.devRef .tc main_arg3) = (m ((c : Thread nD τ).loc main_arg3)) :=
  (HostVals.keep0 (W0 m ρ c) main_arg3 (by decide)).trans (at0_arg3 m ρ c)
theorem at2_arg3 : W2 m ρ c (Proc.devRef .tc main_arg3) = (m ((c : Thread nD τ).loc main_arg3)) :=
  (W2_of_ne m ρ c main_arg3 (by decide)).trans (at1_arg3 m ρ c)
theorem at3_arg3 : W3 m ρ c (Proc.devRef .tc main_arg3) = (m ((c : Thread nD τ).loc main_arg3)) :=
  (HostVals.keep1 (W2 m ρ c) main_arg3 (by decide)).trans (at2_arg3 m ρ c)
theorem at4_arg3 : W4 m ρ c (Proc.devRef .tc main_arg3) = (m ((c : Thread nD τ).loc main_arg3)) :=
  (W4_of_ne m ρ c main_arg3 (by decide)).trans (at3_arg3 m ρ c)
theorem at5_arg3 : W5 m ρ c (Proc.devRef .tc main_arg3) = (m ((c : Thread nD τ).loc main_arg3)) :=
  (HostVals.keep2 (W4 m ρ c) main_arg3 (by decide)).trans (at4_arg3 m ρ c)
theorem at6_arg3 : W6 m ρ c (Proc.devRef .tc main_arg3) = (m ((c : Thread nD τ).loc main_arg3)) :=
  (W6_of_ne m ρ c main_arg3 (by decide)).trans (at5_arg3 m ρ c)
theorem at7_arg3 : W7 m ρ c (Proc.devRef .tc main_arg3) = (m ((c : Thread nD τ).loc main_arg3)) :=
  (HostVals.keep3 (W6 m ρ c) main_arg3 (by decide)).trans (at6_arg3 m ρ c)
theorem at8_arg3 : W8 m ρ c (Proc.devRef .tc main_arg3) = (m ((c : Thread nD τ).loc main_arg3)) :=
  (W8_of_ne m ρ c main_arg3 (by decide)).trans (at7_arg3 m ρ c)
theorem at9_arg3 : W9 m ρ c (Proc.devRef .tc main_arg3) = (m ((c : Thread nD τ).loc main_arg3)) :=
  (HostVals.keep4 (W8 m ρ c) main_arg3 (by decide)).trans (at8_arg3 m ρ c)
theorem at10_arg3 : W10 m ρ c (Proc.devRef .tc main_arg3) = (m ((c : Thread nD τ).loc main_arg3)) :=
  (W10_of_ne m ρ c main_arg3 (by decide)).trans (at9_arg3 m ρ c)

theorem at0_arg4 : W0 m ρ c (Proc.devRef .tc main_arg4) = (m ((c : Thread nD τ).loc main_arg4)) := rfl
theorem at1_arg4 : W1 m ρ c (Proc.devRef .tc main_arg4) = (m ((c : Thread nD τ).loc main_arg4)) :=
  (HostVals.keep0 (W0 m ρ c) main_arg4 (by decide)).trans (at0_arg4 m ρ c)
theorem at2_arg4 : W2 m ρ c (Proc.devRef .tc main_arg4) = (m ((c : Thread nD τ).loc main_arg4)) :=
  (W2_of_ne m ρ c main_arg4 (by decide)).trans (at1_arg4 m ρ c)
theorem at3_arg4 : W3 m ρ c (Proc.devRef .tc main_arg4) = (m ((c : Thread nD τ).loc main_arg4)) :=
  (HostVals.keep1 (W2 m ρ c) main_arg4 (by decide)).trans (at2_arg4 m ρ c)
theorem at4_arg4 : W4 m ρ c (Proc.devRef .tc main_arg4) = (m ((c : Thread nD τ).loc main_arg4)) :=
  (W4_of_ne m ρ c main_arg4 (by decide)).trans (at3_arg4 m ρ c)
theorem at5_arg4 : W5 m ρ c (Proc.devRef .tc main_arg4) = (m ((c : Thread nD τ).loc main_arg4)) :=
  (HostVals.keep2 (W4 m ρ c) main_arg4 (by decide)).trans (at4_arg4 m ρ c)
theorem at6_arg4 : W6 m ρ c (Proc.devRef .tc main_arg4) = (m ((c : Thread nD τ).loc main_arg4)) :=
  (W6_of_ne m ρ c main_arg4 (by decide)).trans (at5_arg4 m ρ c)
theorem at7_arg4 : W7 m ρ c (Proc.devRef .tc main_arg4) = (m ((c : Thread nD τ).loc main_arg4)) :=
  (HostVals.keep3 (W6 m ρ c) main_arg4 (by decide)).trans (at6_arg4 m ρ c)
theorem at8_arg4 : W8 m ρ c (Proc.devRef .tc main_arg4) = (m ((c : Thread nD τ).loc main_arg4)) :=
  (W8_of_ne m ρ c main_arg4 (by decide)).trans (at7_arg4 m ρ c)

theorem at0_arg5 : W0 m ρ c (Proc.devRef .tc main_arg5) = (m ((c : Thread nD τ).loc main_arg5)) := rfl
theorem at1_arg5 : W1 m ρ c (Proc.devRef .tc main_arg5) = (m ((c : Thread nD τ).loc main_arg5)) :=
  (HostVals.keep0 (W0 m ρ c) main_arg5 (by decide)).trans (at0_arg5 m ρ c)
theorem at2_arg5 : W2 m ρ c (Proc.devRef .tc main_arg5) = (m ((c : Thread nD τ).loc main_arg5)) :=
  (W2_of_ne m ρ c main_arg5 (by decide)).trans (at1_arg5 m ρ c)
theorem at3_arg5 : W3 m ρ c (Proc.devRef .tc main_arg5) = (m ((c : Thread nD τ).loc main_arg5)) :=
  (HostVals.keep1 (W2 m ρ c) main_arg5 (by decide)).trans (at2_arg5 m ρ c)
theorem at4_arg5 : W4 m ρ c (Proc.devRef .tc main_arg5) = (m ((c : Thread nD τ).loc main_arg5)) :=
  (W4_of_ne m ρ c main_arg5 (by decide)).trans (at3_arg5 m ρ c)
theorem at5_arg5 : W5 m ρ c (Proc.devRef .tc main_arg5) = (m ((c : Thread nD τ).loc main_arg5)) :=
  (HostVals.keep2 (W4 m ρ c) main_arg5 (by decide)).trans (at4_arg5 m ρ c)
theorem at6_arg5 : W6 m ρ c (Proc.devRef .tc main_arg5) = (m ((c : Thread nD τ).loc main_arg5)) :=
  (W6_of_ne m ρ c main_arg5 (by decide)).trans (at5_arg5 m ρ c)
theorem at7_arg5 : W7 m ρ c (Proc.devRef .tc main_arg5) = (m ((c : Thread nD τ).loc main_arg5)) :=
  (HostVals.keep3 (W6 m ρ c) main_arg5 (by decide)).trans (at6_arg5 m ρ c)
theorem at8_arg5 : W8 m ρ c (Proc.devRef .tc main_arg5) = (m ((c : Thread nD τ).loc main_arg5)) :=
  (W8_of_ne m ρ c main_arg5 (by decide)).trans (at7_arg5 m ρ c)

theorem at0_arg6 : W0 m ρ c (Proc.devRef .tc main_arg6) = (m ((c : Thread nD τ).loc main_arg6)) := rfl
theorem at1_arg6 : W1 m ρ c (Proc.devRef .tc main_arg6) = (m ((c : Thread nD τ).loc main_arg6)) :=
  (HostVals.keep0 (W0 m ρ c) main_arg6 (by decide)).trans (at0_arg6 m ρ c)
theorem at2_arg6 : W2 m ρ c (Proc.devRef .tc main_arg6) = (m ((c : Thread nD τ).loc main_arg6)) :=
  (W2_of_ne m ρ c main_arg6 (by decide)).trans (at1_arg6 m ρ c)
theorem at3_arg6 : W3 m ρ c (Proc.devRef .tc main_arg6) = (m ((c : Thread nD τ).loc main_arg6)) :=
  (HostVals.keep1 (W2 m ρ c) main_arg6 (by decide)).trans (at2_arg6 m ρ c)
theorem at4_arg6 : W4 m ρ c (Proc.devRef .tc main_arg6) = (m ((c : Thread nD τ).loc main_arg6)) :=
  (W4_of_ne m ρ c main_arg6 (by decide)).trans (at3_arg6 m ρ c)
theorem at5_arg6 : W5 m ρ c (Proc.devRef .tc main_arg6) = (m ((c : Thread nD τ).loc main_arg6)) :=
  (HostVals.keep2 (W4 m ρ c) main_arg6 (by decide)).trans (at4_arg6 m ρ c)
theorem at6_arg6 : W6 m ρ c (Proc.devRef .tc main_arg6) = (m ((c : Thread nD τ).loc main_arg6)) :=
  (W6_of_ne m ρ c main_arg6 (by decide)).trans (at5_arg6 m ρ c)
theorem at7_arg6 : W7 m ρ c (Proc.devRef .tc main_arg6) = (m ((c : Thread nD τ).loc main_arg6)) :=
  (HostVals.keep3 (W6 m ρ c) main_arg6 (by decide)).trans (at6_arg6 m ρ c)
theorem at8_arg6 : W8 m ρ c (Proc.devRef .tc main_arg6) = (m ((c : Thread nD τ).loc main_arg6)) :=
  (W8_of_ne m ρ c main_arg6 (by decide)).trans (at7_arg6 m ρ c)
theorem at9_arg6 : W9 m ρ c (Proc.devRef .tc main_arg6) = (m ((c : Thread nD τ).loc main_arg6)) :=
  (HostVals.keep4 (W8 m ρ c) main_arg6 (by decide)).trans (at8_arg6 m ρ c)
theorem at10_arg6 : W10 m ρ c (Proc.devRef .tc main_arg6) = (m ((c : Thread nD τ).loc main_arg6)) :=
  (W10_of_ne m ρ c main_arg6 (by decide)).trans (at9_arg6 m ρ c)
theorem at11_arg6 : W11 m ρ c (Proc.devRef .tc main_arg6) = (m ((c : Thread nD τ).loc main_arg6)) :=
  (HostVals.keep5 (W10 m ρ c) main_arg6 (by decide)).trans (at10_arg6 m ρ c)
theorem at12_arg6 : W12 m ρ c (Proc.devRef .tc main_arg6) = (m ((c : Thread nD τ).loc main_arg6)) :=
  (W12_of_ne m ρ c main_arg6 (by decide)).trans (at11_arg6 m ρ c)
theorem at13_arg6 : W13 m ρ c (Proc.devRef .tc main_arg6) = (m ((c : Thread nD τ).loc main_arg6)) :=
  (HostVals.keep6 (W12 m ρ c) main_arg6 (by decide)).trans (at12_arg6 m ρ c)

theorem at0_arg7 : W0 m ρ c (Proc.devRef .tc main_arg7) = (m ((c : Thread nD τ).loc main_arg7)) := rfl
theorem at1_arg7 : W1 m ρ c (Proc.devRef .tc main_arg7) = (m ((c : Thread nD τ).loc main_arg7)) :=
  (HostVals.keep0 (W0 m ρ c) main_arg7 (by decide)).trans (at0_arg7 m ρ c)
theorem at2_arg7 : W2 m ρ c (Proc.devRef .tc main_arg7) = (m ((c : Thread nD τ).loc main_arg7)) :=
  (W2_of_ne m ρ c main_arg7 (by decide)).trans (at1_arg7 m ρ c)
theorem at3_arg7 : W3 m ρ c (Proc.devRef .tc main_arg7) = (m ((c : Thread nD τ).loc main_arg7)) :=
  (HostVals.keep1 (W2 m ρ c) main_arg7 (by decide)).trans (at2_arg7 m ρ c)
theorem at4_arg7 : W4 m ρ c (Proc.devRef .tc main_arg7) = (m ((c : Thread nD τ).loc main_arg7)) :=
  (W4_of_ne m ρ c main_arg7 (by decide)).trans (at3_arg7 m ρ c)
theorem at5_arg7 : W5 m ρ c (Proc.devRef .tc main_arg7) = (m ((c : Thread nD τ).loc main_arg7)) :=
  (HostVals.keep2 (W4 m ρ c) main_arg7 (by decide)).trans (at4_arg7 m ρ c)
theorem at6_arg7 : W6 m ρ c (Proc.devRef .tc main_arg7) = (m ((c : Thread nD τ).loc main_arg7)) :=
  (W6_of_ne m ρ c main_arg7 (by decide)).trans (at5_arg7 m ρ c)
theorem at7_arg7 : W7 m ρ c (Proc.devRef .tc main_arg7) = (m ((c : Thread nD τ).loc main_arg7)) :=
  (HostVals.keep3 (W6 m ρ c) main_arg7 (by decide)).trans (at6_arg7 m ρ c)
theorem at8_arg7 : W8 m ρ c (Proc.devRef .tc main_arg7) = (m ((c : Thread nD τ).loc main_arg7)) :=
  (W8_of_ne m ρ c main_arg7 (by decide)).trans (at7_arg7 m ρ c)
theorem at9_arg7 : W9 m ρ c (Proc.devRef .tc main_arg7) = (m ((c : Thread nD τ).loc main_arg7)) :=
  (HostVals.keep4 (W8 m ρ c) main_arg7 (by decide)).trans (at8_arg7 m ρ c)
theorem at10_arg7 : W10 m ρ c (Proc.devRef .tc main_arg7) = (m ((c : Thread nD τ).loc main_arg7)) :=
  (W10_of_ne m ρ c main_arg7 (by decide)).trans (at9_arg7 m ρ c)
theorem at11_arg7 : W11 m ρ c (Proc.devRef .tc main_arg7) = (m ((c : Thread nD τ).loc main_arg7)) :=
  (HostVals.keep5 (W10 m ρ c) main_arg7 (by decide)).trans (at10_arg7 m ρ c)
theorem at12_arg7 : W12 m ρ c (Proc.devRef .tc main_arg7) = (m ((c : Thread nD τ).loc main_arg7)) :=
  (W12_of_ne m ρ c main_arg7 (by decide)).trans (at11_arg7 m ρ c)
theorem at13_arg7 : W13 m ρ c (Proc.devRef .tc main_arg7) = (m ((c : Thread nD τ).loc main_arg7)) :=
  (HostVals.keep6 (W12 m ρ c) main_arg7 (by decide)).trans (at12_arg7 m ρ c)

theorem at0_arg8 : W0 m ρ c (Proc.devRef .tc main_arg8) = (m ((c : Thread nD τ).loc main_arg8)) := rfl
theorem at1_arg8 : W1 m ρ c (Proc.devRef .tc main_arg8) = (m ((c : Thread nD τ).loc main_arg8)) :=
  (HostVals.keep0 (W0 m ρ c) main_arg8 (by decide)).trans (at0_arg8 m ρ c)
theorem at2_arg8 : W2 m ρ c (Proc.devRef .tc main_arg8) = (m ((c : Thread nD τ).loc main_arg8)) :=
  (W2_of_ne m ρ c main_arg8 (by decide)).trans (at1_arg8 m ρ c)
theorem at3_arg8 : W3 m ρ c (Proc.devRef .tc main_arg8) = (m ((c : Thread nD τ).loc main_arg8)) :=
  (HostVals.keep1 (W2 m ρ c) main_arg8 (by decide)).trans (at2_arg8 m ρ c)
theorem at4_arg8 : W4 m ρ c (Proc.devRef .tc main_arg8) = (m ((c : Thread nD τ).loc main_arg8)) :=
  (W4_of_ne m ρ c main_arg8 (by decide)).trans (at3_arg8 m ρ c)
theorem at5_arg8 : W5 m ρ c (Proc.devRef .tc main_arg8) = (m ((c : Thread nD τ).loc main_arg8)) :=
  (HostVals.keep2 (W4 m ρ c) main_arg8 (by decide)).trans (at4_arg8 m ρ c)
theorem at6_arg8 : W6 m ρ c (Proc.devRef .tc main_arg8) = (m ((c : Thread nD τ).loc main_arg8)) :=
  (W6_of_ne m ρ c main_arg8 (by decide)).trans (at5_arg8 m ρ c)
theorem at7_arg8 : W7 m ρ c (Proc.devRef .tc main_arg8) = (m ((c : Thread nD τ).loc main_arg8)) :=
  (HostVals.keep3 (W6 m ρ c) main_arg8 (by decide)).trans (at6_arg8 m ρ c)
theorem at8_arg8 : W8 m ρ c (Proc.devRef .tc main_arg8) = (m ((c : Thread nD τ).loc main_arg8)) :=
  (W8_of_ne m ρ c main_arg8 (by decide)).trans (at7_arg8 m ρ c)
theorem at9_arg8 : W9 m ρ c (Proc.devRef .tc main_arg8) = (m ((c : Thread nD τ).loc main_arg8)) :=
  (HostVals.keep4 (W8 m ρ c) main_arg8 (by decide)).trans (at8_arg8 m ρ c)
theorem at10_arg8 : W10 m ρ c (Proc.devRef .tc main_arg8) = (m ((c : Thread nD τ).loc main_arg8)) :=
  (W10_of_ne m ρ c main_arg8 (by decide)).trans (at9_arg8 m ρ c)
theorem at11_arg8 : W11 m ρ c (Proc.devRef .tc main_arg8) = (m ((c : Thread nD τ).loc main_arg8)) :=
  (HostVals.keep5 (W10 m ρ c) main_arg8 (by decide)).trans (at10_arg8 m ρ c)
theorem at12_arg8 : W12 m ρ c (Proc.devRef .tc main_arg8) = (m ((c : Thread nD τ).loc main_arg8)) :=
  (W12_of_ne m ρ c main_arg8 (by decide)).trans (at11_arg8 m ρ c)
theorem at13_arg8 : W13 m ρ c (Proc.devRef .tc main_arg8) = (m ((c : Thread nD τ).loc main_arg8)) :=
  (HostVals.keep6 (W12 m ρ c) main_arg8 (by decide)).trans (at12_arg8 m ρ c)

theorem at0_arg9 : W0 m ρ c (Proc.devRef .tc main_arg9) = (m ((c : Thread nD τ).loc main_arg9)) := rfl
theorem at1_arg9 : W1 m ρ c (Proc.devRef .tc main_arg9) = (m ((c : Thread nD τ).loc main_arg9)) :=
  (HostVals.keep0 (W0 m ρ c) main_arg9 (by decide)).trans (at0_arg9 m ρ c)
theorem at2_arg9 : W2 m ρ c (Proc.devRef .tc main_arg9) = (m ((c : Thread nD τ).loc main_arg9)) :=
  (W2_of_ne m ρ c main_arg9 (by decide)).trans (at1_arg9 m ρ c)
theorem at3_arg9 : W3 m ρ c (Proc.devRef .tc main_arg9) = (m ((c : Thread nD τ).loc main_arg9)) :=
  (HostVals.keep1 (W2 m ρ c) main_arg9 (by decide)).trans (at2_arg9 m ρ c)
theorem at4_arg9 : W4 m ρ c (Proc.devRef .tc main_arg9) = (m ((c : Thread nD τ).loc main_arg9)) :=
  (W4_of_ne m ρ c main_arg9 (by decide)).trans (at3_arg9 m ρ c)
theorem at5_arg9 : W5 m ρ c (Proc.devRef .tc main_arg9) = (m ((c : Thread nD τ).loc main_arg9)) :=
  (HostVals.keep2 (W4 m ρ c) main_arg9 (by decide)).trans (at4_arg9 m ρ c)
theorem at6_arg9 : W6 m ρ c (Proc.devRef .tc main_arg9) = (m ((c : Thread nD τ).loc main_arg9)) :=
  (W6_of_ne m ρ c main_arg9 (by decide)).trans (at5_arg9 m ρ c)
theorem at7_arg9 : W7 m ρ c (Proc.devRef .tc main_arg9) = (m ((c : Thread nD τ).loc main_arg9)) :=
  (HostVals.keep3 (W6 m ρ c) main_arg9 (by decide)).trans (at6_arg9 m ρ c)
theorem at8_arg9 : W8 m ρ c (Proc.devRef .tc main_arg9) = (m ((c : Thread nD τ).loc main_arg9)) :=
  (W8_of_ne m ρ c main_arg9 (by decide)).trans (at7_arg9 m ρ c)
theorem at9_arg9 : W9 m ρ c (Proc.devRef .tc main_arg9) = (m ((c : Thread nD τ).loc main_arg9)) :=
  (HostVals.keep4 (W8 m ρ c) main_arg9 (by decide)).trans (at8_arg9 m ρ c)
theorem at10_arg9 : W10 m ρ c (Proc.devRef .tc main_arg9) = (m ((c : Thread nD τ).loc main_arg9)) :=
  (W10_of_ne m ρ c main_arg9 (by decide)).trans (at9_arg9 m ρ c)
theorem at11_arg9 : W11 m ρ c (Proc.devRef .tc main_arg9) = (m ((c : Thread nD τ).loc main_arg9)) :=
  (HostVals.keep5 (W10 m ρ c) main_arg9 (by decide)).trans (at10_arg9 m ρ c)
theorem at12_arg9 : W12 m ρ c (Proc.devRef .tc main_arg9) = (m ((c : Thread nD τ).loc main_arg9)) :=
  (W12_of_ne m ρ c main_arg9 (by decide)).trans (at11_arg9 m ρ c)
theorem at13_arg9 : W13 m ρ c (Proc.devRef .tc main_arg9) = (m ((c : Thread nD τ).loc main_arg9)) :=
  (HostVals.keep6 (W12 m ρ c) main_arg9 (by decide)).trans (at12_arg9 m ρ c)

/-! ## The rows after each layer, and the result -/

/-- The rows after layer 0, 1, 2 as the specification states them. -/
abbrev rows1 : FVec Ideal S100000x512 .f32 := Cert.Spec.step0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev rows2 : FVec Ideal S100000x512 .f32 := Cert.Spec.step1 (rows1 m c) (m ((c : Thread nD τ).loc main_arg1)) (m ((c : Thread nD τ).loc main_arg2)) (m ((c : Thread nD τ).loc main_arg3)) (m ((c : Thread nD τ).loc main_arg4)) (m ((c : Thread nD τ).loc main_arg5))
abbrev rows3 : FVec Ideal S100000x512 .f32 := Cert.Spec.step2 (rows2 m c) (m ((c : Thread nD τ).loc main_arg1)) (m ((c : Thread nD τ).loc main_arg2)) (m ((c : Thread nD τ).loc main_arg3)) (m ((c : Thread nD τ).loc main_arg4)) (m ((c : Thread nD τ).loc main_arg5))

/-- Layer 0: the segment-level affine region leaves the affine image of the segment means. -/
theorem seg0_eq : W2 m ρ c (Proc.devRef .tc main_v15) = (Cert.Spec.affine (Cert.Spec.segMean (m ((c : Thread nD τ).loc main_arg0)) (m ((c : Thread nD τ).loc main_arg1))) (Cert.Spec.mat0 (m ((c : Thread nD τ).loc main_arg4))) (Cert.Spec.vec0 (m ((c : Thread nD τ).loc main_arg5)))) := by
  refine (W2_arr m ρ c 3).trans ((Lin.final0 (V1 m ρ) c).trans ?_)
  show Cert.Spec.affine (after hostOps0 (W0 m ρ c) (Proc.devRef .tc main_v10)) (after hostOps0 (W0 m ρ c) (Proc.devRef .tc main_v12)) (after hostOps0 (W0 m ρ c) (Proc.devRef .tc main_v14)) = _
  rw [HostVals.host0_v10, HostVals.host0_v12, HostVals.host0_v14, at0_arg0 m ρ c, at0_arg1 m ρ c, at0_arg4 m ρ c, at0_arg5 m ρ c]

/-- Layer 0: the row-level region leaves the layer of the rows it is entered with. -/
theorem rowsAt4 : W4 m ρ c (Proc.devRef .tc main_v27) = rows1 m c := by
  refine (W4_arr m ρ c 4).trans ((Layer.final1 (V3 m ρ) c).trans ?_)
  show Cert.Spec.layer (W3 m ρ c (Proc.devRef .tc main_arg0)) (after hostOps1 (W2 m ρ c) (Proc.devRef .tc main_v24)) (after hostOps1 (W2 m ρ c) (Proc.devRef .tc main_v26)) (after hostOps1 (W2 m ρ c) (Proc.devRef .tc main_v22)) = _
  rw [HostVals.host1_v24, HostVals.host1_v26, HostVals.host1_v22, at3_arg0 m ρ c, seg0_eq m ρ c, at2_arg1 m ρ c, at2_arg2 m ρ c, at2_arg3 m ρ c]
  rfl

/-- Layer 1: the segment-level affine region leaves the affine image of the segment means. -/
theorem seg1_eq : W6 m ρ c (Proc.devRef .tc main_v43) = (Cert.Spec.affine (Cert.Spec.segMean (rows1 m c) (m ((c : Thread nD τ).loc main_arg1))) (Cert.Spec.mat1 (m ((c : Thread nD τ).loc main_arg4))) (Cert.Spec.vec1 (m ((c : Thread nD τ).loc main_arg5)))) := by
  refine (W6_arr m ρ c 3).trans ((Lin.final2 (V5 m ρ) c).trans ?_)
  show Cert.Spec.affine (after hostOps2 (W4 m ρ c) (Proc.devRef .tc main_v38)) (after hostOps2 (W4 m ρ c) (Proc.devRef .tc main_v40)) (after hostOps2 (W4 m ρ c) (Proc.devRef .tc main_v42)) = _
  rw [HostVals.host2_v38, HostVals.host2_v40, HostVals.host2_v42, rowsAt4 m ρ c, at4_arg1 m ρ c, at4_arg4 m ρ c, at4_arg5 m ρ c]

/-- The rows layer 0 left are still there when layer 1's row-level region is entered. -/
theorem rowsAt7 : W7 m ρ c (Proc.devRef .tc main_v27) = rows1 m c :=
  (HostVals.keep3 (W6 m ρ c) main_v27 (by decide)).trans ((W6_of_ne m ρ c main_v27 (by decide)).trans ((HostVals.keep2 (W4 m ρ c) main_v27 (by decide)).trans (rowsAt4 m ρ c)))

/-- Layer 1: the row-level region leaves the layer of the rows it is entered with. -/
theorem rowsAt8 : W8 m ρ c (Proc.devRef .tc main_v55) = rows2 m c := by
  refine (W8_arr m ρ c 4).trans ((Layer.final3 (V7 m ρ) c).trans ?_)
  show Cert.Spec.layer (W7 m ρ c (Proc.devRef .tc main_v27)) (after hostOps3 (W6 m ρ c) (Proc.devRef .tc main_v52)) (after hostOps3 (W6 m ρ c) (Proc.devRef .tc main_v54)) (after hostOps3 (W6 m ρ c) (Proc.devRef .tc main_v50)) = _
  rw [HostVals.host3_v52, HostVals.host3_v54, HostVals.host3_v50, rowsAt7 m ρ c, seg1_eq m ρ c, at6_arg1 m ρ c, at6_arg2 m ρ c, at6_arg3 m ρ c]
  rfl

/-- Layer 2: the segment-level affine region leaves the affine image of the segment means. -/
theorem seg2_eq : W10 m ρ c (Proc.devRef .tc main_v71) = (Cert.Spec.affine (Cert.Spec.segMean (rows2 m c) (m ((c : Thread nD τ).loc main_arg1))) (Cert.Spec.mat2 (m ((c : Thread nD τ).loc main_arg4))) (Cert.Spec.vec2 (m ((c : Thread nD τ).loc main_arg5)))) := by
  refine (W10_arr m ρ c 3).trans ((Lin.final4 (V9 m ρ) c).trans ?_)
  show Cert.Spec.affine (after hostOps4 (W8 m ρ c) (Proc.devRef .tc main_v66)) (after hostOps4 (W8 m ρ c) (Proc.devRef .tc main_v68)) (after hostOps4 (W8 m ρ c) (Proc.devRef .tc main_v70)) = _
  rw [HostVals.host4_v66, HostVals.host4_v68, HostVals.host4_v70, rowsAt8 m ρ c, at8_arg1 m ρ c, at8_arg4 m ρ c, at8_arg5 m ρ c]

/-- The rows layer 1 left are still there when layer 2's row-level region is entered. -/
theorem rowsAt11 : W11 m ρ c (Proc.devRef .tc main_v55) = rows2 m c :=
  (HostVals.keep5 (W10 m ρ c) main_v55 (by decide)).trans ((W10_of_ne m ρ c main_v55 (by decide)).trans ((HostVals.keep4 (W8 m ρ c) main_v55 (by decide)).trans (rowsAt8 m ρ c)))

/-- Layer 2: the row-level region leaves the layer of the rows it is entered with. -/
theorem rowsAt12 : W12 m ρ c (Proc.devRef .tc main_v83) = rows3 m c := by
  refine (W12_arr m ρ c 4).trans ((Layer.final5 (V11 m ρ) c).trans ?_)
  show Cert.Spec.layer (W11 m ρ c (Proc.devRef .tc main_v55)) (after hostOps5 (W10 m ρ c) (Proc.devRef .tc main_v80)) (after hostOps5 (W10 m ρ c) (Proc.devRef .tc main_v82)) (after hostOps5 (W10 m ρ c) (Proc.devRef .tc main_v78)) = _
  rw [HostVals.host5_v80, HostVals.host5_v82, HostVals.host5_v78, rowsAt11 m ρ c, seg2_eq m ρ c, at10_arg1 m ρ c, at10_arg2 m ρ c, at10_arg3 m ρ c]
  rfl

/-- The head region leaves the head of the segment mean of the last rows: the network. -/
theorem result_eq : W14 m ρ c (Proc.devRef .tc main_v95)
    = Cert.Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 5).trans ((Head.final6 (V13 m ρ) c).trans ?_)
  show Cert.Spec.head (after hostOps6 (W12 m ρ c) (Proc.devRef .tc main_v94)) (W13 m ρ c (Proc.devRef .tc main_arg6)) (W13 m ρ c (Proc.devRef .tc main_arg7)) (W13 m ρ c (Proc.devRef .tc main_arg8)) (W13 m ρ c (Proc.devRef .tc main_arg9)) = _
  rw [HostVals.host6_v94, rowsAt12 m ρ c, at12_arg1 m ρ c, at13_arg6 m ρ c, at13_arg7 m ρ c, at13_arg8 m ρ c, at13_arg9 m ρ c]
  rfl

end Cert.KernelIdeal.Val

end
-- ==== Proof.ROps.lean ====
import proofs.«124445_j627065225441_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 74 operations of @main's part 0, in order. -/
abbrev ops0 : List (HloOp τ sig (Elt F)) :=
  [ StableHlo.unary main_arg2 main_v0 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v0 main_v1 rfl shapeCasts_S1x512x512_S512x512,
    StableHlo.binary main_arg0 main_v1 main_v2 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v3 ((extractStridedSlice S1x512 ![0, 0] · slices_S3x512_S1x512_0_0) : (⟨S3x512, .f32⟩ : BufTy).Contents (Elt F) → (⟨S1x512, .f32⟩ : BufTy).Contents (Elt F)),
    StableHlo.reshape main_v3 main_v4 rfl shapeCasts_S1x512_S512,
    StableHlo.unary main_v4 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S100000x512 ![0, 1] bcast_S1x512_S100000x512_0_1 : (⟨S1x512, .f32⟩ : BufTy).Contents (Elt F) → (⟨S100000x512, .f32⟩ : BufTy).Contents (Elt F)),
    StableHlo.binary main_v2 main_v6 main_v7 (addf : (⟨S100000x512, .f32⟩ : BufTy).Contents (Elt F) → (⟨S100000x512, .f32⟩ : BufTy).Contents (Elt F) → (⟨S100000x512, .f32⟩ : BufTy).Contents (Elt F)),
    StableHlo.nullary main_cst (constant S_ .f32 0x00000000#32),
    StableHlo.unary main_cst main_v8 (broadcastInDim S4096x512 ![] bcast_S_S4096x512 : (⟨S_, .f32⟩ : BufTy).Contents (Elt F) → (⟨S4096x512, .f32⟩ : BufTy).Contents (Elt F)),
    StableHlo.unary main_arg1 main_v9 (broadcastInDim S100000x1 ![0] bcast_S100000_S100000x1_0 : (⟨S100000, .i32⟩ : BufTy).Contents (Elt F) → (⟨S100000x1, .i32⟩ : BufTy).Contents (Elt F)),
    StableHlo.ternary main_v8 main_v9 main_arg0 main_v10 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_0 (constant S_ .f32 0x3F800000#32),
    StableHlo.unary main_cst_0 main_v11 (broadcastInDim S100000x1 ![] bcast_S_S100000x1 : (⟨S_, .f32⟩ : BufTy).Contents (Elt F) → (⟨S100000x1, .f32⟩ : BufTy).Contents (Elt F)),
    StableHlo.nullary main_cst_1 (constant S_ .f32 0x00000000#32),
    StableHlo.unary main_cst_1 main_v12 (broadcastInDim S4096x1 ![] bcast_S_S4096x1 : (⟨S_, .f32⟩ : BufTy).Contents (Elt F) → (⟨S4096x1, .f32⟩ : BufTy).Contents (Elt F)),
    StableHlo.unary main_arg1 main_v13 (broadcastInDim S100000x1 ![0] bcast_S100000_S100000x1_0 : (⟨S100000, .i32⟩ : BufTy).Contents (Elt F) → (⟨S100000x1, .i32⟩ : BufTy).Contents (Elt F)),
    StableHlo.ternary main_v12 main_v13 main_v11 main_v14 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_2 (constant S_ .f32 0x3F800000#32),
    StableHlo.unary main_cst_2 main_v15 (broadcastInDim S4096x1 ![] bcast_S_S4096x1 : (⟨S_, .f32⟩ : BufTy).Contents (Elt F) → (⟨S4096x1, .f32⟩ : BufTy).Contents (Elt F)),
    StableHlo.binary main_v14 main_v15 main_v16 (maximumf : (⟨S4096x1, .f32⟩ : BufTy).Contents (Elt F) → (⟨S4096x1, .f32⟩ : BufTy).Contents (Elt F) → (⟨S4096x1, .f32⟩ : BufTy).Contents (Elt F)),
    StableHlo.unary main_v16 main_v17 (broadcastInDim S4096x512 ![0, 1] bcast_S4096x1_S4096x512_0_1 : (⟨S4096x1, .f32⟩ : BufTy).Contents (Elt F) → (⟨S4096x512, .f32⟩ : BufTy).Contents (Elt F)),
    StableHlo.binary main_v10 main_v17 main_v18 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v19 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v19 main_v20 rfl shapeCasts_S1x512x512_S512x512,
    StableHlo.binary main_v18 main_v20 main_v21 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v22 ((extractStridedSlice S1x512 ![0, 0] · slices_S3x512_S1x512_0_0) : (⟨S3x512, .f32⟩ : BufTy).Contents (Elt F) → (⟨S1x512, .f32⟩ : BufTy).Contents (Elt F)),
    StableHlo.reshape main_v22 main_v23 rfl shapeCasts_S1x512_S512,
    StableHlo.unary main_v23 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S4096x512 ![0, 1] bcast_S1x512_S4096x512_0_1 : (⟨S1x512, .f32⟩ : BufTy).Contents (Elt F) → (⟨S4096x512, .f32⟩ : BufTy).Contents (Elt F)),
    StableHlo.binary main_v21 main_v25 main_v26 (addf : (⟨S4096x512, .f32⟩ : BufTy).Contents (Elt F) → (⟨S4096x512, .f32⟩ : BufTy).Contents (Elt F) → (⟨S4096x512, .f32⟩ : BufTy).Contents (Elt F)),
    StableHlo.nullary main_c (constantI S_ 32 0#32),
    StableHlo.unary main_c main_v27 (broadcastInDim S100000 ![] bcast_S_S100000 : (⟨S_, .i32⟩ : BufTy).Contents (Elt F) → (⟨S100000, .i32⟩ : BufTy).Contents (Elt F)),
    StableHlo.binary main_arg1 main_v27 main_v28 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 4096#32),
    StableHlo.unary main_c_3 main_v29 (broadcastInDim S100000 ![] bcast_S_S100000 : (⟨S_, .i32⟩ : BufTy).Contents (Elt F) → (⟨S100000, .i32⟩ : BufTy).Contents (Elt F)),
    StableHlo.binary main_arg1 main_v29 main_v30 (addi : (⟨S100000, .i32⟩ : BufTy).Contents (Elt F) → (⟨S100000, .i32⟩ : BufTy).Contents (Elt F) → (⟨S100000, .i32⟩ : BufTy).Contents (Elt F)),
    StableHlo.ternary main_v28 main_v30 main_arg1 main_v31 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v31 main_v32 (broadcastInDim S100000x1 ![0] bcast_S100000_S100000x1_0 : (⟨S100000, .i32⟩ : BufTy).Contents (Elt F) → (⟨S100000x1, .i32⟩ : BufTy).Contents (Elt F)),
    StableHlo.binary main_v26 main_v32 main_v33 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v7 main_v33 main_v34 (addf : (⟨S100000x512, .f32⟩ : BufTy).Contents (Elt F) → (⟨S100000x512, .f32⟩ : BufTy).Contents (Elt F) → (⟨S100000x512, .f32⟩ : BufTy).Contents (Elt F)),
    StableHlo.TRef.nullary main_call0.cst (constant S_ .f32 0x00000000#32),
    StableHlo.TRef.unary main_call0.cst main_call0.v0 (broadcastInDim S100000x512 ![] bcast_S_S100000x512),
    StableHlo.TRef.binary (.of main_v34) main_call0.v0 main_call0.v1 (cmpf .ogt),
    StableHlo.TRef.nullary main_call0.cst_0 (constant S_ .f32 0x00000000#32),
    StableHlo.TRef.unary main_call0.cst_0 main_call0.v2 (broadcastInDim S100000x512 ![] bcast_S_S100000x512),
    StableHlo.TRef.binary (.of main_v34) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x512 ![] bcast_S_S100000x512),
    StableHlo.TRef.ternary main_call0.v3 main_call0.call0.v1 (.of main_v34) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x512 ![] bcast_S_S100000x512),
    StableHlo.TRef.binary main_call0.v6 main_call0.v5 main_call0.v7 mulf,
    StableHlo.TRef.ternary main_call0.v1 (.of main_v34) main_call0.v7 main_call0.call1.v0 select,
    StableHlo.unary main_arg2 main_v36 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v36 main_v37 rfl shapeCasts_S1x512x512_S512x512,
    StableHlo.binary main_v35 main_v37 main_v38 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v39 ((extractStridedSlice S1x512 ![1, 0] · slices_S3x512_S1x512_1_0) : (⟨S3x512, .f32⟩ : BufTy).Contents (Elt F) → (⟨S1x512, .f32⟩ : BufTy).Contents (Elt F)),
    StableHlo.reshape main_v39 main_v40 rfl shapeCasts_S1x512_S512,
    StableHlo.unary main_v40 main_v41 (broadcastInDim S1x512 ![1] bcast_S512_S1x512_1 : (⟨S512, .f32⟩ : BufTy).Contents (Elt F) → (⟨S1x512, .f32⟩ : BufTy).Contents (Elt F)),
    StableHlo.unary main_v41 main_v42 (broadcastInDim S100000x512 ![0, 1] bcast_S1x512_S100000x512_0_1 : (⟨S1x512, .f32⟩ : BufTy).Contents (Elt F) → (⟨S100000x512, .f32⟩ : BufTy).Contents (Elt F)),
    StableHlo.binary main_v38 main_v42 main_v43 (addf : (⟨S100000x512, .f32⟩ : BufTy).Contents (Elt F) → (⟨S100000x512, .f32⟩ : BufTy).Contents (Elt F) → (⟨S100000x512, .f32⟩ : BufTy).Contents (Elt F)),
    StableHlo.nullary main_cst_4 (constant S_ .f32 0x00000000#32),
    StableHlo.unary main_cst_4 main_v44 (broadcastInDim S4096x512 ![] bcast_S_S4096x512 : (⟨S_, .f32⟩ : BufTy).Contents (Elt F) → (⟨S4096x512, .f32⟩ : BufTy).Contents (Elt F)),
    StableHlo.unary main_arg1 main_v45 (broadcastInDim S100000x1 ![0] bcast_S100000_S100000x1_0 : (⟨S100000, .i32⟩ : BufTy).Contents (Elt F) → (⟨S100000x1, .i32⟩ : BufTy).Contents (Elt F)),
    StableHlo.ternary main_v44 main_v45 main_v35 main_v46 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_5 (constant S_ .f32 0x3F800000#32),
    StableHlo.unary main_cst_5 main_v47 (broadcastInDim S100000x1 ![] bcast_S_S100000x1 : (⟨S_, .f32⟩ : BufTy).Contents (Elt F) → (⟨S100000x1, .f32⟩ : BufTy).Contents (Elt F)),
    StableHlo.nullary main_cst_6 (constant S_ .f32 0x00000000#32),
    StableHlo.unary main_cst_6 main_v48 (broadcastInDim S4096x1 ![] bcast_S_S4096x1 : (⟨S_, .f32⟩ : BufTy).Contents (Elt F) → (⟨S4096x1, .f32⟩ : BufTy).Contents (Elt F)),
    StableHlo.unary main_arg1 main_v49 (broadcastInDim S100000x1 ![0] bcast_S100000_S100000x1_0 : (⟨S100000, .i32⟩ : BufTy).Contents (Elt F) → (⟨S100000x1, .i32⟩ : BufTy).Contents (Elt F)),
    StableHlo.ternary main_v48 main_v49 main_v47 main_v50 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)) ]

theorem ops0_sub : (ops0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩

theorem ops0_fresh : ∀ op ∈ (ops0 : List (HloOp τ sig (Elt F))), op.fresh = ∅ := by
  intro _ h; (repeat (cases h with | head => rfl | tail _ h => ?_)); exact nomatch h

/-- The 74 operations of @main's part 1, in order. -/
abbrev ops1 : List (HloOp τ sig (Elt F)) :=
  [ StableHlo.nullary main_cst_7 (constant S_ .f32 0x3F800000#32),
    StableHlo.unary main_cst_7 main_v51 (broadcastInDim S4096x1 ![] bcast_S_S4096x1 : (⟨S_, .f32⟩ : BufTy).Contents (Elt F) → (⟨S4096x1, .f32⟩ : BufTy).Contents (Elt F)),
    StableHlo.binary main_v50 main_v51 main_v52 (maximumf : (⟨S4096x1, .f32⟩ : BufTy).Contents (Elt F) → (⟨S4096x1, .f32⟩ : BufTy).Contents (Elt F) → (⟨S4096x1, .f32⟩ : BufTy).Contents (Elt F)),
    StableHlo.unary main_v52 main_v53 (broadcastInDim S4096x512 ![0, 1] bcast_S4096x1_S4096x512_0_1 : (⟨S4096x1, .f32⟩ : BufTy).Contents (Elt F) → (⟨S4096x512, .f32⟩ : BufTy).Contents (Elt F)),
    StableHlo.binary main_v46 main_v53 main_v54 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v55 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v55 main_v56 rfl shapeCasts_S1x512x512_S512x512,
    StableHlo.binary main_v54 main_v56 main_v57 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v58 ((extractStridedSlice S1x512 ![1, 0] · slices_S3x512_S1x512_1_0) : (⟨S3x512, .f32⟩ : BufTy).Contents (Elt F) → (⟨S1x512, .f32⟩ : BufTy).Contents (Elt F)),
    StableHlo.reshape main_v58 main_v59 rfl shapeCasts_S1x512_S512,
    StableHlo.unary main_v59 main_v60 (broadcastInDim S1x512 ![1] bcast_S512_S1x512_1 : (⟨S512, .f32⟩ : BufTy).Contents (Elt F) → (⟨S1x512, .f32⟩ : BufTy).Contents (Elt F)),
    StableHlo.unary main_v60 main_v61 (broadcastInDim S4096x512 ![0, 1] bcast_S1x512_S4096x512_0_1 : (⟨S1x512, .f32⟩ : BufTy).Contents (Elt F) → (⟨S4096x512, .f32⟩ : BufTy).Contents (Elt F)),
    StableHlo.binary main_v57 main_v61 main_v62 (addf : (⟨S4096x512, .f32⟩ : BufTy).Contents (Elt F) → (⟨S4096x512, .f32⟩ : BufTy).Contents (Elt F) → (⟨S4096x512, .f32⟩ : BufTy).Contents (Elt F)),
    StableHlo.nullary main_c_8 (constantI S_ 32 0#32),
    StableHlo.unary main_c_8 main_v63 (broadcastInDim S100000 ![] bcast_S_S100000 : (⟨S_, .i32⟩ : BufTy).Contents (Elt F) → (⟨S100000, .i32⟩ : BufTy).Contents (Elt F)),
    StableHlo.binary main_arg1 main_v63 main_v64 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 4096#32),
    StableHlo.unary main_c_9 main_v65 (broadcastInDim S100000 ![] bcast_S_S100000 : (⟨S_, .i32⟩ : BufTy).Contents (Elt F) → (⟨S100000, .i32⟩ : BufTy).Contents (Elt F)),
    StableHlo.binary main_arg1 main_v65 main_v66 (addi : (⟨S100000, .i32⟩ : BufTy).Contents (Elt F) → (⟨S100000, .i32⟩ : BufTy).Contents (Elt F) → (⟨S100000, .i32⟩ : BufTy).Contents (Elt F)),
    StableHlo.ternary main_v64 main_v66 main_arg1 main_v67 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v67 main_v68 (broadcastInDim S100000x1 ![0] bcast_S100000_S100000x1_0 : (⟨S100000, .i32⟩ : BufTy).Contents (Elt F) → (⟨S100000x1, .i32⟩ : BufTy).Contents (Elt F)),
    StableHlo.binary main_v62 main_v68 main_v69 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v43 main_v69 main_v70 (addf : (⟨S100000x512, .f32⟩ : BufTy).Contents (Elt F) → (⟨S100000x512, .f32⟩ : BufTy).Contents (Elt F) → (⟨S100000x512, .f32⟩ : BufTy).Contents (Elt F)),
    StableHlo.TRef.nullary main_call1.cst (constant S_ .f32 0x00000000#32),
    StableHlo.TRef.unary main_call1.cst main_call1.v0 (broadcastInDim S100000x512 ![] bcast_S_S100000x512),
    StableHlo.TRef.binary (.of main_v70) main_call1.v0 main_call1.v1 (cmpf .ogt),
    StableHlo.TRef.nullary main_call1.cst_0 (constant S_ .f32 0x00000000#32),
    StableHlo.TRef.unary main_call1.cst_0 main_call1.v2 (broadcastInDim S100000x512 ![] bcast_S_S100000x512),
    StableHlo.TRef.binary (.of main_v70) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x512 ![] bcast_S_S100000x512),
    StableHlo.TRef.ternary main_call1.v3 main_call1.call0.v1 (.of main_v70) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x512 ![] bcast_S_S100000x512),
    StableHlo.TRef.binary main_call1.v6 main_call1.v5 main_call1.v7 mulf,
    StableHlo.TRef.ternary main_call1.v1 (.of main_v70) main_call1.v7 main_call1.call1.v0 select,
    StableHlo.unary main_arg2 main_v72 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v72 main_v73 rfl shapeCasts_S1x512x512_S512x512,
    StableHlo.binary main_v71 main_v73 main_v74 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v75 ((extractStridedSlice S1x512 ![2, 0] · slices_S3x512_S1x512_2_0) : (⟨S3x512, .f32⟩ : BufTy).Contents (Elt F) → (⟨S1x512, .f32⟩ : BufTy).Contents (Elt F)),
    StableHlo.reshape main_v75 main_v76 rfl shapeCasts_S1x512_S512,
    StableHlo.unary main_v76 main_v77 (broadcastInDim S1x512 ![1] bcast_S512_S1x512_1 : (⟨S512, .f32⟩ : BufTy).Contents (Elt F) → (⟨S1x512, .f32⟩ : BufTy).Contents (Elt F)),
    StableHlo.unary main_v77 main_v78 (broadcastInDim S100000x512 ![0, 1] bcast_S1x512_S100000x512_0_1 : (⟨S1x512, .f32⟩ : BufTy).Contents (Elt F) → (⟨S100000x512, .f32⟩ : BufTy).Contents (Elt F)),
    StableHlo.binary main_v74 main_v78 main_v79 (addf : (⟨S100000x512, .f32⟩ : BufTy).Contents (Elt F) → (⟨S100000x512, .f32⟩ : BufTy).Contents (Elt F) → (⟨S100000x512, .f32⟩ : BufTy).Contents (Elt F)),
    StableHlo.nullary main_cst_10 (constant S_ .f32 0x00000000#32),
    StableHlo.unary main_cst_10 main_v80 (broadcastInDim S4096x512 ![] bcast_S_S4096x512 : (⟨S_, .f32⟩ : BufTy).Contents (Elt F) → (⟨S4096x512, .f32⟩ : BufTy).Contents (Elt F)),
    StableHlo.unary main_arg1 main_v81 (broadcastInDim S100000x1 ![0] bcast_S100000_S100000x1_0 : (⟨S100000, .i32⟩ : BufTy).Contents (Elt F) → (⟨S100000x1, .i32⟩ : BufTy).Contents (Elt F)),
    StableHlo.ternary main_v80 main_v81 main_v71 main_v82 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_11 (constant S_ .f32 0x3F800000#32),
    StableHlo.unary main_cst_11 main_v83 (broadcastInDim S100000x1 ![] bcast_S_S100000x1 : (⟨S_, .f32⟩ : BufTy).Contents (Elt F) → (⟨S100000x1, .f32⟩ : BufTy).Contents (Elt F)),
    StableHlo.nullary main_cst_12 (constant S_ .f32 0x00000000#32),
    StableHlo.unary main_cst_12 main_v84 (broadcastInDim S4096x1 ![] bcast_S_S4096x1 : (⟨S_, .f32⟩ : BufTy).Contents (Elt F) → (⟨S4096x1, .f32⟩ : BufTy).Contents (Elt F)),
    StableHlo.unary main_arg1 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v83 main_v86 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_13 (constant S_ .f32 0x3F800000#32),
    StableHlo.unary main_cst_13 main_v87 (broadcastInDim S4096x1 ![] bcast_S_S4096x1 : (⟨S_, .f32⟩ : BufTy).Contents (Elt F) → (⟨S4096x1, .f32⟩ : BufTy).Contents (Elt F)),
    StableHlo.binary main_v86 main_v87 main_v88 (maximumf : (⟨S4096x1, .f32⟩ : BufTy).Contents (Elt F) → (⟨S4096x1, .f32⟩ : BufTy).Contents (Elt F) → (⟨S4096x1, .f32⟩ : BufTy).Contents (Elt F)),
    StableHlo.unary main_v88 main_v89 (broadcastInDim S4096x512 ![0, 1] bcast_S4096x1_S4096x512_0_1 : (⟨S4096x1, .f32⟩ : BufTy).Contents (Elt F) → (⟨S4096x512, .f32⟩ : BufTy).Contents (Elt F)),
    StableHlo.binary main_v82 main_v89 main_v90 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v91 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v91 main_v92 rfl shapeCasts_S1x512x512_S512x512,
    StableHlo.binary main_v90 main_v92 main_v93 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v94 ((extractStridedSlice S1x512 ![2, 0] · slices_S3x512_S1x512_2_0) : (⟨S3x512, .f32⟩ : BufTy).Contents (Elt F) → (⟨S1x512, .f32⟩ : BufTy).Contents (Elt F)),
    StableHlo.reshape main_v94 main_v95 rfl shapeCasts_S1x512_S512,
    StableHlo.unary main_v95 main_v96 (broadcastInDim S1x512 ![1] bcast_S512_S1x512_1 : (⟨S512, .f32⟩ : BufTy).Contents (Elt F) → (⟨S1x512, .f32⟩ : BufTy).Contents (Elt F)),
    StableHlo.unary main_v96 main_v97 (broadcastInDim S4096x512 ![0, 1] bcast_S1x512_S4096x512_0_1 : (⟨S1x512, .f32⟩ : BufTy).Contents (Elt F) → (⟨S4096x512, .f32⟩ : BufTy).Contents (Elt F)),
    StableHlo.binary main_v93 main_v97 main_v98 (addf : (⟨S4096x512, .f32⟩ : BufTy).Contents (Elt F) → (⟨S4096x512, .f32⟩ : BufTy).Contents (Elt F) → (⟨S4096x512, .f32⟩ : BufTy).Contents (Elt F)),
    StableHlo.nullary main_c_14 (constantI S_ 32 0#32),
    StableHlo.unary main_c_14 main_v99 (broadcastInDim S100000 ![] bcast_S_S100000 : (⟨S_, .i32⟩ : BufTy).Contents (Elt F) → (⟨S100000, .i32⟩ : BufTy).Contents (Elt F)),
    StableHlo.binary main_arg1 main_v99 main_v100 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 4096#32),
    StableHlo.unary main_c_15 main_v101 (broadcastInDim S100000 ![] bcast_S_S100000 : (⟨S_, .i32⟩ : BufTy).Contents (Elt F) → (⟨S100000, .i32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub ..⟩

theorem ops1_fresh : ∀ op ∈ (ops1 : List (HloOp τ sig (Elt F))), op.fresh = ∅ := by
  intro _ h; (repeat (cases h with | head => rfl | tail _ h => ?_)); exact nomatch h

/-- The 46 operations of @main's part 2, in order. -/
abbrev ops2 : List (HloOp τ sig (Elt F)) :=
  [ StableHlo.binary main_arg1 main_v101 main_v102 (addi : (⟨S100000, .i32⟩ : BufTy).Contents (Elt F) → (⟨S100000, .i32⟩ : BufTy).Contents (Elt F) → (⟨S100000, .i32⟩ : BufTy).Contents (Elt F)),
    StableHlo.ternary main_v100 main_v102 main_arg1 main_v103 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v103 main_v104 (broadcastInDim S100000x1 ![0] bcast_S100000_S100000x1_0 : (⟨S100000, .i32⟩ : BufTy).Contents (Elt F) → (⟨S100000x1, .i32⟩ : BufTy).Contents (Elt F)),
    StableHlo.binary main_v98 main_v104 main_v105 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v79 main_v105 main_v106 (addf : (⟨S100000x512, .f32⟩ : BufTy).Contents (Elt F) → (⟨S100000x512, .f32⟩ : BufTy).Contents (Elt F) → (⟨S100000x512, .f32⟩ : BufTy).Contents (Elt F)),
    StableHlo.TRef.nullary main_call2.cst (constant S_ .f32 0x00000000#32),
    StableHlo.TRef.unary main_call2.cst main_call2.v0 (broadcastInDim S100000x512 ![] bcast_S_S100000x512),
    StableHlo.TRef.binary (.of main_v106) main_call2.v0 main_call2.v1 (cmpf .ogt),
    StableHlo.TRef.nullary main_call2.cst_0 (constant S_ .f32 0x00000000#32),
    StableHlo.TRef.unary main_call2.cst_0 main_call2.v2 (broadcastInDim S100000x512 ![] bcast_S_S100000x512),
    StableHlo.TRef.binary (.of main_v106) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x512 ![] bcast_S_S100000x512),
    StableHlo.TRef.ternary main_call2.v3 main_call2.call0.v1 (.of main_v106) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x512 ![] bcast_S_S100000x512),
    StableHlo.TRef.binary main_call2.v6 main_call2.v5 main_call2.v7 mulf,
    StableHlo.TRef.ternary main_call2.v1 (.of main_v106) main_call2.v7 main_call2.call1.v0 select,
    StableHlo.nullary main_cst_16 (constant S_ .f32 0x00000000#32),
    StableHlo.unary main_cst_16 main_v108 (broadcastInDim S4096x512 ![] bcast_S_S4096x512 : (⟨S_, .f32⟩ : BufTy).Contents (Elt F) → (⟨S4096x512, .f32⟩ : BufTy).Contents (Elt F)),
    StableHlo.unary main_arg1 main_v109 (broadcastInDim S100000x1 ![0] bcast_S100000_S100000x1_0 : (⟨S100000, .i32⟩ : BufTy).Contents (Elt F) → (⟨S100000x1, .i32⟩ : BufTy).Contents (Elt F)),
    StableHlo.ternary main_v108 main_v109 main_v107 main_v110 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_17 (constant S_ .f32 0x3F800000#32),
    StableHlo.unary main_cst_17 main_v111 (broadcastInDim S100000x1 ![] bcast_S_S100000x1 : (⟨S_, .f32⟩ : BufTy).Contents (Elt F) → (⟨S100000x1, .f32⟩ : BufTy).Contents (Elt F)),
    StableHlo.nullary main_cst_18 (constant S_ .f32 0x00000000#32),
    StableHlo.unary main_cst_18 main_v112 (broadcastInDim S4096x1 ![] bcast_S_S4096x1 : (⟨S_, .f32⟩ : BufTy).Contents (Elt F) → (⟨S4096x1, .f32⟩ : BufTy).Contents (Elt F)),
    StableHlo.unary main_arg1 main_v113 (broadcastInDim S100000x1 ![0] bcast_S100000_S100000x1_0 : (⟨S100000, .i32⟩ : BufTy).Contents (Elt F) → (⟨S100000x1, .i32⟩ : BufTy).Contents (Elt F)),
    StableHlo.ternary main_v112 main_v113 main_v111 main_v114 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_19 (constant S_ .f32 0x3F800000#32),
    StableHlo.unary main_cst_19 main_v115 (broadcastInDim S4096x1 ![] bcast_S_S4096x1 : (⟨S_, .f32⟩ : BufTy).Contents (Elt F) → (⟨S4096x1, .f32⟩ : BufTy).Contents (Elt F)),
    StableHlo.binary main_v114 main_v115 main_v116 (maximumf : (⟨S4096x1, .f32⟩ : BufTy).Contents (Elt F) → (⟨S4096x1, .f32⟩ : BufTy).Contents (Elt F) → (⟨S4096x1, .f32⟩ : BufTy).Contents (Elt F)),
    StableHlo.unary main_v116 main_v117 (broadcastInDim S4096x512 ![0, 1] bcast_S4096x1_S4096x512_0_1 : (⟨S4096x1, .f32⟩ : BufTy).Contents (Elt F) → (⟨S4096x512, .f32⟩ : BufTy).Contents (Elt F)),
    StableHlo.binary main_v110 main_v117 main_v118 (Host.divf : (⟨S4096x512, .f32⟩ : BufTy).Contents (Elt F) → (⟨S4096x512, .f32⟩ : BufTy).Contents (Elt F) → (⟨S4096x512, .f32⟩ : BufTy).Contents (Elt F)),
    StableHlo.binary main_v118 main_arg6 main_v119 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    StableHlo.unary main_arg7 main_v120 (broadcastInDim S1x1024 ![1] bcast_S1024_S1x1024_1 : (⟨S1024, .f32⟩ : BufTy).Contents (Elt F) → (⟨S1x1024, .f32⟩ : BufTy).Contents (Elt F)),
    StableHlo.unary main_v120 main_v121 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v119 main_v121 main_v122 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call3.cst (constant S_ .f32 0x00000000#32),
    StableHlo.TRef.unary main_call3.cst main_call3.v0 (broadcastInDim S4096x1024 ![] bcast_S_S4096x1024),
    StableHlo.TRef.binary (.of main_v122) main_call3.v0 main_call3.v1 maximumf,
    StableHlo.binary main_v123 main_arg8 main_v124 ((fun l r => Host.dotGeneral dot_S4096x1024_S1024x10_S4096x10_1_0_0_1_n_n none l r) : (⟨S4096x1024, .f32⟩ : BufTy).Contents (Elt F) → (⟨S1024x10, .f32⟩ : BufTy).Contents (Elt F) → (⟨S4096x10, .f32⟩ : BufTy).Contents (Elt F)),
    StableHlo.unary main_arg9 main_v125 (broadcastInDim S1x10 ![1] bcast_S10_S1x10_1 : (⟨S10, .f32⟩ : BufTy).Contents (Elt F) → (⟨S1x10, .f32⟩ : BufTy).Contents (Elt F)),
    StableHlo.unary main_v125 main_v126 (broadcastInDim S4096x10 ![0, 1] bcast_S1x10_S4096x10_0_1 : (⟨S1x10, .f32⟩ : BufTy).Contents (Elt F) → (⟨S4096x10, .f32⟩ : BufTy).Contents (Elt F)),
    StableHlo.binary main_v124 main_v126 main_v127 (addf : (⟨S4096x10, .f32⟩ : BufTy).Contents (Elt F) → (⟨S4096x10, .f32⟩ : BufTy).Contents (Elt F) → (⟨S4096x10, .f32⟩ : BufTy).Contents (Elt F)) ]

theorem ops2_sub : (ops2 : List (HloOp τ sig (Elt F))).Forall fun op => op.bufs ⊆ tcRefs τ sig :=
  ⟨binary_bufs_sub .., ternary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

/-- 56 operations: one layer, from the rows it reads to the rows it leaves. -/
abbrev lay0 : List (HloOp τ sig (Elt F)) :=
  [ StableHlo.unary main_arg2 main_v0 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v0 main_v1 rfl shapeCasts_S1x512x512_S512x512,
    StableHlo.binary main_arg0 main_v1 main_v2 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v3 ((extractStridedSlice S1x512 ![0, 0] · slices_S3x512_S1x512_0_0) : (⟨S3x512, .f32⟩ : BufTy).Contents (Elt F) → (⟨S1x512, .f32⟩ : BufTy).Contents (Elt F)),
    StableHlo.reshape main_v3 main_v4 rfl shapeCasts_S1x512_S512,
    StableHlo.unary main_v4 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S100000x512 ![0, 1] bcast_S1x512_S100000x512_0_1 : (⟨S1x512, .f32⟩ : BufTy).Contents (Elt F) → (⟨S100000x512, .f32⟩ : BufTy).Contents (Elt F)),
    StableHlo.binary main_v2 main_v6 main_v7 (addf : (⟨S100000x512, .f32⟩ : BufTy).Contents (Elt F) → (⟨S100000x512, .f32⟩ : BufTy).Contents (Elt F) → (⟨S100000x512, .f32⟩ : BufTy).Contents (Elt F)),
    StableHlo.nullary main_cst (constant S_ .f32 0x00000000#32),
    StableHlo.unary main_cst main_v8 (broadcastInDim S4096x512 ![] bcast_S_S4096x512 : (⟨S_, .f32⟩ : BufTy).Contents (Elt F) → (⟨S4096x512, .f32⟩ : BufTy).Contents (Elt F)),
    StableHlo.unary main_arg1 main_v9 (broadcastInDim S100000x1 ![0] bcast_S100000_S100000x1_0 : (⟨S100000, .i32⟩ : BufTy).Contents (Elt F) → (⟨S100000x1, .i32⟩ : BufTy).Contents (Elt F)),
    StableHlo.ternary main_v8 main_v9 main_arg0 main_v10 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_0 (constant S_ .f32 0x3F800000#32),
    StableHlo.unary main_cst_0 main_v11 (broadcastInDim S100000x1 ![] bcast_S_S100000x1 : (⟨S_, .f32⟩ : BufTy).Contents (Elt F) → (⟨S100000x1, .f32⟩ : BufTy).Contents (Elt F)),
    StableHlo.nullary main_cst_1 (constant S_ .f32 0x00000000#32),
    StableHlo.unary main_cst_1 main_v12 (broadcastInDim S4096x1 ![] bcast_S_S4096x1 : (⟨S_, .f32⟩ : BufTy).Contents (Elt F) → (⟨S4096x1, .f32⟩ : BufTy).Contents (Elt F)),
    StableHlo.unary main_arg1 main_v13 (broadcastInDim S100000x1 ![0] bcast_S100000_S100000x1_0 : (⟨S100000, .i32⟩ : BufTy).Contents (Elt F) → (⟨S100000x1, .i32⟩ : BufTy).Contents (Elt F)),
    StableHlo.ternary main_v12 main_v13 main_v11 main_v14 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_2 (constant S_ .f32 0x3F800000#32),
    StableHlo.unary main_cst_2 main_v15 (broadcastInDim S4096x1 ![] bcast_S_S4096x1 : (⟨S_, .f32⟩ : BufTy).Contents (Elt F) → (⟨S4096x1, .f32⟩ : BufTy).Contents (Elt F)),
    StableHlo.binary main_v14 main_v15 main_v16 (maximumf : (⟨S4096x1, .f32⟩ : BufTy).Contents (Elt F) → (⟨S4096x1, .f32⟩ : BufTy).Contents (Elt F) → (⟨S4096x1, .f32⟩ : BufTy).Contents (Elt F)),
    StableHlo.unary main_v16 main_v17 (broadcastInDim S4096x512 ![0, 1] bcast_S4096x1_S4096x512_0_1 : (⟨S4096x1, .f32⟩ : BufTy).Contents (Elt F) → (⟨S4096x512, .f32⟩ : BufTy).Contents (Elt F)),
    StableHlo.binary main_v10 main_v17 main_v18 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v19 ((extractStridedSlice S1x512x512 ![0, 0, 0] · slices_S3x512x512_S1x512x512_0_0_0) : (⟨S3x512x512, .f32⟩ : BufTy).Contents (Elt F) → (⟨S1x512x512, .f32⟩ : BufTy).Contents (Elt F)),
    StableHlo.reshape main_v19 main_v20 rfl shapeCasts_S1x512x512_S512x512,
    StableHlo.binary main_v18 main_v20 main_v21 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v22 ((extractStridedSlice S1x512 ![0, 0] · slices_S3x512_S1x512_0_0) : (⟨S3x512, .f32⟩ : BufTy).Contents (Elt F) → (⟨S1x512, .f32⟩ : BufTy).Contents (Elt F)),
    StableHlo.reshape main_v22 main_v23 rfl shapeCasts_S1x512_S512,
    StableHlo.unary main_v23 main_v24 (broadcastInDim S1x512 ![1] bcast_S512_S1x512_1 : (⟨S512, .f32⟩ : BufTy).Contents (Elt F) → (⟨S1x512, .f32⟩ : BufTy).Contents (Elt F)),
    StableHlo.unary main_v24 main_v25 (broadcastInDim S4096x512 ![0, 1] bcast_S1x512_S4096x512_0_1 : (⟨S1x512, .f32⟩ : BufTy).Contents (Elt F) → (⟨S4096x512, .f32⟩ : BufTy).Contents (Elt F)),
    StableHlo.binary main_v21 main_v25 main_v26 (addf : (⟨S4096x512, .f32⟩ : BufTy).Contents (Elt F) → (⟨S4096x512, .f32⟩ : BufTy).Contents (Elt F) → (⟨S4096x512, .f32⟩ : BufTy).Contents (Elt F)),
    StableHlo.nullary main_c (constantI S_ 32 0#32),
    StableHlo.unary main_c main_v27 (broadcastInDim S100000 ![] bcast_S_S100000 : (⟨S_, .i32⟩ : BufTy).Contents (Elt F) → (⟨S100000, .i32⟩ : BufTy).Contents (Elt F)),
    StableHlo.binary main_arg1 main_v27 main_v28 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 4096#32),
    StableHlo.unary main_c_3 main_v29 (broadcastInDim S100000 ![] bcast_S_S100000 : (⟨S_, .i32⟩ : BufTy).Contents (Elt F) → (⟨S100000, .i32⟩ : BufTy).Contents (Elt F)),
    StableHlo.binary main_arg1 main_v29 main_v30 (addi : (⟨S100000, .i32⟩ : BufTy).Contents (Elt F) → (⟨S100000, .i32⟩ : BufTy).Contents (Elt F) → (⟨S100000, .i32⟩ : BufTy).Contents (Elt F)),
    StableHlo.ternary main_v28 main_v30 main_arg1 main_v31 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v31 main_v32 (broadcastInDim S100000x1 ![0] bcast_S100000_S100000x1_0 : (⟨S100000, .i32⟩ : BufTy).Contents (Elt F) → (⟨S100000x1, .i32⟩ : BufTy).Contents (Elt F)),
    StableHlo.binary main_v26 main_v32 main_v33 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v7 main_v33 main_v34 (addf : (⟨S100000x512, .f32⟩ : BufTy).Contents (Elt F) → (⟨S100000x512, .f32⟩ : BufTy).Contents (Elt F) → (⟨S100000x512, .f32⟩ : BufTy).Contents (Elt F)),
    StableHlo.TRef.nullary main_call0.cst (constant S_ .f32 0x00000000#32),
    StableHlo.TRef.unary main_call0.cst main_call0.v0 (broadcastInDim S100000x512 ![] bcast_S_S100000x512),
    StableHlo.TRef.binary (.of main_v34) main_call0.v0 main_call0.v1 (cmpf .ogt),
    StableHlo.TRef.nullary main_call0.cst_0 (constant S_ .f32 0x00000000#32),
    StableHlo.TRef.unary main_call0.cst_0 main_call0.v2 (broadcastInDim S100000x512 ![] bcast_S_S100000x512),
    StableHlo.TRef.binary (.of main_v34) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x512 ![] bcast_S_S100000x512),
    StableHlo.TRef.ternary main_call0.v3 main_call0.call0.v1 (.of main_v34) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x512 ![] bcast_S_S100000x512),
    StableHlo.TRef.binary main_call0.v6 main_call0.v5 main_call0.v7 mulf,
    StableHlo.TRef.ternary main_call0.v1 (.of main_v34) main_call0.v7 main_call0.call1.v0 select ]

/-- 56 operations: one layer, from the rows it reads to the rows it leaves. -/
abbrev lay1 : List (HloOp τ sig (Elt F)) :=
  [ StableHlo.unary main_arg2 main_v36 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v36 main_v37 rfl shapeCasts_S1x512x512_S512x512,
    StableHlo.binary main_v35 main_v37 main_v38 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v39 ((extractStridedSlice S1x512 ![1, 0] · slices_S3x512_S1x512_1_0) : (⟨S3x512, .f32⟩ : BufTy).Contents (Elt F) → (⟨S1x512, .f32⟩ : BufTy).Contents (Elt F)),
    StableHlo.reshape main_v39 main_v40 rfl shapeCasts_S1x512_S512,
    StableHlo.unary main_v40 main_v41 (broadcastInDim S1x512 ![1] bcast_S512_S1x512_1 : (⟨S512, .f32⟩ : BufTy).Contents (Elt F) → (⟨S1x512, .f32⟩ : BufTy).Contents (Elt F)),
    StableHlo.unary main_v41 main_v42 (broadcastInDim S100000x512 ![0, 1] bcast_S1x512_S100000x512_0_1 : (⟨S1x512, .f32⟩ : BufTy).Contents (Elt F) → (⟨S100000x512, .f32⟩ : BufTy).Contents (Elt F)),
    StableHlo.binary main_v38 main_v42 main_v43 (addf : (⟨S100000x512, .f32⟩ : BufTy).Contents (Elt F) → (⟨S100000x512, .f32⟩ : BufTy).Contents (Elt F) → (⟨S100000x512, .f32⟩ : BufTy).Contents (Elt F)),
    StableHlo.nullary main_cst_4 (constant S_ .f32 0x00000000#32),
    StableHlo.unary main_cst_4 main_v44 (broadcastInDim S4096x512 ![] bcast_S_S4096x512 : (⟨S_, .f32⟩ : BufTy).Contents (Elt F) → (⟨S4096x512, .f32⟩ : BufTy).Contents (Elt F)),
    StableHlo.unary main_arg1 main_v45 (broadcastInDim S100000x1 ![0] bcast_S100000_S100000x1_0 : (⟨S100000, .i32⟩ : BufTy).Contents (Elt F) → (⟨S100000x1, .i32⟩ : BufTy).Contents (Elt F)),
    StableHlo.ternary main_v44 main_v45 main_v35 main_v46 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_5 (constant S_ .f32 0x3F800000#32),
    StableHlo.unary main_cst_5 main_v47 (broadcastInDim S100000x1 ![] bcast_S_S100000x1 : (⟨S_, .f32⟩ : BufTy).Contents (Elt F) → (⟨S100000x1, .f32⟩ : BufTy).Contents (Elt F)),
    StableHlo.nullary main_cst_6 (constant S_ .f32 0x00000000#32),
    StableHlo.unary main_cst_6 main_v48 (broadcastInDim S4096x1 ![] bcast_S_S4096x1 : (⟨S_, .f32⟩ : BufTy).Contents (Elt F) → (⟨S4096x1, .f32⟩ : BufTy).Contents (Elt F)),
    StableHlo.unary main_arg1 main_v49 (broadcastInDim S100000x1 ![0] bcast_S100000_S100000x1_0 : (⟨S100000, .i32⟩ : BufTy).Contents (Elt F) → (⟨S100000x1, .i32⟩ : BufTy).Contents (Elt F)),
    StableHlo.ternary main_v48 main_v49 main_v47 main_v50 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_7 (constant S_ .f32 0x3F800000#32),
    StableHlo.unary main_cst_7 main_v51 (broadcastInDim S4096x1 ![] bcast_S_S4096x1 : (⟨S_, .f32⟩ : BufTy).Contents (Elt F) → (⟨S4096x1, .f32⟩ : BufTy).Contents (Elt F)),
    StableHlo.binary main_v50 main_v51 main_v52 (maximumf : (⟨S4096x1, .f32⟩ : BufTy).Contents (Elt F) → (⟨S4096x1, .f32⟩ : BufTy).Contents (Elt F) → (⟨S4096x1, .f32⟩ : BufTy).Contents (Elt F)),
    StableHlo.unary main_v52 main_v53 (broadcastInDim S4096x512 ![0, 1] bcast_S4096x1_S4096x512_0_1 : (⟨S4096x1, .f32⟩ : BufTy).Contents (Elt F) → (⟨S4096x512, .f32⟩ : BufTy).Contents (Elt F)),
    StableHlo.binary main_v46 main_v53 main_v54 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v55 ((extractStridedSlice S1x512x512 ![1, 0, 0] · slices_S3x512x512_S1x512x512_1_0_0) : (⟨S3x512x512, .f32⟩ : BufTy).Contents (Elt F) → (⟨S1x512x512, .f32⟩ : BufTy).Contents (Elt F)),
    StableHlo.reshape main_v55 main_v56 rfl shapeCasts_S1x512x512_S512x512,
    StableHlo.binary main_v54 main_v56 main_v57 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v58 ((extractStridedSlice S1x512 ![1, 0] · slices_S3x512_S1x512_1_0) : (⟨S3x512, .f32⟩ : BufTy).Contents (Elt F) → (⟨S1x512, .f32⟩ : BufTy).Contents (Elt F)),
    StableHlo.reshape main_v58 main_v59 rfl shapeCasts_S1x512_S512,
    StableHlo.unary main_v59 main_v60 (broadcastInDim S1x512 ![1] bcast_S512_S1x512_1 : (⟨S512, .f32⟩ : BufTy).Contents (Elt F) → (⟨S1x512, .f32⟩ : BufTy).Contents (Elt F)),
    StableHlo.unary main_v60 main_v61 (broadcastInDim S4096x512 ![0, 1] bcast_S1x512_S4096x512_0_1 : (⟨S1x512, .f32⟩ : BufTy).Contents (Elt F) → (⟨S4096x512, .f32⟩ : BufTy).Contents (Elt F)),
    StableHlo.binary main_v57 main_v61 main_v62 (addf : (⟨S4096x512, .f32⟩ : BufTy).Contents (Elt F) → (⟨S4096x512, .f32⟩ : BufTy).Contents (Elt F) → (⟨S4096x512, .f32⟩ : BufTy).Contents (Elt F)),
    StableHlo.nullary main_c_8 (constantI S_ 32 0#32),
    StableHlo.unary main_c_8 main_v63 (broadcastInDim S100000 ![] bcast_S_S100000 : (⟨S_, .i32⟩ : BufTy).Contents (Elt F) → (⟨S100000, .i32⟩ : BufTy).Contents (Elt F)),
    StableHlo.binary main_arg1 main_v63 main_v64 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 4096#32),
    StableHlo.unary main_c_9 main_v65 (broadcastInDim S100000 ![] bcast_S_S100000 : (⟨S_, .i32⟩ : BufTy).Contents (Elt F) → (⟨S100000, .i32⟩ : BufTy).Contents (Elt F)),
    StableHlo.binary main_arg1 main_v65 main_v66 (addi : (⟨S100000, .i32⟩ : BufTy).Contents (Elt F) → (⟨S100000, .i32⟩ : BufTy).Contents (Elt F) → (⟨S100000, .i32⟩ : BufTy).Contents (Elt F)),
    StableHlo.ternary main_v64 main_v66 main_arg1 main_v67 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v67 main_v68 (broadcastInDim S100000x1 ![0] bcast_S100000_S100000x1_0 : (⟨S100000, .i32⟩ : BufTy).Contents (Elt F) → (⟨S100000x1, .i32⟩ : BufTy).Contents (Elt F)),
    StableHlo.binary main_v62 main_v68 main_v69 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v43 main_v69 main_v70 (addf : (⟨S100000x512, .f32⟩ : BufTy).Contents (Elt F) → (⟨S100000x512, .f32⟩ : BufTy).Contents (Elt F) → (⟨S100000x512, .f32⟩ : BufTy).Contents (Elt F)),
    StableHlo.TRef.nullary main_call1.cst (constant S_ .f32 0x00000000#32),
    StableHlo.TRef.unary main_call1.cst main_call1.v0 (broadcastInDim S100000x512 ![] bcast_S_S100000x512),
    StableHlo.TRef.binary (.of main_v70) main_call1.v0 main_call1.v1 (cmpf .ogt),
    StableHlo.TRef.nullary main_call1.cst_0 (constant S_ .f32 0x00000000#32),
    StableHlo.TRef.unary main_call1.cst_0 main_call1.v2 (broadcastInDim S100000x512 ![] bcast_S_S100000x512),
    StableHlo.TRef.binary (.of main_v70) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x512 ![] bcast_S_S100000x512),
    StableHlo.TRef.ternary main_call1.v3 main_call1.call0.v1 (.of main_v70) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x512 ![] bcast_S_S100000x512),
    StableHlo.TRef.binary main_call1.v6 main_call1.v5 main_call1.v7 mulf,
    StableHlo.TRef.ternary main_call1.v1 (.of main_v70) main_call1.v7 main_call1.call1.v0 select ]

/-- 56 operations: one layer, from the rows it reads to the rows it leaves. -/
abbrev lay2 : List (HloOp τ sig (Elt F)) :=
  [ StableHlo.unary main_arg2 main_v72 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v72 main_v73 rfl shapeCasts_S1x512x512_S512x512,
    StableHlo.binary main_v71 main_v73 main_v74 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    StableHlo.unary main_arg3 main_v75 ((extractStridedSlice S1x512 ![2, 0] · slices_S3x512_S1x512_2_0) : (⟨S3x512, .f32⟩ : BufTy).Contents (Elt F) → (⟨S1x512, .f32⟩ : BufTy).Contents (Elt F)),
    StableHlo.reshape main_v75 main_v76 rfl shapeCasts_S1x512_S512,
    StableHlo.unary main_v76 main_v77 (broadcastInDim S1x512 ![1] bcast_S512_S1x512_1 : (⟨S512, .f32⟩ : BufTy).Contents (Elt F) → (⟨S1x512, .f32⟩ : BufTy).Contents (Elt F)),
    StableHlo.unary main_v77 main_v78 (broadcastInDim S100000x512 ![0, 1] bcast_S1x512_S100000x512_0_1 : (⟨S1x512, .f32⟩ : BufTy).Contents (Elt F) → (⟨S100000x512, .f32⟩ : BufTy).Contents (Elt F)),
    StableHlo.binary main_v74 main_v78 main_v79 (addf : (⟨S100000x512, .f32⟩ : BufTy).Contents (Elt F) → (⟨S100000x512, .f32⟩ : BufTy).Contents (Elt F) → (⟨S100000x512, .f32⟩ : BufTy).Contents (Elt F)),
    StableHlo.nullary main_cst_10 (constant S_ .f32 0x00000000#32),
    StableHlo.unary main_cst_10 main_v80 (broadcastInDim S4096x512 ![] bcast_S_S4096x512 : (⟨S_, .f32⟩ : BufTy).Contents (Elt F) → (⟨S4096x512, .f32⟩ : BufTy).Contents (Elt F)),
    StableHlo.unary main_arg1 main_v81 (broadcastInDim S100000x1 ![0] bcast_S100000_S100000x1_0 : (⟨S100000, .i32⟩ : BufTy).Contents (Elt F) → (⟨S100000x1, .i32⟩ : BufTy).Contents (Elt F)),
    StableHlo.ternary main_v80 main_v81 main_v71 main_v82 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_11 (constant S_ .f32 0x3F800000#32),
    StableHlo.unary main_cst_11 main_v83 (broadcastInDim S100000x1 ![] bcast_S_S100000x1 : (⟨S_, .f32⟩ : BufTy).Contents (Elt F) → (⟨S100000x1, .f32⟩ : BufTy).Contents (Elt F)),
    StableHlo.nullary main_cst_12 (constant S_ .f32 0x00000000#32),
    StableHlo.unary main_cst_12 main_v84 (broadcastInDim S4096x1 ![] bcast_S_S4096x1 : (⟨S_, .f32⟩ : BufTy).Contents (Elt F) → (⟨S4096x1, .f32⟩ : BufTy).Contents (Elt F)),
    StableHlo.unary main_arg1 main_v85 (broadcastInDim S100000x1 ![0] bcast_S100000_S100000x1_0 : (⟨S100000, .i32⟩ : BufTy).Contents (Elt F) → (⟨S100000x1, .i32⟩ : BufTy).Contents (Elt F)),
    StableHlo.ternary main_v84 main_v85 main_v83 main_v86 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_13 (constant S_ .f32 0x3F800000#32),
    StableHlo.unary main_cst_13 main_v87 (broadcastInDim S4096x1 ![] bcast_S_S4096x1 : (⟨S_, .f32⟩ : BufTy).Contents (Elt F) → (⟨S4096x1, .f32⟩ : BufTy).Contents (Elt F)),
    StableHlo.binary main_v86 main_v87 main_v88 (maximumf : (⟨S4096x1, .f32⟩ : BufTy).Contents (Elt F) → (⟨S4096x1, .f32⟩ : BufTy).Contents (Elt F) → (⟨S4096x1, .f32⟩ : BufTy).Contents (Elt F)),
    StableHlo.unary main_v88 main_v89 (broadcastInDim S4096x512 ![0, 1] bcast_S4096x1_S4096x512_0_1 : (⟨S4096x1, .f32⟩ : BufTy).Contents (Elt F) → (⟨S4096x512, .f32⟩ : BufTy).Contents (Elt F)),
    StableHlo.binary main_v82 main_v89 main_v90 (Host.divf : (⟨S4096x512, .f32⟩ : BufTy).Contents (Elt F) → (⟨S4096x512, .f32⟩ : BufTy).Contents (Elt F) → (⟨S4096x512, .f32⟩ : BufTy).Contents (Elt F)),
    StableHlo.unary main_arg4 main_v91 ((extractStridedSlice S1x512x512 ![2, 0, 0] · slices_S3x512x512_S1x512x512_2_0_0) : (⟨S3x512x512, .f32⟩ : BufTy).Contents (Elt F) → (⟨S1x512x512, .f32⟩ : BufTy).Contents (Elt F)),
    StableHlo.reshape main_v91 main_v92 rfl shapeCasts_S1x512x512_S512x512,
    StableHlo.binary main_v90 main_v92 main_v93 ((fun l r => Host.dotGeneral dot_S4096x512_S512x512_S4096x512_1_0_0_1_n_n none l r) : (⟨S4096x512, .f32⟩ : BufTy).Contents (Elt F) → (⟨S512x512, .f32⟩ : BufTy).Contents (Elt F) → (⟨S4096x512, .f32⟩ : BufTy).Contents (Elt F)),
    StableHlo.unary main_arg5 main_v94 ((extractStridedSlice S1x512 ![2, 0] · slices_S3x512_S1x512_2_0) : (⟨S3x512, .f32⟩ : BufTy).Contents (Elt F) → (⟨S1x512, .f32⟩ : BufTy).Contents (Elt F)),
    StableHlo.reshape main_v94 main_v95 rfl shapeCasts_S1x512_S512,
    StableHlo.unary main_v95 main_v96 (broadcastInDim S1x512 ![1] bcast_S512_S1x512_1 : (⟨S512, .f32⟩ : BufTy).Contents (Elt F) → (⟨S1x512, .f32⟩ : BufTy).Contents (Elt F)),
    StableHlo.unary main_v96 main_v97 (broadcastInDim S4096x512 ![0, 1] bcast_S1x512_S4096x512_0_1 : (⟨S1x512, .f32⟩ : BufTy).Contents (Elt F) → (⟨S4096x512, .f32⟩ : BufTy).Contents (Elt F)),
    StableHlo.binary main_v93 main_v97 main_v98 (addf : (⟨S4096x512, .f32⟩ : BufTy).Contents (Elt F) → (⟨S4096x512, .f32⟩ : BufTy).Contents (Elt F) → (⟨S4096x512, .f32⟩ : BufTy).Contents (Elt F)),
    StableHlo.nullary main_c_14 (constantI S_ 32 0#32),
    StableHlo.unary main_c_14 main_v99 (broadcastInDim S100000 ![] bcast_S_S100000 : (⟨S_, .i32⟩ : BufTy).Contents (Elt F) → (⟨S100000, .i32⟩ : BufTy).Contents (Elt F)),
    StableHlo.binary main_arg1 main_v99 main_v100 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 4096#32),
    StableHlo.unary main_c_15 main_v101 (broadcastInDim S100000 ![] bcast_S_S100000 : (⟨S_, .i32⟩ : BufTy).Contents (Elt F) → (⟨S100000, .i32⟩ : BufTy).Contents (Elt F)),
    StableHlo.binary main_arg1 main_v101 main_v102 (addi : (⟨S100000, .i32⟩ : BufTy).Contents (Elt F) → (⟨S100000, .i32⟩ : BufTy).Contents (Elt F) → (⟨S100000, .i32⟩ : BufTy).Contents (Elt F)),
    StableHlo.ternary main_v100 main_v102 main_arg1 main_v103 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v103 main_v104 (broadcastInDim S100000x1 ![0] bcast_S100000_S100000x1_0 : (⟨S100000, .i32⟩ : BufTy).Contents (Elt F) → (⟨S100000x1, .i32⟩ : BufTy).Contents (Elt F)),
    StableHlo.binary main_v98 main_v104 main_v105 ((fun x i => Host.gather gather_S4096x512_S100000x1_S100000x512_1_0_n_n_0_1_1512 x i) : (⟨S4096x512, .f32⟩ : BufTy).Contents (Elt F) → (⟨S100000x1, .i32⟩ : BufTy).Contents (Elt F) → (⟨S100000x512, .f32⟩ : BufTy).Contents (Elt F)),
    StableHlo.binary main_v79 main_v105 main_v106 (addf : (⟨S100000x512, .f32⟩ : BufTy).Contents (Elt F) → (⟨S100000x512, .f32⟩ : BufTy).Contents (Elt F) → (⟨S100000x512, .f32⟩ : BufTy).Contents (Elt F)),
    StableHlo.TRef.nullary main_call2.cst (constant S_ .f32 0x00000000#32),
    StableHlo.TRef.unary main_call2.cst main_call2.v0 (broadcastInDim S100000x512 ![] bcast_S_S100000x512),
    StableHlo.TRef.binary (.of main_v106) main_call2.v0 main_call2.v1 (cmpf .ogt),
    StableHlo.TRef.nullary main_call2.cst_0 (constant S_ .f32 0x00000000#32),
    StableHlo.TRef.unary main_call2.cst_0 main_call2.v2 (broadcastInDim S100000x512 ![] bcast_S_S100000x512),
    StableHlo.TRef.binary (.of main_v106) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x512 ![] bcast_S_S100000x512),
    StableHlo.TRef.ternary main_call2.v3 main_call2.call0.v1 (.of main_v106) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x512 ![] bcast_S_S100000x512),
    StableHlo.TRef.binary main_call2.v6 main_call2.v5 main_call2.v7 mulf,
    StableHlo.TRef.ternary main_call2.v1 (.of main_v106) main_call2.v7 main_call2.call1.v0 select ]

/-- 26 operations: the segment mean of the last rows and the head. -/
abbrev fin : List (HloOp τ sig (Elt F)) :=
  [ StableHlo.nullary main_cst_16 (constant S_ .f32 0x00000000#32),
    StableHlo.unary main_cst_16 main_v108 (broadcastInDim S4096x512 ![] bcast_S_S4096x512 : (⟨S_, .f32⟩ : BufTy).Contents (Elt F) → (⟨S4096x512, .f32⟩ : BufTy).Contents (Elt F)),
    StableHlo.unary main_arg1 main_v109 (broadcastInDim S100000x1 ![0] bcast_S100000_S100000x1_0 : (⟨S100000, .i32⟩ : BufTy).Contents (Elt F) → (⟨S100000x1, .i32⟩ : BufTy).Contents (Elt F)),
    StableHlo.ternary main_v108 main_v109 main_v107 main_v110 ((fun x i u => Host.scatterAdd scatter_S4096x512_S100000x1_S100000x512_1_0_0_1 x i u) : (⟨S4096x512, .f32⟩ : BufTy).Contents (Elt F) → (⟨S100000x1, .i32⟩ : BufTy).Contents (Elt F) → (⟨S100000x512, .f32⟩ : BufTy).Contents (Elt F) → (⟨S4096x512, .f32⟩ : BufTy).Contents (Elt F)),
    StableHlo.nullary main_cst_17 (constant S_ .f32 0x3F800000#32),
    StableHlo.unary main_cst_17 main_v111 (broadcastInDim S100000x1 ![] bcast_S_S100000x1 : (⟨S_, .f32⟩ : BufTy).Contents (Elt F) → (⟨S100000x1, .f32⟩ : BufTy).Contents (Elt F)),
    StableHlo.nullary main_cst_18 (constant S_ .f32 0x00000000#32),
    StableHlo.unary main_cst_18 main_v112 (broadcastInDim S4096x1 ![] bcast_S_S4096x1 : (⟨S_, .f32⟩ : BufTy).Contents (Elt F) → (⟨S4096x1, .f32⟩ : BufTy).Contents (Elt F)),
    StableHlo.unary main_arg1 main_v113 (broadcastInDim S100000x1 ![0] bcast_S100000_S100000x1_0 : (⟨S100000, .i32⟩ : BufTy).Contents (Elt F) → (⟨S100000x1, .i32⟩ : BufTy).Contents (Elt F)),
    StableHlo.ternary main_v112 main_v113 main_v111 main_v114 ((fun x i u => Host.scatterAdd scatter_S4096x1_S100000x1_S100000x1_1_0_0_1 x i u) : (⟨S4096x1, .f32⟩ : BufTy).Contents (Elt F) → (⟨S100000x1, .i32⟩ : BufTy).Contents (Elt F) → (⟨S100000x1, .f32⟩ : BufTy).Contents (Elt F) → (⟨S4096x1, .f32⟩ : BufTy).Contents (Elt F)),
    StableHlo.nullary main_cst_19 (constant S_ .f32 0x3F800000#32),
    StableHlo.unary main_cst_19 main_v115 (broadcastInDim S4096x1 ![] bcast_S_S4096x1 : (⟨S_, .f32⟩ : BufTy).Contents (Elt F) → (⟨S4096x1, .f32⟩ : BufTy).Contents (Elt F)),
    StableHlo.binary main_v114 main_v115 main_v116 (maximumf : (⟨S4096x1, .f32⟩ : BufTy).Contents (Elt F) → (⟨S4096x1, .f32⟩ : BufTy).Contents (Elt F) → (⟨S4096x1, .f32⟩ : BufTy).Contents (Elt F)),
    StableHlo.unary main_v116 main_v117 (broadcastInDim S4096x512 ![0, 1] bcast_S4096x1_S4096x512_0_1 : (⟨S4096x1, .f32⟩ : BufTy).Contents (Elt F) → (⟨S4096x512, .f32⟩ : BufTy).Contents (Elt F)),
    StableHlo.binary main_v110 main_v117 main_v118 (Host.divf : (⟨S4096x512, .f32⟩ : BufTy).Contents (Elt F) → (⟨S4096x512, .f32⟩ : BufTy).Contents (Elt F) → (⟨S4096x512, .f32⟩ : BufTy).Contents (Elt F)),
    StableHlo.binary main_v118 main_arg6 main_v119 ((fun l r => Host.dotGeneral dot_S4096x512_S512x1024_S4096x1024_1_0_0_1_n_n none l r) : (⟨S4096x512, .f32⟩ : BufTy).Contents (Elt F) → (⟨S512x1024, .f32⟩ : BufTy).Contents (Elt F) → (⟨S4096x1024, .f32⟩ : BufTy).Contents (Elt F)),
    StableHlo.unary main_arg7 main_v120 (broadcastInDim S1x1024 ![1] bcast_S1024_S1x1024_1 : (⟨S1024, .f32⟩ : BufTy).Contents (Elt F) → (⟨S1x1024, .f32⟩ : BufTy).Contents (Elt F)),
    StableHlo.unary main_v120 main_v121 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v119 main_v121 main_v122 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call3.cst (constant S_ .f32 0x00000000#32),
    StableHlo.TRef.unary main_call3.cst main_call3.v0 (broadcastInDim S4096x1024 ![] bcast_S_S4096x1024),
    StableHlo.TRef.binary (.of main_v122) main_call3.v0 main_call3.v1 maximumf,
    StableHlo.binary main_v123 main_arg8 main_v124 ((fun l r => Host.dotGeneral dot_S4096x1024_S1024x10_S4096x10_1_0_0_1_n_n none l r) : (⟨S4096x1024, .f32⟩ : BufTy).Contents (Elt F) → (⟨S1024x10, .f32⟩ : BufTy).Contents (Elt F) → (⟨S4096x10, .f32⟩ : BufTy).Contents (Elt F)),
    StableHlo.unary main_arg9 main_v125 (broadcastInDim S1x10 ![1] bcast_S10_S1x10_1 : (⟨S10, .f32⟩ : BufTy).Contents (Elt F) → (⟨S1x10, .f32⟩ : BufTy).Contents (Elt F)),
    StableHlo.unary main_v125 main_v126 (broadcastInDim S4096x10 ![0, 1] bcast_S1x10_S4096x10_0_1 : (⟨S1x10, .f32⟩ : BufTy).Contents (Elt F) → (⟨S4096x10, .f32⟩ : BufTy).Contents (Elt F)),
    StableHlo.binary main_v124 main_v126 main_v127 (addf : (⟨S4096x10, .f32⟩ : BufTy).Contents (Elt F) → (⟨S4096x10, .f32⟩ : BufTy).Contents (Elt F) → (⟨S4096x10, .f32⟩ : BufTy).Contents (Elt F)) ]

/-- The parts of @main, one after the other, are the layers and the head, one after the other. -/
theorem ops_split : (ops0 ++ ops1 ++ ops2 : List (HloOp τ sig (Elt F))) = lay0 ++ lay1 ++ lay2 ++ fin := rfl

end Cert.ReferenceIdeal.Hand

end
-- ==== Proof.RRun.lean ====
/- The reference's @main is the straight line of its host operations, and so runs: every weakly fair execution
   terminates with each buffer at the fold of the operations over the launch contents. -/
import proofs.«124445_j627065225441_1_alg».proof.Proof.ROps

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

-- some seventy-four binds re-associated per part: the rewriting under the chain recurses once per statement
set_option maxRecDepth 8192 in
set_option maxHeartbeats 1600000 in
/-- Each printed part of @main is its list of operations run in order (the calls unfolded at their sites). -/
theorem part0_eq (c : Dev nD) : main_part0 (F := F) c = seq ops0 := by
  simp only [main_part0, fn_elu.body, fn_where.body, fn_where_0.body, seq, bind_assoc, pure_bind]
  rfl
set_option maxRecDepth 8192 in
set_option maxHeartbeats 1600000 in
theorem part1_eq (c : Dev nD) : main_part1 (F := F) c = seq ops1 := by
  simp only [main_part1, fn_elu.body, fn_where.body, fn_where_0.body, seq, bind_assoc, pure_bind]
  rfl
set_option maxRecDepth 8192 in
set_option maxHeartbeats 1600000 in
theorem part2_eq (c : Dev nD) : main_part2 (F := F) c = seq ops2 := by
  simp only [main_part2, fn_elu.body, fn_where.body, fn_where_0.body, fn_relu.body, seq, bind_assoc, pure_bind]

/-- @main is the three parts' operations run in order. -/
theorem main_eq (c : Dev nD) : main (F := F) c = seq (ops0 ++ ops1 ++ ops2) := by
  rw [List.append_assoc, seq_append, seq_append, ← part0_eq c, ← part1_eq c, ← part2_eq c]
  rfl

/-- No TensorCore buffer of this signature is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the three parts touches TensorCore buffers only. -/
theorem ops_sub : (ops0 ++ ops1 ++ ops2 : List (HloOp τ sig (Elt F))).Forall fun op => op.bufs ⊆ tcRefs τ sig := by
  rw [List.forall_append, List.forall_append]
  exact ⟨⟨ops0_sub, ops1_sub⟩, ops2_sub⟩

/-- No operation of the three parts allocates. -/
theorem ops_fresh : ∀ op ∈ (ops0 ++ ops1 ++ ops2 : List (HloOp τ sig (Elt F))), op.fresh = ∅ := by
  intro op h
  rcases List.mem_append.mp h with h | h
  · rcases List.mem_append.mp h with h | h
    · exact ops0_fresh op h
    · exact ops1_fresh op h
  · exact ops2_fresh op h

/-- Every weakly fair execution of @main terminates, and each TensorCore buffer ends at the fold of the operations over
    its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops0 ++ ops1 ++ ops2) (launchContents m d) (Proc.devRef .tc b) :=
  run_seq scopedRefs_eq scopedSems_eq defs main (fun _ => ops0 ++ ops1 ++ ops2) main_eq (fun _ => ops_sub) m ρ
    (fun _ => ops_fresh)

end Cert.ReferenceIdeal.Hand

end
-- ==== Proof.RStages.lean ====
/- The reference's own spellings of the stages, each equal to the stage as the specification states it: the host's
   `dot_general` read at an index is the sum over the contracted coordinate, a bias broadcast over the rows is the bias
   at the column, and `jax.nn.elu`'s select over `1 · expm1(select(x > 0, 0, x))` is `x` above zero and `exp x - 1` otherwise. -/
import proofs.«124445_j627065225441_1_alg».proof.Proof.Gen.ReferenceIdeal
import proofs.«124445_j627065225441_1_alg».proof.Proof.Gen.KernelIdeal
import proofs.«124445_j627065225441_1_alg».proof.Proof.Spec
import Idealize.ShloMosaic.Lib.ValueIdx
import Idealize.ShloMosaic.PureOps.Ideal.Laws
import Idealize.ShloMosaic.Lib.IdealHost
import Idealize.ShloMosaic.Lib.Pipeline.Value

noncomputable section

namespace Cert.ReferenceIdeal.Stages

open Idealize.ShloMosaic Idealize.ShloMosaic.TcCoe Idealize.SL.Sem Idealize.ShloMosaic.ValueIdx Idealize.ShloMosaic.StableHlo
open Cert.ReferenceIdeal Cert.ReferenceIdeal.Gen

/-! Each of the four matrix products read at an index: the operand indices, coordinate by coordinate, then the sum. -/

theorem lhs_seg_0 (i : S4096x512.Idx) (q : dot_S4096x512_S512x512_S4096x512_1_0_0_1_n_n.contr.Idx) : (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhs_seg_1 (i : S4096x512.Idx) (q : dot_S4096x512_S512x512_S4096x512_1_0_0_1_n_n.contr.Idx) : (dot_S4096x512_S512x512_S4096x512_1_0_0_1_n_n.lhsIdx i q 1).val = (q ⟨0, by decide⟩).val :=
  dot_S4096x512_S512x512_S4096x512_1_0_0_1_n_n.lhsIdx_val_of_single rfl i q
theorem rhs_seg_0 (i : S4096x512.Idx) (q : dot_S4096x512_S512x512_S4096x512_1_0_0_1_n_n.contr.Idx) : (dot_S4096x512_S512x512_S4096x512_1_0_0_1_n_n.rhsIdx i q 0).val = (q ⟨0, by decide⟩).val :=
  dot_S4096x512_S512x512_S4096x512_1_0_0_1_n_n.rhsIdx_val_of_single rfl i q
theorem rhs_seg_1 (i : S4096x512.Idx) (q : dot_S4096x512_S512x512_S4096x512_1_0_0_1_n_n.contr.Idx) : (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl
/-- The product read at (r, d): the sum over the contracted coordinate. -/
theorem dot_seg_apply (x : FVec Ideal S4096x512 .f32) (w : FVec Ideal S512x512 .f32) (r : Fin 4096) (d : Fin 512) :
    Host.dotGeneral (F := Ideal) dot_S4096x512_S512x512_S4096x512_1_0_0_1_n_n none x w (ix2 r d) = ∑ k : Fin 512, x (ix2 r k) * w (ix2 k d) := by
  simp only [Host.dotGeneral]
  rw [Ideal.dotGeneral_apply, ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 r d) ((contrEquiv1 dot_S4096x512_S512x512_S4096x512_1_0_0_1_n_n 512 rfl rfl).symm k) = ix2 r k := funext fun a => Fin.ext (by
    match a with
    | ⟨0, _⟩ => exact lhs_seg_0 _ _
    | ⟨1, _⟩ => exact (lhs_seg_1 _ _).trans hk)
  have er : dot_S4096x512_S512x512_S4096x512_1_0_0_1_n_n.rhsIdx (ix2 r d) ((contrEquiv1 dot_S4096x512_S512x512_S4096x512_1_0_0_1_n_n 512 rfl rfl).symm k) = ix2 k d := funext fun a => Fin.ext (by
    match a with
    | ⟨0, _⟩ => exact (rhs_seg_0 _ _).trans hk
    | ⟨1, _⟩ => exact rhs_seg_1 _ _)
  rw [el, er]

theorem lhs_row_0 (i : S100000x512.Idx) (q : dot_S100000x512_S512x512_S100000x512_1_0_0_1_n_n.contr.Idx) : (dot_S100000x512_S512x512_S100000x512_1_0_0_1_n_n.lhsIdx i q 0).val = (i 0).val := by
  unfold DotDims.lhsIdx
  rw [dif_neg (show ¬(0 : Fin S100000x512.rank) ∈ dot_S100000x512_S512x512_S100000x512_1_0_0_1_n_n.lhsBatch by decide), dif_pos (show (0 : Fin S100000x512.rank) ∈ dot_S100000x512_S512x512_S100000x512_1_0_0_1_n_n.lhsNonContracting by decide)]
  rfl
theorem lhs_row_1 (i : S100000x512.Idx) (q : dot_S100000x512_S512x512_S100000x512_1_0_0_1_n_n.contr.Idx) : (dot_S100000x512_S512x512_S100000x512_1_0_0_1_n_n.lhsIdx i q 1).val = (q ⟨0, by decide⟩).val :=
  dot_S100000x512_S512x512_S100000x512_1_0_0_1_n_n.lhsIdx_val_of_single rfl i q
theorem rhs_row_0 (i : S100000x512.Idx) (q : dot_S100000x512_S512x512_S100000x512_1_0_0_1_n_n.contr.Idx) : (dot_S100000x512_S512x512_S100000x512_1_0_0_1_n_n.rhsIdx i q 0).val = (q ⟨0, by decide⟩).val :=
  dot_S100000x512_S512x512_S100000x512_1_0_0_1_n_n.rhsIdx_val_of_single rfl i q
theorem rhs_row_1 (i : S100000x512.Idx) (q : dot_S100000x512_S512x512_S100000x512_1_0_0_1_n_n.contr.Idx) : (dot_S100000x512_S512x512_S100000x512_1_0_0_1_n_n.rhsIdx i q 1).val = (i 1).val := by
  unfold DotDims.rhsIdx
  rw [dif_neg (show ¬(1 : Fin S512x512.rank) ∈ dot_S100000x512_S512x512_S100000x512_1_0_0_1_n_n.rhsBatch by decide), dif_pos (show (1 : Fin S512x512.rank) ∈ dot_S100000x512_S512x512_S100000x512_1_0_0_1_n_n.rhsNonContracting by decide)]
  rfl
/-- The product read at (r, d): the sum over the contracted coordinate. -/
theorem dot_row_apply (x : FVec Ideal S100000x512 .f32) (w : FVec Ideal S512x512 .f32) (r : Fin 100000) (d : Fin 512) :
    Host.dotGeneral (F := Ideal) dot_S100000x512_S512x512_S100000x512_1_0_0_1_n_n none x w (ix2 r d) = ∑ k : Fin 512, x (ix2 r k) * w (ix2 k d) := by
  simp only [Host.dotGeneral]
  rw [Ideal.dotGeneral_apply, ← Equiv.sum_comp (contrEquiv1 dot_S100000x512_S512x512_S100000x512_1_0_0_1_n_n 512 rfl rfl).symm]
  refine Finset.sum_congr rfl fun k _ => ?_
  have hk := contrEquiv1_symm_val dot_S100000x512_S512x512_S100000x512_1_0_0_1_n_n 512 rfl rfl k
  have el : dot_S100000x512_S512x512_S100000x512_1_0_0_1_n_n.lhsIdx (ix2 r d) ((contrEquiv1 dot_S100000x512_S512x512_S100000x512_1_0_0_1_n_n 512 rfl rfl).symm k) = ix2 r k := funext fun a => Fin.ext (by
    match a with
    | ⟨0, _⟩ => exact lhs_row_0 _ _
    | ⟨1, _⟩ => exact (lhs_row_1 _ _).trans hk)
  have er : dot_S100000x512_S512x512_S100000x512_1_0_0_1_n_n.rhsIdx (ix2 r d) ((contrEquiv1 dot_S100000x512_S512x512_S100000x512_1_0_0_1_n_n 512 rfl rfl).symm k) = ix2 k d := funext fun a => Fin.ext (by
    match a with
    | ⟨0, _⟩ => exact (rhs_row_0 _ _).trans hk
    | ⟨1, _⟩ => exact rhs_row_1 _ _)
  rw [el, er]

theorem lhs_h1_0 (i : S4096x1024.Idx) (q : dot_S4096x512_S512x1024_S4096x1024_1_0_0_1_n_n.contr.Idx) : (dot_S4096x512_S512x1024_S4096x1024_1_0_0_1_n_n.lhsIdx i q 0).val = (i 0).val := by
  unfold DotDims.lhsIdx
  rw [dif_neg (show ¬(0 : Fin S4096x512.rank) ∈ dot_S4096x512_S512x1024_S4096x1024_1_0_0_1_n_n.lhsBatch by decide), dif_pos (show (0 : Fin S4096x512.rank) ∈ dot_S4096x512_S512x1024_S4096x1024_1_0_0_1_n_n.lhsNonContracting by decide)]
  rfl
theorem lhs_h1_1 (i : S4096x1024.Idx) (q : dot_S4096x512_S512x1024_S4096x1024_1_0_0_1_n_n.contr.Idx) : (dot_S4096x512_S512x1024_S4096x1024_1_0_0_1_n_n.lhsIdx i q 1).val = (q ⟨0, by decide⟩).val :=
  dot_S4096x512_S512x1024_S4096x1024_1_0_0_1_n_n.lhsIdx_val_of_single rfl i q
theorem rhs_h1_0 (i : S4096x1024.Idx) (q : dot_S4096x512_S512x1024_S4096x1024_1_0_0_1_n_n.contr.Idx) : (dot_S4096x512_S512x1024_S4096x1024_1_0_0_1_n_n.rhsIdx i q 0).val = (q ⟨0, by decide⟩).val :=
  dot_S4096x512_S512x1024_S4096x1024_1_0_0_1_n_n.rhsIdx_val_of_single rfl i q
theorem rhs_h1_1 (i : S4096x1024.Idx) (q : dot_S4096x512_S512x1024_S4096x1024_1_0_0_1_n_n.contr.Idx) : (dot_S4096x512_S512x1024_S4096x1024_1_0_0_1_n_n.rhsIdx i q 1).val = (i 1).val := by
  unfold DotDims.rhsIdx
  rw [dif_neg (show ¬(1 : Fin S512x1024.rank) ∈ dot_S4096x512_S512x1024_S4096x1024_1_0_0_1_n_n.rhsBatch by decide), dif_pos (show (1 : Fin S512x1024.rank) ∈ dot_S4096x512_S512x1024_S4096x1024_1_0_0_1_n_n.rhsNonContracting by decide)]
  rfl
/-- The product read at (r, d): the sum over the contracted coordinate. -/
theorem dot_h1_apply (x : FVec Ideal S4096x512 .f32) (w : FVec Ideal S512x1024 .f32) (r : Fin 4096) (d : Fin 1024) :
    Host.dotGeneral (F := Ideal) dot_S4096x512_S512x1024_S4096x1024_1_0_0_1_n_n none x w (ix2 r d) = ∑ k : Fin 512, x (ix2 r k) * w (ix2 k d) := by
  simp only [Host.dotGeneral]
  rw [Ideal.dotGeneral_apply, ← Equiv.sum_comp (contrEquiv1 dot_S4096x512_S512x1024_S4096x1024_1_0_0_1_n_n 512 rfl rfl).symm]
  refine Finset.sum_congr rfl fun k _ => ?_
  have hk := contrEquiv1_symm_val dot_S4096x512_S512x1024_S4096x1024_1_0_0_1_n_n 512 rfl rfl k
  have el : dot_S4096x512_S512x1024_S4096x1024_1_0_0_1_n_n.lhsIdx (ix2 r d) ((contrEquiv1 dot_S4096x512_S512x1024_S4096x1024_1_0_0_1_n_n 512 rfl rfl).symm k) = ix2 r k := funext fun a => Fin.ext (by
    match a with
    | ⟨0, _⟩ => exact lhs_h1_0 _ _
    | ⟨1, _⟩ => exact (lhs_h1_1 _ _).trans hk)
  have er : dot_S4096x512_S512x1024_S4096x1024_1_0_0_1_n_n.rhsIdx (ix2 r d) ((contrEquiv1 dot_S4096x512_S512x1024_S4096x1024_1_0_0_1_n_n 512 rfl rfl).symm k) = ix2 k d := funext fun a => Fin.ext (by
    match a with
    | ⟨0, _⟩ => exact (rhs_h1_0 _ _).trans hk
    | ⟨1, _⟩ => exact rhs_h1_1 _ _)
  rw [el, er]

theorem lhs_h2_0 (i : S4096x10.Idx) (q : dot_S4096x1024_S1024x10_S4096x10_1_0_0_1_n_n.contr.Idx) : (dot_S4096x1024_S1024x10_S4096x10_1_0_0_1_n_n.lhsIdx i q 0).val = (i 0).val := by
  unfold DotDims.lhsIdx
  rw [dif_neg (show ¬(0 : Fin S4096x1024.rank) ∈ dot_S4096x1024_S1024x10_S4096x10_1_0_0_1_n_n.lhsBatch by decide), dif_pos (show (0 : Fin S4096x1024.rank) ∈ dot_S4096x1024_S1024x10_S4096x10_1_0_0_1_n_n.lhsNonContracting by decide)]
  rfl
theorem lhs_h2_1 (i : S4096x10.Idx) (q : dot_S4096x1024_S1024x10_S4096x10_1_0_0_1_n_n.contr.Idx) : (dot_S4096x1024_S1024x10_S4096x10_1_0_0_1_n_n.lhsIdx i q 1).val = (q ⟨0, by decide⟩).val :=
  dot_S4096x1024_S1024x10_S4096x10_1_0_0_1_n_n.lhsIdx_val_of_single rfl i q
theorem rhs_h2_0 (i : S4096x10.Idx) (q : dot_S4096x1024_S1024x10_S4096x10_1_0_0_1_n_n.contr.Idx) : (dot_S4096x1024_S1024x10_S4096x10_1_0_0_1_n_n.rhsIdx i q 0).val = (q ⟨0, by decide⟩).val :=
  dot_S4096x1024_S1024x10_S4096x10_1_0_0_1_n_n.rhsIdx_val_of_single rfl i q
theorem rhs_h2_1 (i : S4096x10.Idx) (q : dot_S4096x1024_S1024x10_S4096x10_1_0_0_1_n_n.contr.Idx) : (dot_S4096x1024_S1024x10_S4096x10_1_0_0_1_n_n.rhsIdx i q 1).val = (i 1).val := by
  unfold DotDims.rhsIdx
  rw [dif_neg (show ¬(1 : Fin S1024x10.rank) ∈ dot_S4096x1024_S1024x10_S4096x10_1_0_0_1_n_n.rhsBatch by decide), dif_pos (show (1 : Fin S1024x10.rank) ∈ dot_S4096x1024_S1024x10_S4096x10_1_0_0_1_n_n.rhsNonContracting by decide)]
  rfl
/-- The product read at (r, d): the sum over the contracted coordinate. -/
theorem dot_h2_apply (x : FVec Ideal S4096x1024 .f32) (w : FVec Ideal S1024x10 .f32) (r : Fin 4096) (d : Fin 10) :
    Host.dotGeneral (F := Ideal) dot_S4096x1024_S1024x10_S4096x10_1_0_0_1_n_n none x w (ix2 r d) = ∑ k : Fin 1024, x (ix2 r k) * w (ix2 k d) := by
  simp only [Host.dotGeneral]
  rw [Ideal.dotGeneral_apply, ← Equiv.sum_comp (contrEquiv1 dot_S4096x1024_S1024x10_S4096x10_1_0_0_1_n_n 1024 rfl rfl).symm]
  refine Finset.sum_congr rfl fun k _ => ?_
  have hk := contrEquiv1_symm_val dot_S4096x1024_S1024x10_S4096x10_1_0_0_1_n_n 1024 rfl rfl k
  have el : dot_S4096x1024_S1024x10_S4096x10_1_0_0_1_n_n.lhsIdx (ix2 r d) ((contrEquiv1 dot_S4096x1024_S1024x10_S4096x10_1_0_0_1_n_n 1024 rfl rfl).symm k) = ix2 r k := funext fun a => Fin.ext (by
    match a with
    | ⟨0, _⟩ => exact lhs_h2_0 _ _
    | ⟨1, _⟩ => exact (lhs_h2_1 _ _).trans hk)
  have er : dot_S4096x1024_S1024x10_S4096x10_1_0_0_1_n_n.rhsIdx (ix2 r d) ((contrEquiv1 dot_S4096x1024_S1024x10_S4096x10_1_0_0_1_n_n 1024 rfl rfl).symm k) = ix2 k d := funext fun a => Fin.ext (by
    match a with
    | ⟨0, _⟩ => exact (rhs_h2_0 _ _).trans hk
    | ⟨1, _⟩ => exact rhs_h2_1 _ _)
  rw [el, er]

/-- A vector of `n` entries made a one-row matrix and laid along each of `m` rows, read at (r, t): the vector at t. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) := by
  have e1 := broadcastInDim_apply ![0, 1] h2 (broadcastInDim ⟨2, ![1, n]⟩ ![1] h1 b) (ix2 r t) (ix2 (0 : Fin 1) t) (by
    intro a
    match a with
    | ⟨0, _⟩ => rfl
    | ⟨1, _⟩ =>
      show t.val = if n = 1 then 0 else t.val
      split
      · have := t.isLt; omega
      · rfl)
  have e2 := broadcastInDim_apply ![1] h1 b (ix2 (0 : Fin 1) t) (ix1 t) (by
    intro a
    match a with
    | ⟨0, _⟩ =>
      show t.val = if n = 1 then 0 else t.val
      split
      · have := t.isLt; omega
      · rfl)
  exact e1.trans e2

/-- `x @ w + b` on the segment rows, as the reference spells it. -/
theorem affine_eq (x : FVec Ideal S4096x512 .f32) (w : FVec Ideal S512x512 .f32) (b : FVec Ideal S512 .f32) :
    addf (Host.dotGeneral dot_S4096x512_S512x512_S4096x512_1_0_0_1_n_n none x w) (broadcastInDim S4096x512 ![0, 1] bcast_S1x512_S4096x512_0_1 (broadcastInDim S1x512 ![1] bcast_S512_S1x512_1 b))
      = Cert.Spec.affine x w b := by
  funext i
  obtain ⟨r, d, rfl⟩ : ∃ (r : Fin 4096) (d : Fin 512), i = ix2 r d := ⟨i 0, i 1, eq_ix2 i⟩
  unfold Cert.Spec.affine
  rw [addf_apply, dot_seg_apply, bias_apply]
  try rfl

/-- A scalar constant laid over any shape, read anywhere: the number its bit pattern denotes. -/
theorem splat_apply {T : Shape} (h : S_.BroadcastsInDim T ![]) (c : BitVec 32) (j : T.Idx) :
    broadcastInDim T ![] h (constant (F := Ideal) S_ .f32 c) j = Ideal.ofBits .f32 c := rfl

/-- The activation at one extended real: where `v > 0` both sides are `v`; elsewhere the inner select returns `v`,
    `expm1 v` is `exp v - 1`, and the factor `1` drops. -/
theorem elu_scalar (v : EReal) :
    Scalar.select (FloatOps.cmpf (F := Ideal) (φ := .f32) .ogt v (Ideal.ofBits .f32 0x00000000#32)) v
      (Ideal.ofBits .f32 0x3F800000#32 * FloatOps.hostUnary (F := Ideal) (φ := .f32) .expm1
        (Scalar.select (FloatOps.cmpf (F := Ideal) (φ := .f32) .ogt v (Ideal.ofBits .f32 0x00000000#32)) (Ideal.ofBits .f32 0x00000000#32) v))
      = Cert.Spec.elu v := by
  unfold Cert.Spec.elu
  generalize FloatOps.cmpf (F := Ideal) (φ := .f32) .ogt v (Ideal.ofBits .f32 0x00000000#32) = c
  by_cases hc : c = 1#1
  · subst hc; rw [select_one, select_one]
  · have h0 := eq_zero_of_ne_one hc; subst h0
    rw [select_zero, select_zero, select_zero, Ideal.hostUnary_expm1_def, Ideal.ofBits_one_f32, one_mul]

/-- One layer on the rows, as the reference spells it: `elu((h @ w + b) + g)`. -/
theorem layer_eq (h : FVec Ideal S100000x512 .f32) (w : FVec Ideal S512x512 .f32) (b : FVec Ideal S512 .f32)
    (g : FVec Ideal S100000x512 .f32) (y : FVec Ideal S100000x512 .f32)
    (hy : y = addf (addf (Host.dotGeneral dot_S100000x512_S512x512_S100000x512_1_0_0_1_n_n none h w) (broadcastInDim S100000x512 ![0, 1] bcast_S1x512_S100000x512_0_1 (broadcastInDim S1x512 ![1] bcast_S512_S1x512_1 b))) g) :
    (select (cmpf .ogt y (broadcastInDim S100000x512 ![] bcast_S_S100000x512 (constant S_ .f32 0x00000000#32))) y
      (mulf (broadcastInDim S100000x512 ![] bcast_S_S100000x512 (constant S_ .f32 0x3F800000#32))
        (Host.expm1 (select (cmpf .ogt y (broadcastInDim S100000x512 ![] bcast_S_S100000x512 (constant S_ .f32 0x00000000#32)))
          (broadcastInDim S100000x512 ![] bcast_S_S100000x512 (id (constant S_ .f32 0x00000000#32))) y))))
      = Cert.Spec.layer h w b g := by
  funext i
  obtain ⟨r, d, rfl⟩ : ∃ (r : Fin 100000) (d : Fin 512), i = ix2 r d := ⟨i 0, i 1, eq_ix2 i⟩
  have hyi : y (ix2 r d) = ((∑ k : Fin 512, h (ix2 r k) * w (ix2 k d)) + b (ix1 d)) + g (ix2 r d) := by
    rw [hy, addf_apply, addf_apply, dot_row_apply, bias_apply]
  unfold Cert.Spec.layer
  show _ = Cert.Spec.elu (((∑ k : Fin 512, h (ix2 r k) * w (ix2 k d)) + b (ix1 d)) + g (ix2 r d))
  rw [← hyi]
  exact elu_scalar (y (ix2 r d))

/-- The head, as the reference spells it: `relu(x @ w1 + b1) @ w2 + b2`. -/
theorem head_eq (x : FVec Ideal S4096x512 .f32) (w1 : FVec Ideal S512x1024 .f32) (b1 : FVec Ideal S1024 .f32)
    (w2 : FVec Ideal S1024x10 .f32) (b2 : FVec Ideal S10 .f32) :
    addf (Host.dotGeneral dot_S4096x1024_S1024x10_S4096x10_1_0_0_1_n_n none
        (maximumf (addf (Host.dotGeneral dot_S4096x512_S512x1024_S4096x1024_1_0_0_1_n_n none x w1) (broadcastInDim S4096x1024 ![0, 1] bcast_S1x1024_S4096x1024_0_1 (broadcastInDim S1x1024 ![1] bcast_S1024_S1x1024_1 b1)))
          (broadcastInDim S4096x1024 ![] bcast_S_S4096x1024 (constant S_ .f32 0x00000000#32))) w2)
      (broadcastInDim S4096x10 ![0, 1] bcast_S1x10_S4096x10_0_1 (broadcastInDim S1x10 ![1] bcast_S10_S1x10_1 b2))
      = Cert.Spec.head x w1 b1 w2 b2 := by
  funext i
  obtain ⟨r, t, rfl⟩ : ∃ (r : Fin 4096) (t : Fin 10), i = ix2 r t := ⟨i 0, i 1, eq_ix2 i⟩
  unfold Cert.Spec.head
  show _ = (∑ j : Fin 1024, max ((∑ k : Fin 512, x (ix2 r k) * w1 (ix2 k j)) + b1 (ix1 j)) (Ideal.ofBits .f32 0x00000000#32)
      * w2 (ix2 j t)) + b2 (ix1 t)
  rw [addf_apply, dot_h2_apply, bias_apply]
  refine congrArg (· + b2 (ix1 t)) (Finset.sum_congr rfl fun j _ => ?_)
  rw [maximumf_apply, addf_apply, dot_h1_apply, bias_apply, splat_apply]

/-- The segment mean, as the reference spells it, is the specification's (the same operations over the same records). -/
theorem segMean_eq (h : FVec Ideal S100000x512 .f32) (idx : IVec S100000 32) :
    Host.divf
      (Host.scatterAdd scatter_S4096x512_S100000x1_S100000x512_1_0_0_1
        (broadcastInDim S4096x512 ![] bcast_S_S4096x512 (constant S_ .f32 0x00000000#32))
        (broadcastInDim S100000x1 ![0] bcast_S100000_S100000x1_0 idx) h)
      (broadcastInDim S4096x512 ![0, 1] bcast_S4096x1_S4096x512_0_1
        (maximumf
          (Host.scatterAdd scatter_S4096x1_S100000x1_S100000x1_1_0_0_1
            (broadcastInDim S4096x1 ![] bcast_S_S4096x1 (constant S_ .f32 0x00000000#32))
            (broadcastInDim S100000x1 ![0] bcast_S100000_S100000x1_0 idx)
            (broadcastInDim S100000x1 ![] bcast_S_S100000x1 (constant S_ .f32 0x3F800000#32)))
          (broadcastInDim S4096x1 ![] bcast_S_S4096x1 (constant S_ .f32 0x3F800000#32))))
      = Cert.Spec.segMean h idx := by
  rfl

/-- The row gather, as the reference spells it, is the specification's. -/
theorem rowsAt_eq (x : FVec Ideal S4096x512 .f32) (idx : IVec S100000 32) :
    Host.gather gather_S4096x512_S100000x1_S100000x512_1_0_n_n_0_1_1512 x
      (broadcastInDim S100000x1 ![0] bcast_S100000_S100000x1_0
        (select (cmpi .slt idx (broadcastInDim S100000 ![] bcast_S_S100000 (constantI S_ 32 0#32)))
          (addi idx (broadcastInDim S100000 ![] bcast_S_S100000 (constantI S_ 32 4096#32))) idx))
      = Cert.Spec.rowsAt x idx := by
  rfl

theorem mat0_eq (w : FVec Ideal S3x512x512 .f32) :
    shapeCast S512x512 (extractStridedSlice S1x512x512 ![0, 0, 0] w slices_S3x512x512_S1x512x512_0_0_0) shapeCasts_S1x512x512_S512x512 = Cert.Spec.mat0 w := by
  rfl
theorem mat1_eq (w : FVec Ideal S3x512x512 .f32) :
    shapeCast S512x512 (extractStridedSlice S1x512x512 ![1, 0, 0] w slices_S3x512x512_S1x512x512_1_0_0) shapeCasts_S1x512x512_S512x512 = Cert.Spec.mat1 w := by
  rfl
theorem mat2_eq (w : FVec Ideal S3x512x512 .f32) :
    shapeCast S512x512 (extractStridedSlice S1x512x512 ![2, 0, 0] w slices_S3x512x512_S1x512x512_2_0_0) shapeCasts_S1x512x512_S512x512 = Cert.Spec.mat2 w := by
  rfl
theorem vec0_eq (b : FVec Ideal S3x512 .f32) :
    shapeCast S512 (extractStridedSlice S1x512 ![0, 0] b slices_S3x512_S1x512_0_0) shapeCasts_S1x512_S512 = Cert.Spec.vec0 b := by
  rfl
theorem vec1_eq (b : FVec Ideal S3x512 .f32) :
    shapeCast S512 (extractStridedSlice S1x512 ![1, 0] b slices_S3x512_S1x512_1_0) shapeCasts_S1x512_S512 = Cert.Spec.vec1 b := by
  rfl
theorem vec2_eq (b : FVec Ideal S3x512 .f32) :
    shapeCast S512 (extractStridedSlice S1x512 ![2, 0] b slices_S3x512_S1x512_2_0) shapeCasts_S1x512_S512 = Cert.Spec.vec2 b := by
  rfl

end Cert.ReferenceIdeal.Stages

end
-- ==== Proof.RValue.lean ====
/- The reference's operations read as values: each layer's stretch leaves that layer of the specification in its
   result buffer, the last stretch the head of the segment mean; together, the network. -/
import proofs.«124445_j627065225441_1_alg».proof.Proof.ROps
import proofs.«124445_j627065225441_1_alg».proof.Proof.RStages
import Idealize.ShloMosaic.Lib.Pipeline.Frame

noncomputable section

namespace Cert.ReferenceIdeal.Hand

open Idealize.ShloMosaic Idealize.ShloMosaic.TcCoe Idealize.SL.Sem Idealize.ShloMosaic.ValueIdx Idealize.ShloMosaic.StableHlo
open Cert.ReferenceIdeal Cert.ReferenceIdeal.Gen

variable (W : Valuation τ sig (Elt Ideal))

/-- The buffers each stretch writes (every result buffer of its operations). -/
abbrev wrL0 : List (Ref sig .tc) :=
  [
   main_v0, main_v1, main_v2, main_v3, main_v4, main_v5, main_v6, main_v7,
   main_cst, main_v8, main_v9, main_v10, main_cst_0, main_v11, main_cst_1, main_v12,
   main_v13, main_v14, main_cst_2, main_v15, main_v16, main_v17, main_v18, main_v19,
   main_v20, main_v21, main_v22, main_v23, main_v24, main_v25, main_v26, main_c,
   main_v27, main_v28, main_c_3, main_v29, main_v30, main_v31, main_v32, main_v33,
   main_v34, main_call0_cst, main_call0_v0, main_call0_v1, main_call0_cst_0, main_call0_v2, main_call0_v3, main_call0_cst_1,
   main_call0_call0_v0, main_call0_call0_v1, main_call0_v4, main_call0_v5, main_call0_cst_2, main_call0_v6, main_call0_v7, main_v35 ]
abbrev wrL1 : List (Ref sig .tc) :=
  [
   main_v36, main_v37, main_v38, main_v39, main_v40, main_v41, main_v42, main_v43,
   main_cst_4, main_v44, main_v45, main_v46, main_cst_5, main_v47, main_cst_6, main_v48,
   main_v49, main_v50, main_cst_7, main_v51, main_v52, main_v53, main_v54, main_v55,
   main_v56, main_v57, main_v58, main_v59, main_v60, main_v61, main_v62, main_c_8,
   main_v63, main_v64, main_c_9, main_v65, main_v66, main_v67, main_v68, main_v69,
   main_v70, main_call1_cst, main_call1_v0, main_call1_v1, main_call1_cst_0, main_call1_v2, main_call1_v3, main_call1_cst_1,
   main_call1_call0_v0, main_call1_call0_v1, main_call1_v4, main_call1_v5, main_call1_cst_2, main_call1_v6, main_call1_v7, main_v71 ]
abbrev wrL2 : List (Ref sig .tc) :=
  [
   main_v72, main_v73, main_v74, main_v75, main_v76, main_v77, main_v78, main_v79,
   main_cst_10, main_v80, main_v81, main_v82, main_cst_11, main_v83, main_cst_12, main_v84,
   main_v85, main_v86, main_cst_13, main_v87, main_v88, main_v89, main_v90, main_v91,
   main_v92, main_v93, main_v94, main_v95, main_v96, main_v97, main_v98, main_c_14,
   main_v99, main_v100, main_c_15, main_v101, main_v102, main_v103, main_v104, main_v105,
   main_v106, main_call2_cst, main_call2_v0, main_call2_v1, main_call2_cst_0, main_call2_v2, main_call2_v3, main_call2_cst_1,
   main_call2_call0_v0, main_call2_call0_v1, main_call2_v4, main_call2_v5, main_call2_cst_2, main_call2_v6, main_call2_v7, main_v107 ]
/-- The buffers the last stretch writes. -/
abbrev wrFin : List (Ref sig .tc) :=
  [
   main_cst_16, main_v108, main_v109, main_v110, main_cst_17, main_v111, main_cst_18, main_v112,
   main_v113, main_v114, main_cst_19, main_v115, main_v116, main_v117, main_v118, main_v119,
   main_v120, main_v121, main_v122, main_call3_cst, main_call3_v0, main_v123, main_v124, main_v125,
   main_v126, main_v127 ]

/-- One operation's result buffer is in the list. -/
local macro "writes_one" : tactic =>
  `(tactic| (simp only [nullary_writes, unary_writes, binary_writes, ternary_writes, reshape_writes, Finset.singleton_subset_iff, List.mem_toFinset]
             exact List.mem_map_of_mem (by decide)))

/-- Every operation of a stretch writes into the stretch's list. -/
theorem lay0_writes : (lay0 : List (HloOp τ sig (Elt Ideal))).Forall fun op => op.writes ⊆ (wrL0.map (Proc.devRef (τ := τ) .tc)).toFinset := by
  simp only [List.Forall]; repeat' constructor
  all_goals writes_one
theorem lay1_writes : (lay1 : List (HloOp τ sig (Elt Ideal))).Forall fun op => op.writes ⊆ (wrL1.map (Proc.devRef (τ := τ) .tc)).toFinset := by
  simp only [List.Forall]; repeat' constructor
  all_goals writes_one
theorem lay2_writes : (lay2 : List (HloOp τ sig (Elt Ideal))).Forall fun op => op.writes ⊆ (wrL2.map (Proc.devRef (τ := τ) .tc)).toFinset := by
  simp only [List.Forall]; repeat' constructor
  all_goals writes_one
theorem fin_writes : (fin : List (HloOp τ sig (Elt Ideal))).Forall fun op => op.writes ⊆ (wrFin.map (Proc.devRef (τ := τ) .tc)).toFinset := by
  simp only [List.Forall]; repeat' constructor
  all_goals writes_one

/-- A buffer a stretch does not write keeps its contents. -/
theorem keepL0 (r : Ref sig .tc) (hr : r ∉ wrL0) : after (lay0 (F := Ideal)) W (Proc.devRef .tc r) = W (Proc.devRef .tc r) := by
  exact after_of_writes_sub lay0 W lay0_writes hr
theorem keepL1 (r : Ref sig .tc) (hr : r ∉ wrL1) : after (lay1 (F := Ideal)) W (Proc.devRef .tc r) = W (Proc.devRef .tc r) := by
  exact after_of_writes_sub lay1 W lay1_writes hr
theorem keepL2 (r : Ref sig .tc) (hr : r ∉ wrL2) : after (lay2 (F := Ideal)) W (Proc.devRef .tc r) = W (Proc.devRef .tc r) := by
  exact after_of_writes_sub lay2 W lay2_writes hr

/-- Layer 0's stretch leaves `step0` of the rows it reads (the argument rows) in its result buffer. -/
theorem lay0_out : after (lay0 (F := Ideal)) W (Proc.devRef .tc main_v35)
    = Cert.Spec.step0 (W (Proc.devRef .tc main_arg0)) (W (Proc.devRef .tc main_arg1)) (W (Proc.devRef .tc main_arg2)) (W (Proc.devRef .tc main_arg3)) (W (Proc.devRef .tc main_arg4)) (W (Proc.devRef .tc main_arg5)) := by
  show after lay0 W (Proc.devRef .tc main_v35) = _
  after_results_simp
  simp only [TRef.ofBuf, TRef.toBuf, cast_eq]
  unfold Cert.Spec.step0
  refine Stages.layer_eq _ _ _ _ _ ?_
  rw [← Stages.mat0_eq (W (Proc.devRef .tc main_arg2)), ← Stages.mat0_eq (W (Proc.devRef .tc main_arg4)),
    ← Stages.vec0_eq (W (Proc.devRef .tc main_arg3)), ← Stages.vec0_eq (W (Proc.devRef .tc main_arg5)),
    ← Stages.rowsAt_eq, ← Stages.affine_eq, ← Stages.segMean_eq]
  rfl
/-- Layer 1's stretch leaves `step1` of layer 0's rows. -/
theorem lay1_out : after (lay1 (F := Ideal)) W (Proc.devRef .tc main_v71)
    = Cert.Spec.step1 (W (Proc.devRef .tc main_v35)) (W (Proc.devRef .tc main_arg1)) (W (Proc.devRef .tc main_arg2)) (W (Proc.devRef .tc main_arg3)) (W (Proc.devRef .tc main_arg4)) (W (Proc.devRef .tc main_arg5)) := by
  show after lay1 W (Proc.devRef .tc main_v71) = _
  after_results_simp
  simp only [TRef.ofBuf, TRef.toBuf, cast_eq]
  unfold Cert.Spec.step1
  refine Stages.layer_eq _ _ _ _ _ ?_
  rw [← Stages.mat1_eq (W (Proc.devRef .tc main_arg2)), ← Stages.mat1_eq (W (Proc.devRef .tc main_arg4)),
    ← Stages.vec1_eq (W (Proc.devRef .tc main_arg3)), ← Stages.vec1_eq (W (Proc.devRef .tc main_arg5)),
    ← Stages.rowsAt_eq, ← Stages.affine_eq, ← Stages.segMean_eq]
  rfl
/-- Layer 2's stretch leaves `step2` of layer 1's rows. -/
theorem lay2_out : after (lay2 (F := Ideal)) W (Proc.devRef .tc main_v107)
    = Cert.Spec.step2 (W (Proc.devRef .tc main_v71)) (W (Proc.devRef .tc main_arg1)) (W (Proc.devRef .tc main_arg2)) (W (Proc.devRef .tc main_arg3)) (W (Proc.devRef .tc main_arg4)) (W (Proc.devRef .tc main_arg5)) := by
  show after lay2 W (Proc.devRef .tc main_v107) = _
  after_results_simp
  simp only [TRef.ofBuf, TRef.toBuf, cast_eq]
  unfold Cert.Spec.step2
  refine Stages.layer_eq _ _ _ _ _ ?_
  rw [← Stages.mat2_eq (W (Proc.devRef .tc main_arg2)), ← Stages.mat2_eq (W (Proc.devRef .tc main_arg4)),
    ← Stages.vec2_eq (W (Proc.devRef .tc main_arg3)), ← Stages.vec2_eq (W (Proc.devRef .tc main_arg5)),
    ← Stages.rowsAt_eq, ← Stages.affine_eq, ← Stages.segMean_eq]
  rfl
/-- The last stretch leaves the head of the segment mean of layer 2's rows. -/
theorem fin_out : after (fin (F := Ideal)) W (Proc.devRef .tc main_v127)
    = Cert.Spec.head (Cert.Spec.segMean (W (Proc.devRef .tc main_v107)) (W (Proc.devRef .tc main_arg1))) (W (Proc.devRef .tc main_arg6)) (W (Proc.devRef .tc main_arg7)) (W (Proc.devRef .tc main_arg8)) (W (Proc.devRef .tc main_arg9)) := by
  show after fin W (Proc.devRef .tc main_v127) = _
  after_results_simp
  simp only [TRef.ofBuf, TRef.toBuf, cast_eq]
  rw [← Stages.segMean_eq (W (Proc.devRef .tc main_v107)) (W (Proc.devRef .tc main_arg1))]
  exact Stages.head_eq _ _ _ _ _

/-- A buffer the last stretch does not write keeps its contents. -/
theorem keepFin (r : Ref sig .tc) (hr : r ∉ wrFin) : after (fin (F := Ideal)) W (Proc.devRef .tc r) = W (Proc.devRef .tc r) := by
  exact after_of_writes_sub fin W fin_writes hr

/-- The whole line leaves the network of the arguments in the result buffer. -/
theorem out_eq : after (ops0 ++ ops1 ++ ops2 : List (HloOp τ sig (Elt Ideal))) W (Proc.devRef .tc main_v127)
    = Cert.Spec.network (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [ops_split, StableHlo.after_append, StableHlo.after_append, StableHlo.after_append]
  rw [fin_out, lay2_out, keepL2 _ main_arg1 (by decide), keepL2 _ main_arg6 (by decide), keepL2 _ main_arg7 (by decide), keepL2 _ main_arg8 (by decide), keepL2 _ main_arg9 (by decide)]
  rw [lay1_out, keepL1 _ main_arg1 (by decide), keepL1 _ main_arg2 (by decide), keepL1 _ main_arg3 (by decide), keepL1 _ main_arg4 (by decide), keepL1 _ main_arg5 (by decide), keepL1 _ main_arg6 (by decide), keepL1 _ main_arg7 (by decide), keepL1 _ main_arg8 (by decide), keepL1 _ main_arg9 (by decide)]
  rw [lay0_out, keepL0 _ main_arg1 (by decide), keepL0 _ main_arg2 (by decide), keepL0 _ main_arg3 (by decide), keepL0 _ main_arg4 (by decide), keepL0 _ main_arg5 (by decide), keepL0 _ main_arg6 (by decide), keepL0 _ main_arg7 (by decide), keepL0 _ main_arg8 (by decide), keepL0 _ main_arg9 (by decide)]
  rfl

/-- None of the ten arguments is a result buffer of any stretch. -/
theorem args_not_written : ∀ r ∈ [main_arg0, main_arg1, main_arg2, main_arg3, main_arg4, main_arg5, main_arg6, main_arg7, main_arg8, main_arg9],
    r ∉ wrL0 ∧ r ∉ wrL1 ∧ r ∉ wrL2 ∧ r ∉ wrFin := by
  decide

/-- No operation writes an argument. -/
theorem arg_kept (r : Ref sig .tc) (hr : r ∈ [main_arg0, main_arg1, main_arg2, main_arg3, main_arg4, main_arg5, main_arg6, main_arg7, main_arg8, main_arg9]) :
    after (ops0 ++ ops1 ++ ops2 : List (HloOp τ sig (Elt Ideal))) W (Proc.devRef .tc r) = W (Proc.devRef .tc r) := by
  obtain ⟨h0, h1, h2, h3⟩ := args_not_written r hr
  rw [ops_split, StableHlo.after_append, StableHlo.after_append, StableHlo.after_append,
    keepFin _ r h3, keepL2 _ r h2, keepL1 _ r h1, keepL0 _ r h0]

end Cert.ReferenceIdeal.Hand

end
-- ==== Proof.lean ====
/-
  The certificate of a three-layer message-passing network with a two-layer head.

  The kernel program runs seven kernel regions among host operations: per layer, the segment means of the rows (a host
  scatter-add and a division by the clamped count), a segment-level affine map `mean · Wsum[i] + bsum[i]` in a region
  over four blocks of segment rows, a host gather of its rows back to the 100000 rows, and a row-level region over a
  hundred blocks of rows, `elu((h · Wfc[i] + bfc[i]) + gathered)`; then the segment mean of the last rows and the head
  `max(mean · Wf1 + bf1, 0) · Wf2 + bf2` in a last region. The reference is the same network in jnp on the host.

  Over the extended reals a change of float format is the identity, a matrix product into a zero accumulator and the
  host's dot_general are both the sum over the contracted coordinate, and `exp x - 1` is `expm1 x`; so both programs
  compute one function of the arguments, `Cert.Spec.network`: each region's output array is its stage of the arrays the
  region is entered with (block by block, the blocks tiling the array), each host stretch is read operation by
  operation, and the reference's straight line of operations is read the same way. No law used needs the inputs finite:
  the precondition is never opened. The idealization rewrote no operation, so `preserves` has nothing to show.
-/
import proofs.«124445_j627065225441_1_alg».proof.Defs
import proofs.«124445_j627065225441_1_alg».proof.Proof.Gen.Kernel
import proofs.«124445_j627065225441_1_alg».proof.Proof.Gen.Kernel.Frame
import proofs.«124445_j627065225441_1_alg».proof.Proof.Gen.KernelIdeal
import proofs.«124445_j627065225441_1_alg».proof.Proof.Gen.KernelIdeal.Frame
import proofs.«124445_j627065225441_1_alg».proof.Proof.Gen.ReferenceIdeal
import proofs.«124445_j627065225441_1_alg».proof.Proof.Gen.Pre_finite_inputs
import proofs.«124445_j627065225441_1_alg».proof.Proof.KRun
import proofs.«124445_j627065225441_1_alg».proof.Proof.KValue
import proofs.«124445_j627065225441_1_alg».proof.Proof.RRun
import proofs.«124445_j627065225441_1_alg».proof.Proof.RValue
import Idealize.ShloMosaic.Adequacy
import Idealize.ShloMosaic.Init

noncomputable section

namespace Cert.Proof

open Idealize.ShloMosaic Idealize.SL.Sem

/-- The kernel program as printed runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Hand.arg_kept _ Cert.ReferenceIdeal.main_arg0 (by decide)),
     (h c Cert.ReferenceIdeal.main_arg1).trans (Cert.ReferenceIdeal.Hand.arg_kept _ Cert.ReferenceIdeal.main_arg1 (by decide)),
     (h c Cert.ReferenceIdeal.main_arg2).trans (Cert.ReferenceIdeal.Hand.arg_kept _ Cert.ReferenceIdeal.main_arg2 (by decide)),
     (h c Cert.ReferenceIdeal.main_arg3).trans (Cert.ReferenceIdeal.Hand.arg_kept _ Cert.ReferenceIdeal.main_arg3 (by decide)),
     (h c Cert.ReferenceIdeal.main_arg4).trans (Cert.ReferenceIdeal.Hand.arg_kept _ Cert.ReferenceIdeal.main_arg4 (by decide)),
     (h c Cert.ReferenceIdeal.main_arg5).trans (Cert.ReferenceIdeal.Hand.arg_kept _ Cert.ReferenceIdeal.main_arg5 (by decide)),
     (h c Cert.ReferenceIdeal.main_arg6).trans (Cert.ReferenceIdeal.Hand.arg_kept _ Cert.ReferenceIdeal.main_arg6 (by decide)),
     (h c Cert.ReferenceIdeal.main_arg7).trans (Cert.ReferenceIdeal.Hand.arg_kept _ Cert.ReferenceIdeal.main_arg7 (by decide)),
     (h c Cert.ReferenceIdeal.main_arg8).trans (Cert.ReferenceIdeal.Hand.arg_kept _ Cert.ReferenceIdeal.main_arg8 (by decide)),
     (h c Cert.ReferenceIdeal.main_arg9).trans (Cert.ReferenceIdeal.Hand.arg_kept _ Cert.ReferenceIdeal.main_arg9 (by decide))⟩)
    (Cert.ReferenceIdeal.Hand.run_all (F := Ideal) m ρ)

/-- Both programs end with the network of the arguments in their result buffer. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.result_eq m ρ c), (h c).2⟩)
      (Cert.KernelIdeal.Named.run_named m ρ)
  · refine (θ_run Cert.ReferenceIdeal.defs _ _).mono (fun r h c => ⟨?_,
     (h c Cert.ReferenceIdeal.main_arg0).trans (Cert.ReferenceIdeal.Hand.arg_kept _ Cert.ReferenceIdeal.main_arg0 (by decide)),
     (h c Cert.ReferenceIdeal.main_arg1).trans (Cert.ReferenceIdeal.Hand.arg_kept _ Cert.ReferenceIdeal.main_arg1 (by decide)),
     (h c Cert.ReferenceIdeal.main_arg2).trans (Cert.ReferenceIdeal.Hand.arg_kept _ Cert.ReferenceIdeal.main_arg2 (by decide)),
     (h c Cert.ReferenceIdeal.main_arg3).trans (Cert.ReferenceIdeal.Hand.arg_kept _ Cert.ReferenceIdeal.main_arg3 (by decide)),
     (h c Cert.ReferenceIdeal.main_arg4).trans (Cert.ReferenceIdeal.Hand.arg_kept _ Cert.ReferenceIdeal.main_arg4 (by decide)),
     (h c Cert.ReferenceIdeal.main_arg5).trans (Cert.ReferenceIdeal.Hand.arg_kept _ Cert.ReferenceIdeal.main_arg5 (by decide)),
     (h c Cert.ReferenceIdeal.main_arg6).trans (Cert.ReferenceIdeal.Hand.arg_kept _ Cert.ReferenceIdeal.main_arg6 (by decide)),
     (h c Cert.ReferenceIdeal.main_arg7).trans (Cert.ReferenceIdeal.Hand.arg_kept _ Cert.ReferenceIdeal.main_arg7 (by decide)),
     (h c Cert.ReferenceIdeal.main_arg8).trans (Cert.ReferenceIdeal.Hand.arg_kept _ Cert.ReferenceIdeal.main_arg8 (by decide)),
     (h c Cert.ReferenceIdeal.main_arg9).trans (Cert.ReferenceIdeal.Hand.arg_kept _ Cert.ReferenceIdeal.main_arg9 (by decide))⟩)
      (Cert.ReferenceIdeal.Hand.run_all (F := Ideal) m' ρ')
    refine (h c Cert.ReferenceIdeal.main_v127).trans ((Cert.ReferenceIdeal.Hand.out_eq _).trans ?_)
    show Cert.Spec.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
